-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v96)) (v1 : (c : Dev Cert.KernelIdeal.nD) → Buf (Elt Ideal) ((c.tc : Thread Cert.KernelIdeal.nD Cert.KernelIdeal.τ).loc Cert.KernelIdeal.main_v118_0)) (v2 : (c : Dev Cert.KernelIdeal.nD) → Buf (Elt Ideal) ((c.tc : Thread Cert.KernelIdeal.nD Cert.KernelIdeal.τ).loc Cert.KernelIdeal.main_v118_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_v118_0) = v1 c
          ∧ r.2.mem ((c.tc : Thread Cert.KernelIdeal.nD Cert.KernelIdeal.τ).loc Cert.KernelIdeal.main_v118_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_v247) = v1 c
          ∧ r.2.mem ((c.tc : Thread Cert.ReferenceIdeal.nD Cert.ReferenceIdeal.τ).loc Cert.ReferenceIdeal.main_v248) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x256 : Shape := ⟨2, ![128, 256]⟩
abbrev S256 : Shape := ⟨1, ![256]⟩
abbrev S256x128 : Shape := ⟨2, ![256, 128]⟩
abbrev S128x8 : Shape := ⟨2, ![128, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part4 {F : FTy → Type} [FloatOps F] (main_arg16 : FVec F S8 .f32) (main_v63 : IVec S_ 1) (main_v67 : IVec S_ 1) : IVec S_ 1 :=
  let main_v68 : IVec S_ 1 := andi main_v63 main_v67
  let main_v69 : FVec F S8 .f32 := Host.absf main_arg16
  let main_cst_26 : FVec F S_ .f32 := constant S_ .f32 0x7F800000#32
  let main_v70 : FVec F S8 .f32 := broadcastInDim S8 ![] bcast_S_S8 main_cst_26
  let main_v71 : IVec S8 1 := cmpf .olt main_v69 main_v70
  let main_c_27 : IVec S_ 1 := constantI S_ 1 1#1
  let main_v72 : IVec S_ 1 := (fun x v => Host.reduce IntOp.andi x v reducesTo_S8_S_d0 h_S_) main_v71 main_c_27
  let main_v73 : IVec S_ 1 := andi main_v68 main_v72
  main_v73

def fn_part3 {F : FTy → Type} [FloatOps F] (main_arg13 : FVec F S256x128 .f32) (main_arg14 : FVec F S128 .f32) (main_arg15 : FVec F S128x8 .f32) (main_arg16 : FVec F S8 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x128 .f32 := Host.absf main_arg13
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x8 .f32 := Host.absf main_arg15
  let main_cst_24 : FVec F S_ .f32 := constant S_ .f32 0x7F800000#32
  let main_v65 : FVec F S128x8 .f32 := broadcastInDim S128x8 ![] bcast_S_S128x8 main_cst_24
  let main_v66 : IVec S128x8 1 := cmpf .olt main_v64 main_v65
  let main_c_25 : IVec S_ 1 := constantI S_ 1 1#1
  let main_v67 : IVec S_ 1 := (fun x v => Host.reduce IntOp.andi x v reducesTo_S128x8_S_d0_1 h_S_) main_v66 main_c_25
  fn_part4 (F := F) main_arg16 main_v63 main_v67

def fn_part2 {F : FTy → Type} [FloatOps F] (main_arg9 : FVec F S2x128 .f32) (main_arg10 : FVec F S2x128 .f32) (main_arg11 : FVec F S128x256 .f32) (main_arg12 : FVec F S256 .f32) (main_arg13 : FVec F S256x128 .f32) (main_arg14 : FVec F S128 .f32) (main_arg15 : FVec F S128x8 .f32) (main_arg16 : FVec F S8 .f32) (main_v33 : IVec S_ 1) : IVec S_ 1 :=
  let main_v34 : FVec F S2x128 .f32 := Host.absf main_arg9
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128 .f32 := Host.absf main_arg10
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S128x256 .f32 := Host.absf main_arg11
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_v48 main_v49 main_v50

def fn_part1 {F : FTy → Type} [FloatOps F] (main_arg6 : FVec F S128 .f32) (main_arg7 : FVec F S2x128x128 .f32) (main_arg8 : FVec F S2x128 .f32) (main_arg9 : FVec F S2x128 .f32) (main_arg10 : FVec F S2x128 .f32) (main_arg11 : FVec F S128x256 .f32) (main_arg12 : FVec F S256 .f32) (main_arg13 : FVec F S256x128 .f32) (main_arg14 : FVec F S128 .f32) (main_arg15 : FVec F S128x8 .f32) (main_arg16 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128x128 .f32 := Host.absf main_arg7
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg8
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128 .f32) (main_arg6 : FVec F S128 .f32) (main_arg7 : FVec F S2x128x128 .f32) (main_arg8 : FVec F S2x128 .f32) (main_arg9 : FVec F S2x128 .f32) (main_arg10 : FVec F S2x128 .f32) (main_arg11 : FVec F S128x256 .f32) (main_arg12 : FVec F S256 .f32) (main_arg13 : FVec F S256x128 .f32) (main_arg14 : FVec F S128 .f32) (main_arg15 : FVec F S128x8 .f32) (main_arg16 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x256 : Shape := ⟨2, ![128, 256]⟩
abbrev S256 : Shape := ⟨1, ![256]⟩
abbrev S256x128 : Shape := ⟨2, ![256, 128]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S5000 : Shape := ⟨1, ![5000]⟩
abbrev S5000x1 : Shape := ⟨2, ![5000, 1]⟩
abbrev S1x128x128 : Shape := ⟨3, ![1, 128, 128]⟩
abbrev S100000x1 : Shape := ⟨2, ![100000, 1]⟩
abbrev S64x128 : Shape := ⟨2, ![64, 128]⟩
abbrev S5000x64 : Shape := ⟨2, ![5000, 64]⟩
abbrev S64 : Shape := ⟨1, ![64]⟩
abbrev S64x1 : Shape := ⟨2, ![64, 1]⟩
abbrev S1x256 : Shape := ⟨2, ![1, 256]⟩
abbrev S1x8 : Shape := ⟨2, ![1, 8]⟩
abbrev S64x8 : Shape := ⟨2, ![64, 8]⟩
abbrev S64x256 : Shape := ⟨2, ![64, 256]⟩

abbrev nBuf : Space → Nat
  | .hbm => 159
  | .vmem => 47
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128, .f32⟩
  | 6 => ⟨S128, .f32⟩
  | 7 => ⟨S2x128x128, .f32⟩
  | 8 => ⟨S2x128, .f32⟩
  | 9 => ⟨S2x128, .f32⟩
  | 10 => ⟨S2x128, .f32⟩
  | 11 => ⟨S128x256, .f32⟩
  | 12 => ⟨S256, .f32⟩
  | 13 => ⟨S256x128, .f32⟩
  | 14 => ⟨S128, .f32⟩
  | 15 => ⟨S128x8, .f32⟩
  | 16 => ⟨S8, .f32⟩
  | 17 => ⟨S1x1600000, .i32⟩
  | 18 => ⟨S1600000, .i32⟩
  | 19 => ⟨S1x1600000, .i32⟩
  | 20 => ⟨S1600000, .i32⟩
  | 21 => ⟨S100000, .i32⟩
  | 22 => ⟨S1700000, .i32⟩
  | 23 => ⟨S1700000, .i32⟩
  | 24 => ⟨S_, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S1700000x1, .f32⟩
  | 58 => ⟨S100000x128, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x128, .f32⟩
  | 68 => ⟨S1700000x128, .f32⟩
  | 69 => ⟨S1700000x128, .f32⟩
  | 70 => ⟨S_, .f32⟩
  | 71 => ⟨S100000x128, .f32⟩
  | 72 => ⟨S1700000x1, .i32⟩
  | 73 => ⟨S100000x128, .f32⟩
  | 74 => ⟨S1x128, .f32⟩
  | 75 => ⟨S100000x128, .f32⟩
  | 76 => ⟨S100000x128, .f32⟩
  | 77 => ⟨S1x128, .f32⟩
  | 78 => ⟨S1x128, .f32⟩
  | 79 => ⟨S100000x128, .f32⟩
  | 80 => ⟨S1x128x128, .f32⟩
  | 81 => ⟨S128x128, .f32⟩
  | 82 => ⟨S1x128, .f32⟩
  | 83 => ⟨S128, .f32⟩
  | 84 => ⟨S100000x128, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000x128, .f32⟩
  | 94 => ⟨S1700000x128, .f32⟩
  | 95 => ⟨S1700000x128, .f32⟩
  | 96 => ⟨S_, .f32⟩
  | 97 => ⟨S100000x128, .f32⟩
  | 98 => ⟨S1700000x1, .i32⟩
  | 99 => ⟨S100000x128, .f32⟩
  | 100 => ⟨S1x128, .f32⟩
  | 101 => ⟨S100000x128, .f32⟩
  | 102 => ⟨S100000x128, .f32⟩
  | 103 => ⟨S1x128, .f32⟩
  | 104 => ⟨S128, .f32⟩
  | 105 => ⟨S1x128, .f32⟩
  | 106 => ⟨S128, .f32⟩
  | 107 => ⟨S1x128, .f32⟩
  | 108 => ⟨S1x128, .f32⟩
  | 109 => ⟨S100000x128, .f32⟩
  | 110 => ⟨S1x128x128, .f32⟩
  | 111 => ⟨S128x128, .f32⟩
  | 112 => ⟨S1x128, .f32⟩
  | 113 => ⟨S128, .f32⟩
  | 114 => ⟨S100000x128, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x128, .f32⟩
  | 124 => ⟨S1700000x128, .f32⟩
  | 125 => ⟨S1700000x128, .f32⟩
  | 126 => ⟨S_, .f32⟩
  | 127 => ⟨S100000x128, .f32⟩
  | _ => ⟨S100000x128, .f32⟩

abbrev hbmTy0_1 (i : Nat) : BufTy := match i % 128 with
  | 0 => ⟨S1700000x1, .i32⟩
  | 1 => ⟨S100000x128, .f32⟩
  | 2 => ⟨S1x128, .f32⟩
  | 3 => ⟨S100000x128, .f32⟩
  | 4 => ⟨S100000x128, .f32⟩
  | 5 => ⟨S1x128, .f32⟩
  | 6 => ⟨S128, .f32⟩
  | 7 => ⟨S1x128, .f32⟩
  | 8 => ⟨S128, .f32⟩
  | 9 => ⟨S1x128, .f32⟩
  | 10 => ⟨S1x128, .f32⟩
  | 11 => ⟨S100000x128, .f32⟩
  | 12 => ⟨S100000x1, .i32⟩
  | 13 => ⟨S64x128, .f32⟩
  | 14 => ⟨S_, .f32⟩
  | 15 => ⟨S100000, .f32⟩
  | 16 => ⟨S_, .f32⟩
  | 17 => ⟨S64, .f32⟩
  | 18 => ⟨S100000x1, .i32⟩
  | 19 => ⟨S64, .f32⟩
  | 20 => ⟨S_, .f32⟩
  | 21 => ⟨S64, .f32⟩
  | 22 => ⟨S64, .f32⟩
  | 23 => ⟨S64x1, .f32⟩
  | 24 => ⟨S64x128, .f32⟩
  | 25 => ⟨S64x128, .f32⟩
  | 26 => ⟨S1x256, .f32⟩
  | 27 => ⟨S1x128, .f32⟩
  | 28 => ⟨S1x8, .f32⟩
  | 29 => ⟨S64x8, .f32⟩
  | 30 => ⟨S64x8, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x1, .i32⟩
  | .local _ .vmem, ⟨36, _⟩ => ⟨S5000x1, .i32⟩
  | .local _ .vmem, ⟨37, _⟩ => ⟨S64x128, .f32⟩
  | .local _ .vmem, ⟨38, _⟩ => ⟨S64x128, .f32⟩
  | .local _ .vmem, ⟨39, _⟩ => ⟨S128x256, .f32⟩
  | .local _ .vmem, ⟨40, _⟩ => ⟨S1x256, .f32⟩
  | .local _ .vmem, ⟨41, _⟩ => ⟨S256x128, .f32⟩
  | .local _ .vmem, ⟨42, _⟩ => ⟨S1x128, .f32⟩
  | .local _ .vmem, ⟨43, _⟩ => ⟨S128x8, .f32⟩
  | .local _ .vmem, ⟨44, _⟩ => ⟨S1x8, .f32⟩
  | .local _ .vmem, ⟨45, _⟩ => ⟨S64x8, .f32⟩
  | .local _ .vmem, ⟨46, _⟩ => ⟨S64x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_6 : Ref sig .tc := ⟨.hbm, 59, rfl⟩
abbrev main_v32 : Ref sig .tc := ⟨.hbm, 60, rfl⟩
abbrev main_v33 : Ref sig .tc := ⟨.hbm, 61, rfl⟩
abbrev main_c_7 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_9 : Ref sig .tc := ⟨.hbm, 85, rfl⟩
abbrev main_v55 : Ref sig .tc := ⟨.hbm, 86, rfl⟩
abbrev main_v56 : Ref sig .tc := ⟨.hbm, 87, rfl⟩
abbrev main_c_10 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_11 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_c_12 : Ref sig .tc := ⟨.hbm, 115, rfl⟩
abbrev main_v82 : Ref sig .tc := ⟨.hbm, 116, rfl⟩
abbrev main_v83 : Ref sig .tc := ⟨.hbm, 117, rfl⟩
abbrev main_c_13 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_14 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_15 : Ref sig .tc := ⟨.hbm, 142, rfl⟩
abbrev main_v106 : Ref sig .tc := ⟨.hbm, 143, rfl⟩
abbrev main_cst_16 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_17 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118_0 : Ref sig .tc := ⟨.hbm, 157, rfl⟩
abbrev main_v118_1 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg1_1 : Ref sig .tc := ⟨.vmem, 36, rfl⟩
abbrev cc6_stg2_0 : Ref sig .tc := ⟨.vmem, 37, rfl⟩
abbrev cc7_stg0_0 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg3_0 : Ref sig .tc := ⟨.vmem, 41, rfl⟩
abbrev cc7_stg4_0 : Ref sig .tc := ⟨.vmem, 42, rfl⟩
abbrev cc7_stg5_0 : Ref sig .tc := ⟨.vmem, 43, rfl⟩
abbrev cc7_stg6_0 : Ref sig .tc := ⟨.vmem, 44, rfl⟩
abbrev cc7_stg7_0 : Ref sig .tc := ⟨.vmem, 45, rfl⟩
abbrev cc7_stg8_0 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32
abbrev cc6_sem0_0 : DmaSem sig := 33
abbrev cc6_sem0_1 : DmaSem sig := 34
abbrev cc6_sem1_0 : DmaSem sig := 35
abbrev cc6_sem1_1 : DmaSem sig := 36
abbrev cc6_sem2_0 : DmaSem sig := 37
abbrev cc7_sem0_0 : DmaSem sig := 38
abbrev cc7_sem1_0 : DmaSem sig := 39
abbrev cc7_sem2_0 : DmaSem sig := 40
abbrev cc7_sem3_0 : DmaSem sig := 41
abbrev cc7_sem4_0 : DmaSem sig := 42
abbrev cc7_sem5_0 : DmaSem sig := 43
abbrev cc7_sem6_0 : DmaSem sig := 44
abbrev cc7_sem7_0 : DmaSem sig := 45
abbrev cc7_sem8_0 : DmaSem sig := 46

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S64x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S128x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x8 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x8 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S64x8 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S64x8 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S128_S1x128 : S128.ShapeCasts S1x128
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128x128_S128x128 : S128x128.ShapeCasts S128x128
  slices_S2x128x128_S1x128x128_1_0_0 : S2x128x128.Slices ![1, 0, 0] S1x128x128
  slices_S2x128_S1x128_1_0 : S2x128.Slices ![1, 0] S1x128
  shapeCasts_S100000_S100000x1 : S100000.ShapeCasts S100000x1
  inb_S64x128_S64x128_0_0 : ∀ a, (![0, 0] : Fin 2 → Nat) a + S64x128.size a ≤ S64x128.size a
  h_S64x128 : 0 < S64x128.numel
  iota_S5000x64_d1_w32 : S5000x64.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  natLt_1_32 : 1 < 32
  shapeCasts_S64x128_S64x128 : S64x128.ShapeCasts S64x128
  bcast_S_S64 : S_.BroadcastsInDim S64 (![] : Fin 0 → Fin S64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S256_S1x256 : S256.ShapeCasts S1x256
  shapeCasts_S8_S1x8 : S8.ShapeCasts S1x8
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S256x128_S256x128_0_0 : ∀ a, (![0, 0] : Fin 2 → Nat) a + S256x128.size a ≤ S256x128.size a
  h_S256x128 : 0 < S256x128.numel
  broadcasts_S1x128_S64x128 : S1x128.Broadcasts S64x128
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S64x8 : S1x8.Broadcasts S64x8
  inb_S64x8_S64x8_0_0 : ∀ a, (![0, 0] : Fin 2 → Nat) a + S64x8.size a ≤ S64x8.size a
  h_S64x8 : 0 < S64x8.numel
  reduces_S64x8_S64 : S64x8.Reduces [1] S64
  shapeCasts_S64_S64x1 : S64.ShapeCasts S64x1
  broadcasts_S64x1_S64x8 : S64x1.Broadcasts S64x8
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x64_S5000x128_S64x128_0_0_1_1_n_n_wf : DotDims.WF S5000x64 S5000x128 S64x128 [0] [0] [1] [1] [] []
  scatter_S64_S100000x1_S100000_n_0_0_1_wf : ScatterDims.WF S64 S100000x1 S100000 [] [0] [0] 1
  dot_S64x128_S128x256_S64x256_1_0_0_1_n_n_wf : DotDims.WF S64x128 S128x256 S64x256 [1] [0] [0] [1] [] []
  dot_S64x256_S256x128_S64x128_1_0_0_1_n_n_wf : DotDims.WF S64x256 S256x128 S64x128 [1] [0] [0] [1] [] []
  dot_S64x128_S128x8_S64x8_1_0_0_1_n_n_wf : DotDims.WF S64x128 S128x8 S64x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .i32 = 32 ∨ (Rect.block (s := S100000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x128.size a ≤ S64x128.size a
  hwx6_2 : ∀ i : grid6.Coords, EltTy.bits .f32 = 32 ∨ (Rect.block (s := S64x128) S64x128.size (cc6_transform_2 i) (hinb6_2 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S64x128.size a ≤ S64x128.size a
  hwx7_0 : ∀ i : grid7.Coords, EltTy.bits .f32 = 32 ∨ (Rect.block (s := S64x128) S64x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x256.size a ≤ S128x256.size a
  hwx7_1 : ∀ i : grid7.Coords, EltTy.bits .f32 = 32 ∨ (Rect.block (s := S128x256) S128x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256x128.size a ≤ S256x128.size a
  hwx7_3 : ∀ i : grid7.Coords, EltTy.bits .f32 = 32 ∨ (Rect.block (s := S256x128) S256x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x8.size a ≤ S128x8.size a
  hwx7_5 : ∀ i : grid7.Coords, EltTy.bits .f32 = 32 ∨ (Rect.block (s := S128x8) S128x8.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x8.size a ≤ S1x8.size a
  hwx7_6 : ∀ i : grid7.Coords, EltTy.bits .f32 = 32 ∨ (Rect.block (s := S1x8) S1x8.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S64x8.size a ≤ S64x8.size a
  hwx7_7 : ∀ i : grid7.Coords, EltTy.bits .f32 = 32 ∨ (Rect.block (s := S64x8) S64x8.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S64x8.size a ≤ S64x8.size a
  hwx7_8 : ∀ i : grid7.Coords, EltTy.bits .f32 = 32 ∨ (Rect.block (s := S64x8) S64x8.size (cc7_transform_8 i) (hinb7_8 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x8_S64x8_1_0_0_1_n_n : DotDims S64x128 S128x8 S64x8 where
  lhsContracting := [1]
  rhsContracting := [0]
  lhsNonContracting := [0]
  rhsNonContracting := [1]
  lhsBatch := []
  rhsBatch := []
  wf := dot_S64x128_S128x8_S64x8_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v69) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v76) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v81) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v96) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v101) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v102) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v103) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v103) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v104) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v105) S64x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v114) S64x128.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg11) S128x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v115) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg13) S256x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v116) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg15) S128x8.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v117) S1x8.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v118_0) S64x8.size cc7_transform_7 reads7_7 true true 1 stage7_7 sem7_7
    hrank7 hreads7_7 hinb7_7 nbuf7_7 (Memref.isWhole_whole _) hwx7_7 hstage7_7

abbrev win7_8 : Pipeline.Window sig grid7 :=
  Pipeline.Window.ofSpec (Memref.whole main_v118_1) S64x8.size cc7_transform_8 reads7_8 true true 1 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x256 : Shape := ⟨2, ![128, 256]⟩
abbrev S256 : Shape := ⟨1, ![256]⟩
abbrev S256x128 : Shape := ⟨2, ![256, 128]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x128x128 : Shape := ⟨3, ![1, 128, 128]⟩
abbrev S64x128 : Shape := ⟨2, ![64, 128]⟩
abbrev S64 : Shape := ⟨1, ![64]⟩
abbrev S64x1 : Shape := ⟨2, ![64, 1]⟩
abbrev S64x256 : Shape := ⟨2, ![64, 256]⟩
abbrev S1x256 : Shape := ⟨2, ![1, 256]⟩
abbrev S64x8 : Shape := ⟨2, ![64, 8]⟩
abbrev S1x8 : Shape := ⟨2, ![1, 8]⟩

abbrev nBuf : Space → Nat
  | .hbm => 344
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128, .f32⟩
  | 6 => ⟨S128, .f32⟩
  | 7 => ⟨S2x128x128, .f32⟩
  | 8 => ⟨S2x128, .f32⟩
  | 9 => ⟨S2x128, .f32⟩
  | 10 => ⟨S2x128, .f32⟩
  | 11 => ⟨S128x256, .f32⟩
  | 12 => ⟨S256, .f32⟩
  | 13 => ⟨S256x128, .f32⟩
  | 14 => ⟨S128, .f32⟩
  | 15 => ⟨S128x8, .f32⟩
  | 16 => ⟨S8, .f32⟩
  | 17 => ⟨S1x1600000, .i32⟩
  | 18 => ⟨S1600000, .i32⟩
  | 19 => ⟨S1x1600000, .i32⟩
  | 20 => ⟨S1600000, .i32⟩
  | 21 => ⟨S100000x128, .f32⟩
  | 22 => ⟨S100000, .i32⟩
  | 23 => ⟨S1700000, .i32⟩
  | 24 => ⟨S1700000, .i32⟩
  | 25 => ⟨S_, .f32⟩
  | 26 => ⟨S1700000, .f32⟩
  | 27 => ⟨S_, .f32⟩
  | 28 => ⟨S100000, .f32⟩
  | 29 => ⟨S1700000x1, .i32⟩
  | 30 => ⟨S100000, .f32⟩
  | 31 => ⟨S_, .f32⟩
  | 32 => ⟨S100000, .f32⟩
  | 33 => ⟨S100000, .i1⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x128, .f32⟩
  | 67 => ⟨S1700000x1, .f32⟩
  | 68 => ⟨S1700000x128, .f32⟩
  | 69 => ⟨S1700000x128, .f32⟩
  | 70 => ⟨S_, .f32⟩
  | 71 => ⟨S100000x128, .f32⟩
  | 72 => ⟨S1700000x1, .i32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S_, .f32⟩
  | 81 => ⟨S100000, .f32⟩
  | 82 => ⟨S100000x1, .f32⟩
  | 83 => ⟨S_, .f32⟩
  | 84 => ⟨S100000x1, .f32⟩
  | 85 => ⟨S100000x1, .f32⟩
  | 86 => ⟨S100000x128, .f32⟩
  | 87 => ⟨S100000x128, .f32⟩
  | 88 => ⟨S100000x128, .f32⟩
  | 89 => ⟨S_, .f32⟩
  | 90 => ⟨S100000, .f32⟩
  | 91 => ⟨S100000x1, .f32⟩
  | 92 => ⟨S_, .f32⟩
  | 93 => ⟨S100000x1, .f32⟩
  | 94 => ⟨S100000x1, .f32⟩
  | 95 => ⟨S100000x128, .f32⟩
  | 96 => ⟨S100000x128, .f32⟩
  | 97 => ⟨S_, .f32⟩
  | 98 => ⟨S100000x1, .f32⟩
  | 99 => ⟨S100000x1, .f32⟩
  | 100 => ⟨S100000x1, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S1x128x128, .f32⟩
  | 110 => ⟨S128x128, .f32⟩
  | 111 => ⟨S1x128, .f32⟩
  | 112 => ⟨S128, .f32⟩
  | 113 => ⟨S100000x128, .f32⟩
  | 114 => ⟨S100000, .i32⟩
  | 115 => ⟨S1700000, .i32⟩
  | 116 => ⟨S1700000, .i32⟩
  | 117 => ⟨S_, .f32⟩
  | 118 => ⟨S1700000, .f32⟩
  | 119 => ⟨S_, .f32⟩
  | 120 => ⟨S100000, .f32⟩
  | 121 => ⟨S1700000x1, .i32⟩
  | 122 => ⟨S100000, .f32⟩
  | 123 => ⟨S_, .f32⟩
  | 124 => ⟨S100000, .f32⟩
  | 125 => ⟨S100000, .i1⟩
  | 126 => ⟨S100000, .f32⟩
  | 127 => ⟨S_, .f32⟩
  | _ => ⟨S100000x128, .f32⟩

abbrev hbmTy0_1 (i : Nat) : BufTy := match i % 128 with
  | 0 => ⟨S_, .f32⟩
  | 1 => ⟨S100000, .f32⟩
  | 2 => ⟨S100000, .f32⟩
  | 3 => ⟨S_, .i32⟩
  | 4 => ⟨S1700000, .i32⟩
  | 5 => ⟨S1700000, .i1⟩
  | 6 => ⟨S_, .i32⟩
  | 7 => ⟨S1700000, .i32⟩
  | 8 => ⟨S1700000, .i32⟩
  | 9 => ⟨S1700000, .i32⟩
  | 10 => ⟨S1700000x1, .i32⟩
  | 11 => ⟨S1700000, .f32⟩
  | 12 => ⟨S_, .i32⟩
  | 13 => ⟨S1700000, .i32⟩
  | 14 => ⟨S1700000, .i1⟩
  | 15 => ⟨S_, .i32⟩
  | 16 => ⟨S1700000, .i32⟩
  | 17 => ⟨S1700000, .i32⟩
  | 18 => ⟨S1700000, .i32⟩
  | 19 => ⟨S1700000x1, .i32⟩
  | 20 => ⟨S1700000, .f32⟩
  | 21 => ⟨S1700000, .f32⟩
  | 22 => ⟨S_, .i32⟩
  | 23 => ⟨S1700000, .i32⟩
  | 24 => ⟨S1700000, .i1⟩
  | 25 => ⟨S_, .i32⟩
  | 26 => ⟨S1700000, .i32⟩
  | 27 => ⟨S1700000, .i32⟩
  | 28 => ⟨S1700000, .i32⟩
  | 29 => ⟨S1700000x1, .i32⟩
  | 30 => ⟨S1700000x128, .f32⟩
  | 31 => ⟨S1700000x1, .f32⟩
  | 32 => ⟨S1700000x128, .f32⟩
  | 33 => ⟨S1700000x128, .f32⟩
  | 34 => ⟨S_, .f32⟩
  | 35 => ⟨S100000x128, .f32⟩
  | 36 => ⟨S1700000x1, .i32⟩
  | 37 => ⟨S100000x128, .f32⟩
  | 38 => ⟨S1x128, .f32⟩
  | 39 => ⟨S100000x128, .f32⟩
  | 40 => ⟨S100000x128, .f32⟩
  | 41 => ⟨S_, .f32⟩
  | 42 => ⟨S100000x128, .f32⟩
  | 43 => ⟨S100000x128, .f32⟩
  | 44 => ⟨S1x128, .f32⟩
  | 45 => ⟨S128, .f32⟩
  | 46 => ⟨S1x128, .f32⟩
  | 47 => ⟨S128, .f32⟩
  | 48 => ⟨S_, .f32⟩
  | 49 => ⟨S100000, .f32⟩
  | 50 => ⟨S100000x1, .f32⟩
  | 51 => ⟨S_, .f32⟩
  | 52 => ⟨S100000x1, .f32⟩
  | 53 => ⟨S100000x1, .f32⟩
  | 54 => ⟨S100000x128, .f32⟩
  | 55 => ⟨S100000x128, .f32⟩
  | 56 => ⟨S100000x128, .f32⟩
  | 57 => ⟨S_, .f32⟩
  | 58 => ⟨S100000, .f32⟩
  | 59 => ⟨S100000x1, .f32⟩
  | 60 => ⟨S_, .f32⟩
  | 61 => ⟨S100000x1, .f32⟩
  | 62 => ⟨S100000x1, .f32⟩
  | 63 => ⟨S100000x128, .f32⟩
  | 64 => ⟨S100000x128, .f32⟩
  | 65 => ⟨S_, .f32⟩
  | 66 => ⟨S100000x1, .f32⟩
  | 67 => ⟨S100000x1, .f32⟩
  | 68 => ⟨S100000x1, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S1x128x128, .f32⟩
  | 78 => ⟨S128x128, .f32⟩
  | 79 => ⟨S1x128, .f32⟩
  | 80 => ⟨S128, .f32⟩
  | 81 => ⟨S100000x128, .f32⟩
  | 82 => ⟨S100000, .i32⟩
  | 83 => ⟨S1700000, .i32⟩
  | 84 => ⟨S1700000, .i32⟩
  | 85 => ⟨S_, .f32⟩
  | 86 => ⟨S1700000, .f32⟩
  | 87 => ⟨S_, .f32⟩
  | 88 => ⟨S100000, .f32⟩
  | 89 => ⟨S1700000x1, .i32⟩
  | 90 => ⟨S100000, .f32⟩
  | 91 => ⟨S_, .f32⟩
  | 92 => ⟨S100000, .f32⟩
  | 93 => ⟨S100000, .i1⟩
  | 94 => ⟨S100000, .f32⟩
  | 95 => ⟨S_, .f32⟩
  | 96 => ⟨S_, .f32⟩
  | 97 => ⟨S100000, .f32⟩
  | 98 => ⟨S100000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000, .f32⟩
  | 117 => ⟨S1700000, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x128, .f32⟩
  | 127 => ⟨S1700000x1, .f32⟩
  | _ => ⟨S100000x128, .f32⟩

abbrev hbmTy0_2 (i : Nat) : BufTy := match i % 128 with
  | 0 => ⟨S1700000x128, .f32⟩
  | 1 => ⟨S1700000x128, .f32⟩
  | 2 => ⟨S_, .f32⟩
  | 3 => ⟨S100000x128, .f32⟩
  | 4 => ⟨S1700000x1, .i32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S1x128, .f32⟩
  | 13 => ⟨S128, .f32⟩
  | 14 => ⟨S1x128, .f32⟩
  | 15 => ⟨S128, .f32⟩
  | 16 => ⟨S_, .f32⟩
  | 17 => ⟨S100000, .f32⟩
  | 18 => ⟨S100000x1, .f32⟩
  | 19 => ⟨S_, .f32⟩
  | 20 => ⟨S100000x1, .f32⟩
  | 21 => ⟨S100000x1, .f32⟩
  | 22 => ⟨S100000x128, .f32⟩
  | 23 => ⟨S100000x128, .f32⟩
  | 24 => ⟨S100000x128, .f32⟩
  | 25 => ⟨S_, .f32⟩
  | 26 => ⟨S100000, .f32⟩
  | 27 => ⟨S100000x1, .f32⟩
  | 28 => ⟨S_, .f32⟩
  | 29 => ⟨S100000x1, .f32⟩
  | 30 => ⟨S100000x1, .f32⟩
  | 31 => ⟨S100000x128, .f32⟩
  | 32 => ⟨S100000x128, .f32⟩
  | 33 => ⟨S_, .f32⟩
  | 34 => ⟨S100000x1, .f32⟩
  | 35 => ⟨S100000x1, .f32⟩
  | 36 => ⟨S100000x1, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S_, .f32⟩
  | 46 => ⟨S64x128, .f32⟩
  | 47 => ⟨S100000x1, .i32⟩
  | 48 => ⟨S64x128, .f32⟩
  | 49 => ⟨S_, .f32⟩
  | 50 => ⟨S100000, .f32⟩
  | 51 => ⟨S_, .f32⟩
  | 52 => ⟨S64, .f32⟩
  | 53 => ⟨S100000x1, .i32⟩
  | 54 => ⟨S64, .f32⟩
  | 55 => ⟨S_, .f32⟩
  | 56 => ⟨S64, .f32⟩
  | 57 => ⟨S64, .f32⟩
  | 58 => ⟨S64x1, .f32⟩
  | 59 => ⟨S64x128, .f32⟩
  | 60 => ⟨S64x128, .f32⟩
  | 61 => ⟨S64x256, .f32⟩
  | 62 => ⟨S1x256, .f32⟩
  | 63 => ⟨S64x256, .f32⟩
  | 64 => ⟨S64x256, .f32⟩
  | 65 => ⟨S64x128, .f32⟩
  | 66 => ⟨S1x128, .f32⟩
  | 67 => ⟨S64x128, .f32⟩
  | 68 => ⟨S64x128, .f32⟩
  | 69 => ⟨S64x8, .f32⟩
  | 70 => ⟨S1x8, .f32⟩
  | 71 => ⟨S64x8, .f32⟩
  | 72 => ⟨S64x8, .f32⟩
  | 73 => ⟨S_, .f32⟩
  | 74 => ⟨S64, .f32⟩
  | 75 => ⟨S_, .f32⟩
  | 76 => ⟨S64, .f32⟩
  | 77 => ⟨S64, .f32⟩
  | 78 => ⟨S64x1, .f32⟩
  | 79 => ⟨S64x8, .f32⟩
  | 80 => ⟨S64x8, .f32⟩
  | 81 => ⟨S64x8, .f32⟩
  | 82 => ⟨S_, .f32⟩
  | 83 => ⟨S64, .f32⟩
  | 84 => ⟨S64x1, .f32⟩
  | 85 => ⟨S64x1, .f32⟩
  | 86 => ⟨S64x8, .f32⟩
  | 87 => ⟨S64x8, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_4 : Ref sig .tc := ⟨.hbm, 48, rfl⟩
abbrev main_v23 : Ref sig .tc := ⟨.hbm, 49, rfl⟩
abbrev main_v24 : Ref sig .tc := ⟨.hbm, 50, rfl⟩
abbrev main_c_5 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call1_cst : Ref sig .tc := ⟨.hbm, 77, rfl⟩
abbrev main_call1_v0 : Ref sig .tc := ⟨.hbm, 78, rfl⟩
abbrev main_v47 : Ref sig .tc := ⟨.hbm, 79, rfl⟩
abbrev main_cst_9 : Ref sig .tc := ⟨.hbm, 80, rfl⟩
abbrev main_v48 : Ref sig .tc := ⟨.hbm, 81, rfl⟩
abbrev main_v49 : Ref sig .tc := ⟨.hbm, 82, rfl⟩
abbrev main_cst_10 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_11 : Ref sig .tc := ⟨.hbm, 89, rfl⟩
abbrev main_v55 : Ref sig .tc := ⟨.hbm, 90, rfl⟩
abbrev main_v56 : Ref sig .tc := ⟨.hbm, 91, rfl⟩
abbrev main_cst_12 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_13 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_14 : Ref sig .tc := ⟨.hbm, 117, rfl⟩
abbrev main_v80 : Ref sig .tc := ⟨.hbm, 118, rfl⟩
abbrev main_cst_15 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_16 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_17 : Ref sig .tc := ⟨.hbm, 127, rfl⟩
abbrev main_call2_v0 : Ref sig .tc := ⟨.hbm, 128, rfl⟩
abbrev main_call2_v1 : Ref sig .tc := ⟨.hbm, 129, rfl⟩
abbrev main_v87 : Ref sig .tc := ⟨.hbm, 130, rfl⟩
abbrev main_c_18 : Ref sig .tc := ⟨.hbm, 131, rfl⟩
abbrev main_v88 : Ref sig .tc := ⟨.hbm, 132, rfl⟩
abbrev main_v89 : Ref sig .tc := ⟨.hbm, 133, rfl⟩
abbrev main_c_19 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_c_20 : Ref sig .tc := ⟨.hbm, 140, rfl⟩
abbrev main_v95 : Ref sig .tc := ⟨.hbm, 141, rfl⟩
abbrev main_v96 : Ref sig .tc := ⟨.hbm, 142, rfl⟩
abbrev main_c_21 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_c_22 : Ref sig .tc := ⟨.hbm, 150, rfl⟩
abbrev main_v103 : Ref sig .tc := ⟨.hbm, 151, rfl⟩
abbrev main_v104 : Ref sig .tc := ⟨.hbm, 152, rfl⟩
abbrev main_c_23 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_24 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_call3_cst : Ref sig .tc := ⟨.hbm, 169, rfl⟩
abbrev main_call3_v0 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_25 : Ref sig .tc := ⟨.hbm, 176, rfl⟩
abbrev main_v124 : Ref sig .tc := ⟨.hbm, 177, rfl⟩
abbrev main_v125 : Ref sig .tc := ⟨.hbm, 178, rfl⟩
abbrev main_cst_26 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_cst_27 : Ref sig .tc := ⟨.hbm, 185, rfl⟩
abbrev main_v131 : Ref sig .tc := ⟨.hbm, 186, rfl⟩
abbrev main_v132 : Ref sig .tc := ⟨.hbm, 187, rfl⟩
abbrev main_cst_28 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_cst_29 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_cst_30 : Ref sig .tc := ⟨.hbm, 213, rfl⟩
abbrev main_v156 : Ref sig .tc := ⟨.hbm, 214, rfl⟩
abbrev main_cst_31 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_cst_32 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_cst_33 : Ref sig .tc := ⟨.hbm, 223, rfl⟩
abbrev main_call4_v0 : Ref sig .tc := ⟨.hbm, 224, rfl⟩
abbrev main_call4_v1 : Ref sig .tc := ⟨.hbm, 225, rfl⟩
abbrev main_v163 : Ref sig .tc := ⟨.hbm, 226, rfl⟩
abbrev main_c_34 : Ref sig .tc := ⟨.hbm, 227, rfl⟩
abbrev main_v164 : Ref sig .tc := ⟨.hbm, 228, rfl⟩
abbrev main_v165 : Ref sig .tc := ⟨.hbm, 229, rfl⟩
abbrev main_c_35 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_c_36 : Ref sig .tc := ⟨.hbm, 236, rfl⟩
abbrev main_v171 : Ref sig .tc := ⟨.hbm, 237, rfl⟩
abbrev main_v172 : Ref sig .tc := ⟨.hbm, 238, rfl⟩
abbrev main_c_37 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_c_38 : Ref sig .tc := ⟨.hbm, 246, rfl⟩
abbrev main_v179 : Ref sig .tc := ⟨.hbm, 247, rfl⟩
abbrev main_v180 : Ref sig .tc := ⟨.hbm, 248, rfl⟩
abbrev main_c_39 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_cst_40 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_call5_cst : Ref sig .tc := ⟨.hbm, 265, rfl⟩
abbrev main_call5_v0 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_cst_41 : Ref sig .tc := ⟨.hbm, 272, rfl⟩
abbrev main_v200 : Ref sig .tc := ⟨.hbm, 273, rfl⟩
abbrev main_v201 : Ref sig .tc := ⟨.hbm, 274, rfl⟩
abbrev main_cst_42 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_cst_43 : Ref sig .tc := ⟨.hbm, 281, rfl⟩
abbrev main_v207 : Ref sig .tc := ⟨.hbm, 282, rfl⟩
abbrev main_v208 : Ref sig .tc := ⟨.hbm, 283, rfl⟩
abbrev main_cst_44 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_cst_45 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_v223 : Ref sig .tc := ⟨.hbm, 300, rfl⟩
abbrev main_cst_46 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_cst_47 : Ref sig .tc := ⟨.hbm, 305, rfl⟩
abbrev main_v227 : Ref sig .tc := ⟨.hbm, 306, rfl⟩
abbrev main_cst_48 : Ref sig .tc := ⟨.hbm, 307, rfl⟩
abbrev main_v228 : Ref sig .tc := ⟨.hbm, 308, rfl⟩
abbrev main_v229 : Ref sig .tc := ⟨.hbm, 309, rfl⟩
abbrev main_v230 : Ref sig .tc := ⟨.hbm, 310, rfl⟩
abbrev main_cst_49 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_v236 : Ref sig .tc := ⟨.hbm, 317, rfl⟩
abbrev main_v237 : Ref sig .tc := ⟨.hbm, 318, rfl⟩
abbrev main_v238 : Ref sig .tc := ⟨.hbm, 319, rfl⟩
abbrev main_v239 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_v244 : Ref sig .tc := ⟨.hbm, 325, rfl⟩
abbrev main_v245 : Ref sig .tc := ⟨.hbm, 326, rfl⟩
abbrev main_v246 : Ref sig .tc := ⟨.hbm, 327, rfl⟩
abbrev main_v247 : Ref sig .tc := ⟨.hbm, 328, rfl⟩
abbrev main_call6_cst : Ref sig .tc := ⟨.hbm, 329, rfl⟩
abbrev main_call6_v0 : Ref sig .tc := ⟨.hbm, 330, rfl⟩
abbrev main_call6_cst_0 : Ref sig .tc := ⟨.hbm, 331, rfl⟩
abbrev main_call6_v1 : Ref sig .tc := ⟨.hbm, 332, rfl⟩
abbrev main_call6_v2 : Ref sig .tc := ⟨.hbm, 333, rfl⟩
abbrev main_call6_v3 : Ref sig .tc := ⟨.hbm, 334, rfl⟩
abbrev main_call6_v4 : Ref sig .tc := ⟨.hbm, 335, rfl⟩
abbrev main_call6_v5 : Ref sig .tc := ⟨.hbm, 336, rfl⟩
abbrev main_call6_v6 : Ref sig .tc := ⟨.hbm, 337, rfl⟩
abbrev main_call6_cst_1 : Ref sig .tc := ⟨.hbm, 338, rfl⟩
abbrev main_call6_v7 : Ref sig .tc := ⟨.hbm, 339, rfl⟩
abbrev main_call6_v8 : Ref sig .tc := ⟨.hbm, 340, rfl⟩
abbrev main_call6_v9 : Ref sig .tc := ⟨.hbm, 341, rfl⟩
abbrev main_call6_v10 : Ref sig .tc := ⟨.hbm, 342, rfl⟩
abbrev main_v248 : Ref sig .tc := ⟨.hbm, 343, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S1x128_S64x128_0_1 : S1x128.BroadcastsInDim S64x128 (![0, 1] : Fin 2 → Fin S64x128.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  reducesTo_S64x8_S64_d1 : S64x8.ReducesTo [1] S64
  bcast_S64x1_S64x8_0_1 : S64x1.BroadcastsInDim S64x8 (![0, 1] : Fin 2 → Fin S64x8.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x256_S64x256_1_0_0_1_n_n_wf : DotDims.WF S64x128 S128x256 S64x256 [1] [0] [0] [1] [] []
  dot_S64x256_S256x128_S64x128_1_0_0_1_n_n_wf : DotDims.WF S64x256 S256x128 S64x128 [1] [0] [0] [1] [] []
  dot_S64x128_S128x8_S64x8_1_0_0_1_n_n_wf : DotDims.WF S64x128 S128x8 S64x8 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x8_S64x8_1_0_0_1_n_n : DotDims S64x128 S128x8 S64x8 where
  lhsContracting := [1]
  rhsContracting := [0]
  lhsNonContracting := [0]
  rhsNonContracting := [1]
  lhsBatch := []
  rhsBatch := []
  wf := dot_S64x128_S128x8_S64x8_1_0_0_1_n_n_wf

class Facts : Prop extends Facts₀ where

variable [Facts]
-- ==== Proof.Keep.lean ====
/- A buffer that nothing between two boundaries of the kernel program's @main writes holds at the later boundary what it held at
   the earlier one; for an argument, what it held at the launch. One chain per (buffer, earlier boundary, later boundary). -/
import proofs.«415105_j87316685128359_1_alg».proof.Proof.Gen.KernelIdeal.Frame

set_option maxRecDepth 16384

noncomputable section

namespace Cert.KernelIdeal.Keep

open Idealize.ShloMosaic Idealize.ShloMosaic.TcCoe Idealize.SL.Sem Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg)

theorem arg0_at3 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem arg3_at3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem arg1_at0 (c : Dev nD) : W0 m ρ c (Proc.devRef .tc main_arg1) = m ((c : Thread nD τ).loc main_arg1) :=
  calc W0 m ρ c (Proc.devRef .tc main_arg1)
    _ = m ((c : Thread nD τ).loc main_arg1) := rfl

theorem arg4_at4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem arg5_at4 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem arg6_at4 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem arg7_at6 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem arg8_at6 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem arg9_at8 (c : Dev nD) : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem arg10_at8 (c : Dev nD) : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem arg7_at10 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem arg8_at10 (c : Dev nD) : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem arg9_at12 (c : Dev nD) : W12 m ρ c (Proc.devRef .tc main_arg9) = m ((c : Thread nD τ).loc main_arg9) :=
  calc W12 m ρ c (Proc.devRef .tc main_arg9)
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem arg10_at12 (c : Dev nD) : W12 m ρ c (Proc.devRef .tc main_arg10) = m ((c : Thread nD τ).loc main_arg10) :=
  calc W12 m ρ c (Proc.devRef .tc main_arg10)
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem arg2_at14 (c : Dev nD) : W14 m ρ c (Proc.devRef .tc main_arg2) = m ((c : Thread nD τ).loc main_arg2) :=
  calc W14 m ρ c (Proc.devRef .tc main_arg2)
    _ = W13 m ρ c (Proc.devRef .tc main_arg2) := W14_of_ne m ρ c main_arg2 (by decide)
    _ = W12 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem arg2_at16 (c : Dev nD) : W16 m ρ c (Proc.devRef .tc main_arg2) = m ((c : Thread nD τ).loc main_arg2) :=
  calc W16 m ρ c (Proc.devRef .tc main_arg2)
    _ = W15 m ρ c (Proc.devRef .tc main_arg2) := W16_of_ne m ρ c main_arg2 (by decide)
    _ = W14 m ρ c (Proc.devRef .tc main_arg2) := StableHlo.after_of_forall_not_mem (b := Proc.devRef .tc main_arg2) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg2) := W14_of_ne m ρ c main_arg2 (by decide)
    _ = W12 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem arg12_at16 (c : Dev nD) : W16 m ρ c (Proc.devRef .tc main_arg12) = m ((c : Thread nD τ).loc main_arg12) :=
  calc W16 m ρ c (Proc.devRef .tc main_arg12)
    _ = W15 m ρ c (Proc.devRef .tc main_arg12) := W16_of_ne m ρ c main_arg12 (by decide)
    _ = W14 m ρ c (Proc.devRef .tc main_arg12) := StableHlo.after_of_forall_not_mem (b := Proc.devRef .tc main_arg12) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg12) := W14_of_ne m ρ c main_arg12 (by decide)
    _ = W12 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := StableHlo.after_of_forall_not_mem (b := Proc.devRef .tc main_arg12) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem arg14_at16 (c : Dev nD) : W16 m ρ c (Proc.devRef .tc main_arg14) = m ((c : Thread nD τ).loc main_arg14) :=
  calc W16 m ρ c (Proc.devRef .tc main_arg14)
    _ = W15 m ρ c (Proc.devRef .tc main_arg14) := W16_of_ne m ρ c main_arg14 (by decide)
    _ = W14 m ρ c (Proc.devRef .tc main_arg14) := StableHlo.after_of_forall_not_mem (b := Proc.devRef .tc main_arg14) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg14) := W14_of_ne m ρ c main_arg14 (by decide)
    _ = W12 m ρ c (Proc.devRef .tc main_arg14) := StableHlo.after_of_forall_not_mem (b := Proc.devRef .tc main_arg14) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg14) := W12_of_ne m ρ c main_arg14 (by decide)
    _ = W10 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg14) := W10_of_ne m ρ c main_arg14 (by decide)
    _ = W8 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := StableHlo.after_of_forall_not_mem (b := Proc.devRef .tc main_arg14) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem arg16_at16 (c : Dev nD) : W16 m ρ c (Proc.devRef .tc main_arg16) = m ((c : Thread nD τ).loc main_arg16) :=
  calc W16 m ρ c (Proc.devRef .tc main_arg16)
    _ = W15 m ρ c (Proc.devRef .tc main_arg16) := W16_of_ne m ρ c main_arg16 (by decide)
    _ = W14 m ρ c (Proc.devRef .tc main_arg16) := StableHlo.after_of_forall_not_mem (b := Proc.devRef .tc main_arg16) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg16) := W14_of_ne m ρ c main_arg16 (by decide)
    _ = W12 m ρ c (Proc.devRef .tc main_arg16) := StableHlo.after_of_forall_not_mem (b := Proc.devRef .tc main_arg16) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg16) := W12_of_ne m ρ c main_arg16 (by decide)
    _ = W10 m ρ c (Proc.devRef .tc main_arg16) := StableHlo.after_of_forall_not_mem (b := Proc.devRef .tc main_arg16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg16) := W10_of_ne m ρ c main_arg16 (by decide)
    _ = W8 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := StableHlo.after_of_forall_not_mem (b := Proc.devRef .tc main_arg16) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem arg11_at17 (c : Dev nD) : W17 m ρ c (Proc.devRef .tc main_arg11) = m ((c : Thread nD τ).loc main_arg11) :=
  calc W17 m ρ c (Proc.devRef .tc main_arg11)
    _ = W16 m ρ c (Proc.devRef .tc main_arg11) := StableHlo.after_of_forall_not_mem (b := Proc.devRef .tc main_arg11) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg11) := W16_of_ne m ρ c main_arg11 (by decide)
    _ = W14 m ρ c (Proc.devRef .tc main_arg11) := StableHlo.after_of_forall_not_mem (b := Proc.devRef .tc main_arg11) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg11) := W14_of_ne m ρ c main_arg11 (by decide)
    _ = W12 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem arg13_at17 (c : Dev nD) : W17 m ρ c (Proc.devRef .tc main_arg13) = m ((c : Thread nD τ).loc main_arg13) :=
  calc W17 m ρ c (Proc.devRef .tc main_arg13)
    _ = W16 m ρ c (Proc.devRef .tc main_arg13) := StableHlo.after_of_forall_not_mem (b := Proc.devRef .tc main_arg13) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg13) := W16_of_ne m ρ c main_arg13 (by decide)
    _ = W14 m ρ c (Proc.devRef .tc main_arg13) := StableHlo.after_of_forall_not_mem (b := Proc.devRef .tc main_arg13) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg13) := W14_of_ne m ρ c main_arg13 (by decide)
    _ = W12 m ρ c (Proc.devRef .tc main_arg13) := StableHlo.after_of_forall_not_mem (b := Proc.devRef .tc main_arg13) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg13) := W12_of_ne m ρ c main_arg13 (by decide)
    _ = W10 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := StableHlo.after_of_forall_not_mem (b := Proc.devRef .tc main_arg13) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem arg15_at17 (c : Dev nD) : W17 m ρ c (Proc.devRef .tc main_arg15) = m ((c : Thread nD τ).loc main_arg15) :=
  calc W17 m ρ c (Proc.devRef .tc main_arg15)
    _ = W16 m ρ c (Proc.devRef .tc main_arg15) := StableHlo.after_of_forall_not_mem (b := Proc.devRef .tc main_arg15) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg15) := W16_of_ne m ρ c main_arg15 (by decide)
    _ = W14 m ρ c (Proc.devRef .tc main_arg15) := StableHlo.after_of_forall_not_mem (b := Proc.devRef .tc main_arg15) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg15) := W14_of_ne m ρ c main_arg15 (by decide)
    _ = W12 m ρ c (Proc.devRef .tc main_arg15) := StableHlo.after_of_forall_not_mem (b := Proc.devRef .tc main_arg15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg15) := W12_of_ne m ρ c main_arg15 (by decide)
    _ = W10 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg15) := W10_of_ne m ρ c main_arg15 (by decide)
    _ = W8 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := StableHlo.after_of_forall_not_mem (b := Proc.devRef .tc main_arg15) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem v5_3_4 (c : Dev nD) : W4 m ρ c (Proc.devRef .tc main_v5) = W3 m ρ c (Proc.devRef .tc main_v5) :=
  calc W4 m ρ c (Proc.devRef .tc main_v5)
    _ = W3 m ρ c (Proc.devRef .tc main_v5) := W4_of_ne m ρ c main_v5 (by decide)

theorem v6_3_4 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem v30_3_4 (c : Dev nD) : W4 m ρ c (Proc.devRef .tc main_v30) = W3 m ρ c (Proc.devRef .tc main_v30) :=
  calc W4 m ρ c (Proc.devRef .tc main_v30)
    _ = W3 m ρ c (Proc.devRef .tc main_v30) := W4_of_ne m ρ c main_v30 (by decide)

theorem v5_3_8 (c : Dev nD) : W8 m ρ c (Proc.devRef .tc main_v5) = W3 m ρ c (Proc.devRef .tc main_v5) :=
  calc W8 m ρ c (Proc.devRef .tc main_v5)
    _ = W7 m ρ c (Proc.devRef .tc main_v5) := W8_of_ne m ρ c main_v5 (by decide)
    _ = W6 m ρ c (Proc.devRef .tc main_v5) := StableHlo.after_of_forall_not_mem (b := Proc.devRef .tc main_v5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v5) := W6_of_ne m ρ c main_v5 (by decide)
    _ = W4 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v5) := W4_of_ne m ρ c main_v5 (by decide)

theorem v6_3_8 (c : Dev nD) : W8 m ρ c (Proc.devRef .tc main_v6) = W3 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

theorem v30_3_8 (c : Dev nD) : W8 m ρ c (Proc.devRef .tc main_v30) = W3 m ρ c (Proc.devRef .tc main_v30) :=
  calc W8 m ρ c (Proc.devRef .tc main_v30)
    _ = W7 m ρ c (Proc.devRef .tc main_v30) := W8_of_ne m ρ c main_v30 (by decide)
    _ = W6 m ρ c (Proc.devRef .tc main_v30) := StableHlo.after_of_forall_not_mem (b := Proc.devRef .tc main_v30) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v30) := W6_of_ne m ρ c main_v30 (by decide)
    _ = W4 m ρ c (Proc.devRef .tc main_v30) := StableHlo.after_of_forall_not_mem (b := Proc.devRef .tc main_v30) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v30) := W4_of_ne m ρ c main_v30 (by decide)

theorem v5_3_12 (c : Dev nD) : W12 m ρ c (Proc.devRef .tc main_v5) = W3 m ρ c (Proc.devRef .tc main_v5) :=
  calc W12 m ρ c (Proc.devRef .tc main_v5)
    _ = W11 m ρ c (Proc.devRef .tc main_v5) := W12_of_ne m ρ c main_v5 (by decide)
    _ = W10 m ρ c (Proc.devRef .tc main_v5) := StableHlo.after_of_forall_not_mem (b := Proc.devRef .tc main_v5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v5) := W10_of_ne m ρ c main_v5 (by decide)
    _ = W8 m ρ c (Proc.devRef .tc main_v5) := StableHlo.after_of_forall_not_mem (b := Proc.devRef .tc main_v5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v5) := W8_of_ne m ρ c main_v5 (by decide)
    _ = W6 m ρ c (Proc.devRef .tc main_v5) := StableHlo.after_of_forall_not_mem (b := Proc.devRef .tc main_v5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v5) := W6_of_ne m ρ c main_v5 (by decide)
    _ = W4 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v5) := W4_of_ne m ρ c main_v5 (by decide)

theorem v6_3_12 (c : Dev nD) : W12 m ρ c (Proc.devRef .tc main_v6) = W3 m ρ c (Proc.devRef .tc main_v6) :=
  calc W12 m ρ c (Proc.devRef .tc main_v6)
    _ = W11 m ρ c (Proc.devRef .tc main_v6) := W12_of_ne m ρ c main_v6 (by decide)
    _ = W10 m ρ c (Proc.devRef .tc main_v6) := StableHlo.after_of_forall_not_mem (b := Proc.devRef .tc main_v6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v6) := W10_of_ne m ρ c main_v6 (by decide)
    _ = W8 m ρ c (Proc.devRef .tc main_v6) := StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

theorem v30_3_12 (c : Dev nD) : W12 m ρ c (Proc.devRef .tc main_v30) = W3 m ρ c (Proc.devRef .tc main_v30) :=
  calc W12 m ρ c (Proc.devRef .tc main_v30)
    _ = W11 m ρ c (Proc.devRef .tc main_v30) := W12_of_ne m ρ c main_v30 (by decide)
    _ = W10 m ρ c (Proc.devRef .tc main_v30) := StableHlo.after_of_forall_not_mem (b := Proc.devRef .tc main_v30) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v30) := W10_of_ne m ρ c main_v30 (by decide)
    _ = W8 m ρ c (Proc.devRef .tc main_v30) := StableHlo.after_of_forall_not_mem (b := Proc.devRef .tc main_v30) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v30) := W8_of_ne m ρ c main_v30 (by decide)
    _ = W6 m ρ c (Proc.devRef .tc main_v30) := StableHlo.after_of_forall_not_mem (b := Proc.devRef .tc main_v30) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v30) := W6_of_ne m ρ c main_v30 (by decide)
    _ = W4 m ρ c (Proc.devRef .tc main_v30) := StableHlo.after_of_forall_not_mem (b := Proc.devRef .tc main_v30) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v30) := W4_of_ne m ρ c main_v30 (by decide)

theorem v49_6_7 (c : Dev nD) : W7 m ρ c (Proc.devRef .tc main_v49) = W6 m ρ c (Proc.devRef .tc main_v49) :=
  calc W7 m ρ c (Proc.devRef .tc main_v49)
    _ = W6 m ρ c (Proc.devRef .tc main_v49) := StableHlo.after_of_forall_not_mem (b := Proc.devRef .tc main_v49) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem v53_7_8 (c : Dev nD) : W8 m ρ c (Proc.devRef .tc main_v53) = W7 m ρ c (Proc.devRef .tc main_v53) :=
  calc W8 m ρ c (Proc.devRef .tc main_v53)
    _ = W7 m ρ c (Proc.devRef .tc main_v53) := W8_of_ne m ρ c main_v53 (by decide)

theorem v76_10_11 (c : Dev nD) : W11 m ρ c (Proc.devRef .tc main_v76) = W10 m ρ c (Proc.devRef .tc main_v76) :=
  calc W11 m ρ c (Proc.devRef .tc main_v76)
    _ = W10 m ρ c (Proc.devRef .tc main_v76) := StableHlo.after_of_forall_not_mem (b := Proc.devRef .tc main_v76) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem v80_11_12 (c : Dev nD) : W12 m ρ c (Proc.devRef .tc main_v80) = W11 m ρ c (Proc.devRef .tc main_v80) :=
  calc W12 m ρ c (Proc.devRef .tc main_v80)
    _ = W11 m ρ c (Proc.devRef .tc main_v80) := W12_of_ne m ρ c main_v80 (by decide)

theorem v103_14_15 (c : Dev nD) : W15 m ρ c (Proc.devRef .tc main_v103) = W14 m ρ c (Proc.devRef .tc main_v103) :=
  calc W15 m ρ c (Proc.devRef .tc main_v103)
    _ = W14 m ρ c (Proc.devRef .tc main_v103) := StableHlo.after_of_forall_not_mem (b := Proc.devRef .tc main_v103) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem v96_13_18 (c : Dev nD) : W18 m ρ c (Proc.devRef .tc main_v96) = W13 m ρ c (Proc.devRef .tc main_v96) :=
  calc W18 m ρ c (Proc.devRef .tc main_v96)
    _ = W17 m ρ c (Proc.devRef .tc main_v96) := W18_of_ne m ρ c main_v96 (by decide)
    _ = W16 m ρ c (Proc.devRef .tc main_v96) := StableHlo.after_of_forall_not_mem (b := Proc.devRef .tc main_v96) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v96) := W16_of_ne m ρ c main_v96 (by decide)
    _ = W14 m ρ c (Proc.devRef .tc main_v96) := StableHlo.after_of_forall_not_mem (b := Proc.devRef .tc main_v96) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v96) := (W14_arr m ρ c 0).trans (((dat5 (V13 m ρ) c).arrAt_in 0 rfl _).trans (A_eq5 (V13 m ρ) c 0))

end Cert.KernelIdeal.Keep

end
-- ==== Proof.Spec.lean ====
/-
  The network, as whole-array functions of its inputs, one per stretch between two points where a single array carries
  everything later stretches need.

  A graph-convolution layer is   conv(h, W, b) = A · (h W) + b   with A = D^(-1/2) (Adj + I) D^(-1/2): the edge list is
  extended by one self-loop per node (`catIota`), the degree of a node is the number of extended edges that end in it,
  `normCol` holds for every extended edge the product of the two inverse square roots of its end points' degrees (zero
  for a node of degree zero), and `convTail` gathers the rows of h W at the edges' sources, scales each by its edge's
  factor, adds them up at the edges' targets and adds the bias. `lnOps` is relu followed by a layer norm over the
  128 features of a row. `poolOps` adds the rows of each graph of the batch, `meanDiv` divides by the graph's size
  (at least one), `logitsOps` is three affine maps in a row and `lsmOps` the logarithm of the softmax over the 8 classes.
  The three results of the network are `emb`, `logits` and `probs` at the end.

  Each function is spelt with the array operations of the reference program, in its order, so that a stretch of either
  program read back operation by operation is this text.
-/
import proofs.«415105_j87316685128359_1_alg».proof.Proof.Gen.ReferenceIdeal

noncomputable section

namespace Cert.Spec

open Idealize.ShloMosaic Cert.ReferenceIdeal Cert.ReferenceIdeal.Facts₀

variable {F : FTy → Type} [FloatOps F]

/-- Row `r` of the edge list as a vector: row 0 holds the sources, row 1 the targets. -/
def srcOf (ei : IVec S2x1600000 32) : IVec S1600000 32 :=
  shapeCast S1600000 (extractStridedSlice S1x1600000 ![0, 0] ei slices_S2x1600000_S1x1600000_0_0) shapeCasts_S1x1600000_S1600000
def dstOf (ei : IVec S2x1600000 32) : IVec S1600000 32 :=
  shapeCast S1600000 (extractStridedSlice S1x1600000 ![1, 0] ei slices_S2x1600000_S1x1600000_1_0) shapeCasts_S1x1600000_S1600000

/-- The end points of the extended edge list: the given ones, then node `i` for the self-loop of node `i`. -/
def catIota (e : IVec S1600000 32) : IVec S1700000 32 :=
  concatenate S1700000 0 [⟨S1600000, e⟩, ⟨S100000, (iotaInDim S100000 32 0)⟩] concatenates_S1600000_S100000_S1700000_d0

/-- A node index as the gather reads it: a negative word counts from the end. -/
def wrapIdx (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The inverse square root of every node's degree, zero where the degree is zero. -/
def invSqrtDeg (d : IVec S1700000 32) : FVec F S100000 .f32 :=
  let deg : FVec F S100000 .f32 := Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))
  select (cmpf (F := F) .ogt deg (broadcastInDim S100000 ![] bcast_S_S100000 (constant S_ .f32 0x00000000#32)))
    (Host.rsqrt deg) (broadcastInDim S100000 ![] bcast_S_S100000 (constant S_ .f32 0x00000000#32))

/-- Every extended edge's factor: the product of its two end points' inverse square root degrees. -/
def normVec (s d : IVec S1700000 32) : FVec F S1700000 .f32 :=
  let dis : FVec F S100000 .f32 := invSqrtDeg d
  mulf (Host.gather gather_S100000_S1700000x1_S1700000_n_0_n_n_0_1_1 dis (wrapIdx s))
       (Host.gather gather_S100000_S1700000x1_S1700000_n_0_n_n_0_1_1 dis (wrapIdx d))

/-- The factors as a column. -/
def normCol (s d : IVec S1700000 32) : FVec F S1700000x1 .f32 :=
  broadcastInDim S1700000x1 ![0] bcast_S1700000_S1700000x1_0 (normVec s d)

/-- The product of a table of rows with a square weight matrix. -/
def mmOps (h : FVec F S100000x128 .f32) (w : FVec F S128x128 .f32) : FVec F S100000x128 .f32 :=
  Host.dotGeneral dot_S100000x128_S128x128_S100000x128_1_0_0_1_n_n none h w

/-- Rows of `hw` gathered at the sources, scaled by the edges' factors, added up at the targets, plus the bias. -/
def convTail (hw : FVec F S100000x128 .f32) (s d : IVec S1700000 32) (ncol : FVec F S1700000x1 .f32) (b : FVec F S128 .f32) :
    FVec F S100000x128 .f32 :=
  addf
    (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 d)
      (mulf (Host.gather gather_S100000x128_S1700000x1_S1700000x128_1_0_n_n_0_1_1128 hw (wrapIdx s))
            (broadcastInDim S1700000x128 ![0, 1] bcast_S1700000x1_S1700000x128_0_1 ncol)))
    (broadcastInDim S100000x128 ![0, 1] bcast_S1x128_S100000x128_0_1 (broadcastInDim S1x128 ![1] bcast_S128_S1x128_1 b))

/-- A vector of 128 features as a one-row table. -/
def rowOf (g : FVec F S128 .f32) : FVec F S1x128 .f32 := broadcastInDim S1x128 ![1] bcast_S128_S1x128_1 g

/-- relu, then every row centred and scaled to unit variance (plus 1e-5 under the root), times `g`, plus `b`. -/
def lnOps (h : FVec F S100000x128 .f32) (g b : FVec F S1x128 .f32) : FVec F S100000x128 .f32 :=
  let r : FVec F S100000x128 .f32 := maximumf h (broadcastInDim S100000x128 ![] bcast_S_S100000x128 (constant S_ .f32 0x00000000#32))
  let mu : FVec F S100000x1 .f32 := Host.divf
    (broadcastInDim S100000x1 ![0] bcast_S100000_S100000x1_0 (Host.reduceAdd r (constant S_ .f32 0x00000000#32) reducesTo_S100000x128_S100000_d1 h_S_))
    (broadcastInDim S100000x1 ![] bcast_S_S100000x1 (constant S_ .f32 0x43000000#32))
  let xc : FVec F S100000x128 .f32 := subf r (broadcastInDim S100000x128 ![0, 1] bcast_S100000x1_S100000x128_0_1 mu)
  let var : FVec F S100000x1 .f32 := Host.divf
    (broadcastInDim S100000x1 ![0] bcast_S100000_S100000x1_0 (Host.reduceAdd (mulf xc xc) (constant S_ .f32 0x00000000#32) reducesTo_S100000x128_S100000_d1 h_S_))
    (broadcastInDim S100000x1 ![] bcast_S_S100000x1 (constant S_ .f32 0x43000000#32))
  addf
    (mulf
      (mulf xc (broadcastInDim S100000x128 ![0, 1] bcast_S100000x1_S100000x128_0_1
        (Host.rsqrt (addf var (broadcastInDim S100000x1 ![] bcast_S_S100000x1 (constant S_ .f32 0x3727C5AC#32))))))
      (broadcastInDim S100000x128 ![0, 1] bcast_S1x128_S100000x128_0_1 g))
    (broadcastInDim S100000x128 ![0, 1] bcast_S1x128_S100000x128_0_1 b)

/-- Layer `i`'s weight matrix and its three vectors, cut out of the stacked parameters. -/
def wc0 (wc : FVec F S2x128x128 .f32) : FVec F S128x128 .f32 :=
  shapeCast S128x128 (extractStridedSlice S1x128x128 ![0, 0, 0] wc slices_S2x128x128_S1x128x128_0_0_0) shapeCasts_S1x128x128_S128x128
def wc1 (wc : FVec F S2x128x128 .f32) : FVec F S128x128 .f32 :=
  shapeCast S128x128 (extractStridedSlice S1x128x128 ![1, 0, 0] wc slices_S2x128x128_S1x128x128_1_0_0) shapeCasts_S1x128x128_S128x128
def vec0 (v : FVec F S2x128 .f32) : FVec F S128 .f32 :=
  shapeCast S128 (extractStridedSlice S1x128 ![0, 0] v slices_S2x128_S1x128_0_0) shapeCasts_S1x128_S128
def vec1 (v : FVec F S2x128 .f32) : FVec F S128 .f32 :=
  shapeCast S128 (extractStridedSlice S1x128 ![1, 0] v slices_S2x128_S1x128_1_0) shapeCasts_S1x128_S128

/-- The graph index of every node, as a column. -/
def colOf (batch : IVec S100000 32) : IVec S100000x1 32 := broadcastInDim S100000x1 ![0] bcast_S100000_S100000x1_0 batch

/-- The sum of the rows of each of the 64 graphs. -/
def poolOps (h : FVec F S100000x128 .f32) (bcol : IVec S100000x1 32) : FVec F S64x128 .f32 :=
  Host.scatterAdd scatter_S64x128_S100000x1_S100000x128_1_0_0_1
    (broadcastInDim S64x128 ![] bcast_S_S64x128 (constant S_ .f32 0x00000000#32)) bcol h

/-- The sums divided by the graphs' sizes, a size of zero counted as one. -/
def meanDiv (sums : FVec F S64x128 .f32) (batch : IVec S100000 32) : FVec F S64x128 .f32 :=
  let cnt : FVec F S64 .f32 := Host.scatterAdd scatter_S64_S100000x1_S100000_n_0_0_1
    (broadcastInDim S64 ![] bcast_S_S64 (constant S_ .f32 0x00000000#32))
    (broadcastInDim S100000x1 ![0] bcast_S100000_S100000x1_0 batch)
    (broadcastInDim S100000 ![] bcast_S_S100000 (constant S_ .f32 0x3F800000#32))
  Host.divf sums
    (broadcastInDim S64x128 ![0, 1] bcast_S64x1_S64x128_0_1
      (broadcastInDim S64x1 ![0] bcast_S64_S64x1_0
        (maximumf cnt (broadcastInDim S64 ![] bcast_S_S64 (constant S_ .f32 0x3F800000#32)))))

def row256 (b : FVec F S256 .f32) : FVec F S1x256 .f32 := broadcastInDim S1x256 ![1] bcast_S256_S1x256_1 b
def row8 (b : FVec F S8 .f32) : FVec F S1x8 .f32 := broadcastInDim S1x8 ![1] bcast_S8_S1x8_1 b

/-- Three affine maps in a row, no activation between them. -/
def logitsOps (p : FVec F S64x128 .f32) (w1 : FVec F S128x256 .f32) (b1 : FVec F S1x256 .f32) (w2 : FVec F S256x128 .f32)
    (b2 : FVec F S1x128 .f32) (w3 : FVec F S128x8 .f32) (b3 : FVec F S1x8 .f32) : FVec F S64x8 .f32 :=
  addf (Host.dotGeneral dot_S64x128_S128x8_S64x8_1_0_0_1_n_n none
      (addf (Host.dotGeneral dot_S64x256_S256x128_S64x128_1_0_0_1_n_n none
          (addf (Host.dotGeneral dot_S64x128_S128x256_S64x256_1_0_0_1_n_n none p w1)
            (broadcastInDim S64x256 ![0, 1] bcast_S1x256_S64x256_0_1 b1)) w2)
        (broadcastInDim S64x128 ![0, 1] bcast_S1x128_S64x128_0_1 b2)) w3)
    (broadcastInDim S64x8 ![0, 1] bcast_S1x8_S64x8_0_1 b3)

/-- Every row less its maximum, less the logarithm of the sum of the exponentials of that. -/
def lsmOps (l : FVec F S64x8 .f32) : FVec F S64x8 .f32 :=
  let mx : FVec F S64 .f32 := maximumf (broadcastInDim S64 ![] bcast_S_S64 (constant S_ .f32 0xFF800000#32))
    (Host.reduce FloatOps.maximumf l (constant S_ .f32 0xFF800000#32) reducesTo_S64x8_S64_d1 h_S_)
  let sh : FVec F S64x8 .f32 := subf l (broadcastInDim S64x8 ![0, 1] bcast_S64x1_S64x8_0_1 (broadcastInDim S64x1 ![0] bcast_S64_S64x1_0 mx))
  subf sh (broadcastInDim S64x8 ![0, 1] bcast_S64x1_S64x8_0_1
    (Host.log (broadcastInDim S64x1 ![0] bcast_S64_S64x1_0
      (Host.reduceAdd (Host.exp sh) (constant S_ .f32 0x00000000#32) reducesTo_S64x8_S64_d1 h_S_))))

/-! ## The network -/

section Net
variable (x : FVec F S100000x128 .f32) (ei : IVec S2x1600000 32) (batch : IVec S100000 32) (w1 : FVec F S128x128 .f32)
  (b1 g1 be1 : FVec F S128 .f32) (wc : FVec F S2x128x128 .f32) (bc lg lb : FVec F S2x128 .f32)
  (wm1 : FVec F S128x256 .f32) (bm1 : FVec F S256 .f32) (wm2 : FVec F S256x128 .f32) (bm2 : FVec F S128 .f32)
  (wm3 : FVec F S128x8 .f32) (bm3 : FVec F S8 .f32)

def sIdx : IVec S1700000 32 := catIota (srcOf ei)
def dIdx : IVec S1700000 32 := catIota (dstOf ei)
def ncol : FVec F S1700000x1 .f32 := normCol (sIdx ei) (dIdx ei)

def conv1 : FVec F S100000x128 .f32 := convTail (mmOps x w1) (sIdx ei) (dIdx ei) (ncol ei) b1
def h1 : FVec F S100000x128 .f32 := lnOps (conv1 x ei w1 b1) (rowOf g1) (rowOf be1)
def conv2 : FVec F S100000x128 .f32 := convTail (mmOps (h1 x ei w1 b1 g1 be1) (wc0 wc)) (sIdx ei) (dIdx ei) (ncol ei) (vec0 bc)
def h2 : FVec F S100000x128 .f32 := lnOps (conv2 x ei w1 b1 g1 be1 wc bc) (rowOf (vec0 lg)) (rowOf (vec0 lb))
/-- The first result: the last layer's output before its activation. -/
def emb : FVec F S100000x128 .f32 := convTail (mmOps (h2 x ei w1 b1 g1 be1 wc bc lg lb) (wc1 wc)) (sIdx ei) (dIdx ei) (ncol ei) (vec1 bc)
def h3 : FVec F S100000x128 .f32 := lnOps (emb x ei w1 b1 g1 be1 wc bc lg lb) (rowOf (vec1 lg)) (rowOf (vec1 lb))
def pooled : FVec F S64x128 .f32 := meanDiv (poolOps (h3 x ei w1 b1 g1 be1 wc bc lg lb) (colOf batch)) batch
/-- The second result. -/
def logits : FVec F S64x8 .f32 :=
  logitsOps (pooled x ei batch w1 b1 g1 be1 wc bc lg lb) wm1 (row256 bm1) wm2 (rowOf bm2) wm3 (row8 bm3)
/-- The third result. -/
def probs : FVec F S64x8 .f32 := lsmOps (logits x ei batch w1 b1 g1 be1 wc bc lg lb wm1 bm1 wm2 bm2 wm3 bm3)
end Net

end Cert.Spec

end
-- ==== Proof.LibReshapeAsBroadcast.lean ====
/-
  A vector laid out as a one-row table, or as a one-column table, by a reshape is the same table as the one a broadcast
  along the other axis makes: both hold x k at (0, k), respectively at (k, 0).

  Both sides are read index by index. A reshape keeps the row-major position: entry (0, k) of a table of one row of
  length n sits at position 0 * n + k = k, and entry (k, 0) of a table of n rows of length one at position k * 1 + 0 = k,
  so either reads entry k of the vector. A broadcast along axis b reads the vector at the b-th coordinate of the index
  (at 0 if the vector has a single entry, which is then that same coordinate): k again.
-/
import Idealize.ShloMosaic.Lib.Pipeline.Value
import Idealize.ShloMosaic.Lib.ValueIdx

noncomputable section

namespace Idealize.ShloMosaic.ReshapeAsBroadcast

open Idealize.ShloMosaic Idealize.ShloMosaic.ValueIdx

variable {α : Type}

/-- [n] to [1, n]. -/
theorem shapeCast_row (n : Nat) (x : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x h = broadcastInDim ⟨2, ![1, n]⟩ ![1] hb x := by
  funext j
  -- the only row is row 0; the column is below n
  have hj0 : (j 0).val = 0 := by
    have h0 : (j 0).val < 1 := (j 0).isLt
    omega
  have hj1 : (j 1).val < n := (j 1).isLt
  -- the entry of the vector both sides read
  let k : (⟨1, ![n]⟩ : Shape).Idx := fun a => ⟨(j 1).val, by
    have ha : a = 0 := Subsingleton.elim _ _
    subst ha
    exact hj1⟩
  have hL : shapeCast ⟨2, ![1, n]⟩ x h j = x k := by
    refine shapeCast_apply x h j k ?_
    rw [Shape.rowMajor_val_one, Shape.rowMajor_val_two]
    show (j 1).val = (j 0).val * n + (j 1).val
    rw [hj0]
    omega
  have hR : broadcastInDim ⟨2, ![1, n]⟩ ![1] hb x j = x k := by
    refine broadcastInDim_apply ![1] hb x j k ?_
    intro a
    have ha : a = 0 := Subsingleton.elim _ _
    subst ha
    show (j 1).val = if n = 1 then 0 else (j 1).val
    by_cases hn : n = 1
    · rw [if_pos hn]; omega
    · rw [if_neg hn]
  rw [hL, hR]

/-- [n] to [n, 1]. -/
theorem shapeCast_col (n : Nat) (x : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ x h = broadcastInDim ⟨2, ![n, 1]⟩ ![0] hb x := by
  funext j
  -- the only column is column 0; the row is below n
  have hj1 : (j 1).val = 0 := by
    have h1 : (j 1).val < 1 := (j 1).isLt
    omega
  have hj0 : (j 0).val < n := (j 0).isLt
  let k : (⟨1, ![n]⟩ : Shape).Idx := fun a => ⟨(j 0).val, by
    have ha : a = 0 := Subsingleton.elim _ _
    subst ha
    exact hj0⟩
  have hL : shapeCast ⟨2, ![n, 1]⟩ x h j = x k := by
    refine shapeCast_apply x h j k ?_
    rw [Shape.rowMajor_val_one, Shape.rowMajor_val_two]
    show (j 0).val = (j 0).val * 1 + (j 1).val
    rw [hj1]
    omega
  have hR : broadcastInDim ⟨2, ![n, 1]⟩ ![0] hb x j = x k := by
    refine broadcastInDim_apply ![0] hb x j k ?_
    intro a
    have ha : a = 0 := Subsingleton.elim _ _
    subst ha
    show (j 0).val = if n = 1 then 0 else (j 0).val
    by_cases hn : n = 1
    · rw [if_pos hn]; omega
    · rw [if_neg hn]
  rw [hL, hR]

end Idealize.ShloMosaic.ReshapeAsBroadcast

end
-- ==== Proof.KHostA.lean ====
/-
  The kernel program's host stretches before its fourth region, read back: what each leaves in the buffers the next region or a later
  stretch reads, as the functions of Spec.lean of what the stretch found.

  A stretch is a list of whole-array operations, each writing one buffer from the contents of others. What a buffer holds after
  the stretch is found by walking the list backwards from the operation that wrote it: that operation's function applied to what
  its operand buffers held at that point, and so on down to buffers the stretch only reads, which still hold what it found. The
  resulting term is, operation for operation, the text of the Spec function, over shape records that are the same literals under
  the other program's names. Two places differ in spelling only: a vector reshaped to a one-row table where Spec broadcasts it
  along the column axis (the same table, by the lemma on reshapes), and the value passed through the inlined selection routine,
  which is carried through identity casts.
-/
import proofs.«415105_j87316685128359_1_alg».proof.Proof.Gen.KernelIdeal.Frame
import proofs.«415105_j87316685128359_1_alg».proof.Proof.Spec
import proofs.«415105_j87316685128359_1_alg».proof.Proof.LibReshapeAsBroadcast

set_option maxRecDepth 16384

noncomputable section

namespace Cert.KernelIdeal.KHost

open Idealize.ShloMosaic Idealize.ShloMosaic.TcCoe Idealize.SL.Sem Idealize.ShloMosaic.StableHlo Cert.KernelIdeal Cert.KernelIdeal.Gen
open Idealize.ShloMosaic.Pipeline (Dat)
open Idealize.ShloMosaic.ReshapeAsBroadcast (shapeCast_row)

variable {F : FTy → Type} [FloatOps F]
variable (m : (ℓ : Loc nD τ sig) → Buf (Elt F) ℓ) (ρ : Dev nD → PrngReg)

/-! ## The first three stretches: the extended edge list and the edges' factors

The three stretches run one after the other from the launch memory, so a buffer after the third is read back through all three.
The extended end-point lists are concatenations of two pieces that are themselves results of earlier operations of the same
stretch; naming the concatenation as a function of its pieces lets each piece be read back in its turn. -/

/-- The extended end-point list as a function of its two pieces: the given end points, then one entry per node. -/
private def cat2 {α : Type} (a : S1600000.Idx → α) (b : S100000.Idx → α) : S1700000.Idx → α :=
  concatenate S1700000 0 [⟨S1600000, a⟩, ⟨S100000, b⟩] concatenates_S1600000_S100000_S1700000_d0

private theorem cat2_eq {α : Type} (a : S1600000.Idx → α) (b : S100000.Idx → α)
    (h : Shape.Concatenates (([⟨S1600000, a⟩, ⟨S100000, b⟩] : List ((s : Shape) × (s.Idx → α))).map (·.1)) S1700000 0) :
    concatenate S1700000 0 [⟨S1600000, a⟩, ⟨S100000, b⟩] h = cat2 a b := rfl

/-- A stretch read back at one buffer, a two-piece concatenation being read as a function of its pieces before the pieces are. -/
local macro "after_results_cat" : tactic =>
  `(tactic| (simp (disch := decide) only [↓cat2_eq, after_cons, after_nil,
      nullary_result', unary_result', binary_result', ternary_result', reshape_result',
      nullary_result_ne', unary_result_ne', binary_result_ne', ternary_result_ne', reshape_result_ne']))

/-- The sources: row 0 of the edge list, then every node once. -/
theorem W3_s (c : Dev nD) :
    W3 m ρ c (Proc.devRef .tc main_v5) = Cert.Spec.sIdx (m ((c : Thread nD τ).loc main_arg1)) := by
  show StableHlo.after hostOps0_2 (W2 m ρ c) (Proc.devRef .tc main_v5) = _
  after_results_cat
  unfold Cert.Spec.sIdx Cert.Spec.catIota Cert.Spec.srcOf cat2
  rfl

/-- The targets: row 1 of the edge list, then every node once. -/
theorem W3_d (c : Dev nD) :
    W3 m ρ c (Proc.devRef .tc main_v6) = Cert.Spec.dIdx (m ((c : Thread nD τ).loc main_arg1)) := by
  show StableHlo.after hostOps0_2 (W2 m ρ c) (Proc.devRef .tc main_v6) = _
  after_results_cat
  unfold Cert.Spec.dIdx Cert.Spec.catIota Cert.Spec.dstOf cat2
  rfl

/-- The edges' factors as a column: the degrees added up at the targets, their inverse square roots (zero at degree zero, chosen
    by the inlined selection routine, whose casts are identities), gathered at both end points and multiplied. -/
theorem W3_ncol (c : Dev nD) :
    W3 m ρ c (Proc.devRef .tc main_v30) = Cert.Spec.ncol (F := F) (m ((c : Thread nD τ).loc main_arg1)) := by
  show StableHlo.after hostOps0_2 (W2 m ρ c) (Proc.devRef .tc main_v30) = _
  after_results_cat
  simp only [TRef.ofBuf, TRef.toBuf, cast_eq]
  unfold Cert.Spec.ncol Cert.Spec.normCol Cert.Spec.normVec Cert.Spec.invSqrtDeg Cert.Spec.wrapIdx Cert.Spec.sIdx Cert.Spec.dIdx
    Cert.Spec.catIota Cert.Spec.srcOf Cert.Spec.dstOf cat2
  rfl

/-! ## After the first region: the first layer's aggregation, and the norm's two vectors as rows -/

/-- Gather at the sources, scale by the factors, add up at the targets, add the bias: the stretch is `convTail` operation for
    operation. -/
theorem W5_v46 (c : Dev nD) :
    W5 m ρ c (Proc.devRef .tc main_v46) = Cert.Spec.convTail (W4 m ρ c (Proc.devRef .tc main_v31)) (W4 m ρ c (Proc.devRef .tc main_v5)) (W4 m ρ c (Proc.devRef .tc main_v6)) (W4 m ρ c (Proc.devRef .tc main_v30)) (W4 m ρ c (Proc.devRef .tc main_arg4)) := by
  show StableHlo.after hostOps1 (W4 m ρ c) (Proc.devRef .tc main_v46) = _
  after_results_simp
  unfold Cert.Spec.convTail Cert.Spec.wrapIdx
  rfl

/-- A vector of 128 entries reshaped to one row is that vector broadcast along the column axis. -/
theorem W5_v47 (c : Dev nD) :
    W5 m ρ c (Proc.devRef .tc main_v47) = Cert.Spec.rowOf (W4 m ρ c (Proc.devRef .tc main_arg5)) := by
  show StableHlo.after hostOps1 (W4 m ρ c) (Proc.devRef .tc main_v47) = _
  after_results_simp
  unfold Cert.Spec.rowOf
  exact shapeCast_row 128 _ _ _

theorem W5_v48 (c : Dev nD) :
    W5 m ρ c (Proc.devRef .tc main_v48) = Cert.Spec.rowOf (W4 m ρ c (Proc.devRef .tc main_arg6)) := by
  show StableHlo.after hostOps1 (W4 m ρ c) (Proc.devRef .tc main_v48) = _
  after_results_simp
  unfold Cert.Spec.rowOf
  exact shapeCast_row 128 _ _ _

/-! ## After the second region: the second layer's weight matrix and bias, cut out of the stacked parameters -/

theorem W7_v51 (c : Dev nD) :
    W7 m ρ c (Proc.devRef .tc main_v51) = Cert.Spec.wc0 (W6 m ρ c (Proc.devRef .tc main_arg7)) := by
  show StableHlo.after hostOps2 (W6 m ρ c) (Proc.devRef .tc main_v51) = _
  after_results_simp
  unfold Cert.Spec.wc0
  rfl

theorem W7_v53 (c : Dev nD) :
    W7 m ρ c (Proc.devRef .tc main_v53) = Cert.Spec.vec0 (W6 m ρ c (Proc.devRef .tc main_arg8)) := by
  show StableHlo.after hostOps2 (W6 m ρ c) (Proc.devRef .tc main_v53) = _
  after_results_simp
  unfold Cert.Spec.vec0
  rfl

/-! ## After the third region: the second layer's aggregation, and its norm's two vectors cut out and laid as rows -/

theorem W9_v69 (c : Dev nD) :
    W9 m ρ c (Proc.devRef .tc main_v69) = Cert.Spec.convTail (W8 m ρ c (Proc.devRef .tc main_v54)) (W8 m ρ c (Proc.devRef .tc main_v5)) (W8 m ρ c (Proc.devRef .tc main_v6)) (W8 m ρ c (Proc.devRef .tc main_v30)) (W8 m ρ c (Proc.devRef .tc main_v53)) := by
  show StableHlo.after hostOps3 (W8 m ρ c) (Proc.devRef .tc main_v69) = _
  after_results_simp
  unfold Cert.Spec.convTail Cert.Spec.wrapIdx
  rfl

/-- Row 0 of the stacked vectors, reshaped to one row: the cut is Spec's, the reshape is the broadcast along the column axis. -/
theorem W9_v74 (c : Dev nD) :
    W9 m ρ c (Proc.devRef .tc main_v74) = Cert.Spec.rowOf (Cert.Spec.vec0 (W8 m ρ c (Proc.devRef .tc main_arg9))) := by
  show StableHlo.after hostOps3 (W8 m ρ c) (Proc.devRef .tc main_v74) = _
  after_results_simp
  unfold Cert.Spec.rowOf Cert.Spec.vec0
  exact shapeCast_row 128 _ _ _

theorem W9_v75 (c : Dev nD) :
    W9 m ρ c (Proc.devRef .tc main_v75) = Cert.Spec.rowOf (Cert.Spec.vec0 (W8 m ρ c (Proc.devRef .tc main_arg10))) := by
  show StableHlo.after hostOps3 (W8 m ρ c) (Proc.devRef .tc main_v75) = _
  after_results_simp
  unfold Cert.Spec.rowOf Cert.Spec.vec0
  exact shapeCast_row 128 _ _ _

end Cert.KernelIdeal.KHost

end
-- ==== Proof.KHostB.lean ====
/-
  The kernel program's host stretches from its fourth region on, read back: what each leaves in the buffers the next region or a later
  stretch reads, as the functions of Spec.lean of what the stretch found.

  Every stretch is a straight line of whole-array operations, each writing one buffer of its own. The contents of a buffer after the
  line are therefore the composition of the operations on the path that leads to it, applied to what the line found in the buffers
  it only reads. That composition is, operation for operation, the text of the matching function of Spec.lean: the two sides are then
  the same term, the shape facts of the two programs being proofs of the same propositions.

  One difference of spelling remains. Where the reference lays a vector out as a one-row table (or a one-column table) by a broadcast
  along the other axis, this program reshapes it. A reshape keeps the row-major position and a table with a single row (a single
  column) has the vector's own positions, so both tables hold entry k of the vector at (0, k) (at (k, 0)).
-/
import proofs.«415105_j87316685128359_1_alg».proof.Proof.Gen.KernelIdeal.Frame
import proofs.«415105_j87316685128359_1_alg».proof.Proof.Spec
import proofs.«415105_j87316685128359_1_alg».proof.Proof.LibReshapeAsBroadcast

set_option maxRecDepth 16384

noncomputable section

namespace Cert.KernelIdeal.KHost

open Idealize.ShloMosaic Idealize.ShloMosaic.TcCoe Idealize.SL.Sem Idealize.ShloMosaic.StableHlo Cert.KernelIdeal Cert.KernelIdeal.Gen
open Idealize.ShloMosaic.Pipeline (Dat)
open Idealize.ShloMosaic.ReshapeAsBroadcast (shapeCast_row shapeCast_col)

variable {F : FTy → Type} [FloatOps F]
variable (m : (ℓ : Loc nD τ sig) → Buf (Elt F) ℓ) (ρ : Dev nD → PrngReg)

/-! ## Before the third layer's product: its weight matrix and bias cut out of the stacked parameters -/

/-- Slice 1 of the stacked weight matrices, the leading unit axis dropped. -/
theorem W11_v78 (c : Dev nD) :
    W11 m ρ c (Proc.devRef .tc main_v78) = Cert.Spec.wc1 (W10 m ρ c (Proc.devRef .tc main_arg7)) := by
  show StableHlo.after hostOps4 (W10 m ρ c) (Proc.devRef .tc main_v78) = _
  after_results_simp
  unfold Cert.Spec.wc1
  rfl

/-- Row 1 of the stacked biases, as a vector. -/
theorem W11_v80 (c : Dev nD) :
    W11 m ρ c (Proc.devRef .tc main_v80) = Cert.Spec.vec1 (W10 m ρ c (Proc.devRef .tc main_arg8)) := by
  show StableHlo.after hostOps4 (W10 m ρ c) (Proc.devRef .tc main_v80) = _
  after_results_simp
  unfold Cert.Spec.vec1
  rfl

/-! ## Between the third layer's product and its layer norm -/

/-- The rest of the graph convolution: the product's rows gathered at the edges' sources (a negative index wrapped first), scaled by
    the edges' factors, added up at the edges' targets, plus the bias on every row. The line computes these in this order, so its
    composition is the specification's text. -/
theorem W13_v96 (c : Dev nD) :
    W13 m ρ c (Proc.devRef .tc main_v96) = Cert.Spec.convTail (W12 m ρ c (Proc.devRef .tc main_v81)) (W12 m ρ c (Proc.devRef .tc main_v5)) (W12 m ρ c (Proc.devRef .tc main_v6)) (W12 m ρ c (Proc.devRef .tc main_v30)) (W12 m ρ c (Proc.devRef .tc main_v80)) := by
  show StableHlo.after hostOps5 (W12 m ρ c) (Proc.devRef .tc main_v96) = _
  after_results_simp
  unfold Cert.Spec.convTail Cert.Spec.wrapIdx
  rfl

/-- Row 1 of the stacked layer-norm scales as a one-row table: cut out as a vector, then reshaped to one row, which is the broadcast
    along axis 1. -/
theorem W13_v101 (c : Dev nD) :
    W13 m ρ c (Proc.devRef .tc main_v101) = Cert.Spec.rowOf (Cert.Spec.vec1 (W12 m ρ c (Proc.devRef .tc main_arg9))) := by
  show StableHlo.after hostOps5 (W12 m ρ c) (Proc.devRef .tc main_v101) = _
  after_results_simp
  unfold Cert.Spec.rowOf Cert.Spec.vec1
  exact shapeCast_row 128 _ _ _

/-- The same for the layer-norm shifts. -/
theorem W13_v102 (c : Dev nD) :
    W13 m ρ c (Proc.devRef .tc main_v102) = Cert.Spec.rowOf (Cert.Spec.vec1 (W12 m ρ c (Proc.devRef .tc main_arg10))) := by
  show StableHlo.after hostOps5 (W12 m ρ c) (Proc.devRef .tc main_v102) = _
  after_results_simp
  unfold Cert.Spec.rowOf Cert.Spec.vec1
  exact shapeCast_row 128 _ _ _

/-! ## Before the pooling -/

/-- The graph index of every node as a column: a reshape to one column, which is the broadcast along axis 0. -/
theorem W15_v104 (c : Dev nD) :
    W15 m ρ c (Proc.devRef .tc main_v104) = Cert.Spec.colOf (W14 m ρ c (Proc.devRef .tc main_arg2)) := by
  show StableHlo.after hostOps6 (W14 m ρ c) (Proc.devRef .tc main_v104) = _
  after_results_simp
  unfold Cert.Spec.colOf
  exact shapeCast_col 100000 _ _ _

/-! ## Between the pooling and the three affine maps -/

/-- The sums divided by the graphs' sizes: a one added up at every node's graph gives the sizes, the maximum with one guards an empty
    graph, and the column of sizes is spread over the 128 features before the division. -/
theorem W17_v114 (c : Dev nD) :
    W17 m ρ c (Proc.devRef .tc main_v114) = Cert.Spec.meanDiv (W16 m ρ c (Proc.devRef .tc main_v105)) (W16 m ρ c (Proc.devRef .tc main_arg2)) := by
  show StableHlo.after hostOps7 (W16 m ρ c) (Proc.devRef .tc main_v114) = _
  after_results_simp
  unfold Cert.Spec.meanDiv
  rfl

/-- The three biases of the affine maps, each reshaped to a one-row table. -/
theorem W17_v115 (c : Dev nD) :
    W17 m ρ c (Proc.devRef .tc main_v115) = Cert.Spec.row256 (W16 m ρ c (Proc.devRef .tc main_arg12)) := by
  show StableHlo.after hostOps7 (W16 m ρ c) (Proc.devRef .tc main_v115) = _
  after_results_simp
  unfold Cert.Spec.row256
  exact shapeCast_row 256 _ _ _

theorem W17_v116 (c : Dev nD) :
    W17 m ρ c (Proc.devRef .tc main_v116) = Cert.Spec.rowOf (W16 m ρ c (Proc.devRef .tc main_arg14)) := by
  show StableHlo.after hostOps7 (W16 m ρ c) (Proc.devRef .tc main_v116) = _
  after_results_simp
  unfold Cert.Spec.rowOf
  exact shapeCast_row 128 _ _ _

theorem W17_v117 (c : Dev nD) :
    W17 m ρ c (Proc.devRef .tc main_v117) = Cert.Spec.row8 (W16 m ρ c (Proc.devRef .tc main_arg16)) := by
  show StableHlo.after hostOps7 (W16 m ρ c) (Proc.devRef .tc main_v117) = _
  after_results_simp
  unfold Cert.Spec.row8
  exact shapeCast_row 8 _ _ _

end Cert.KernelIdeal.KHost

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.RegMm.lean ====
/-
  The three row-tiled matrix products: each of the 20 grid points multiplies 5000 rows by the whole 128 x 128 weight matrix, so the
  output array after the region is the product of the whole input table with the matrix.

  Both products, read at an entry (r, q), are the sum over k of  table (r, k) * matrix (k, q).  Point t's input block is
  rows 5000 t .. 5000 t + 4999 of the table, its matrix block is the whole matrix, and its output block is rows
  5000 t .. 5000 t + 4999 of the result: entry (p, q) of what the body leaves is therefore entry (5000 t + p, q) of the
  whole product. The twenty row bands tile the 100000 rows (row r lies in band r / 5000), so the array ends at the product.
-/
import proofs.«415105_j87316685128359_1_alg».proof.Proof.Gen.KernelIdeal.Frame
import proofs.«415105_j87316685128359_1_alg».proof.Proof.Spec
import proofs.«415105_j87316685128359_1_alg».proof.Proof.LibPlainDot
import Idealize.ShloMosaic.PureOps.Ideal
import Idealize.ShloMosaic.Lib.Pipeline.Value
import Idealize.ShloMosaic.Lib.ValueIdx

noncomputable section

namespace Cert.KernelIdeal.RegVal

open Idealize.ShloMosaic Idealize.ShloMosaic.TcCoe Idealize.SL.Sem Idealize.ShloMosaic.StableHlo Cert.KernelIdeal Cert.KernelIdeal.Gen
open Idealize.ShloMosaic.Pipeline (Dat)
open Idealize.ShloMosaic.ValueIdx

namespace Mm

/-! ## The two products at an entry -/

/-- Zero offsets on two axes, however spelt. -/
theorem zeroOffsets : (![0, 0] : Fin 2 → Nat) = fun _ => 0 := funext fun a => by fin_cases a <;> rfl

/-- The whole-table product of the specification at entry (r, q): the sum over k of table (r, k) * matrix (k, q). -/
theorem mmOps_apply (h : FVec Ideal S100000x128 .f32) (w : FVec Ideal S128x128 .f32) (r : Fin 100000) (q : Fin 128) :
    Cert.Spec.mmOps (F := Ideal) h w (ix2 r q) = ∑ k : Fin 128, h (ix2 r k) * w (ix2 k q) := by
  unfold Cert.Spec.mmOps
  exact Cert.LibPlainDot.dotGeneral_apply Cert.ReferenceIdeal.dot_S100000x128_S128x128_S100000x128_1_0_0_1_n_n rfl rfl rfl rfl rfl rfl none _ h w r q

/-! ## Region 0 -/

/-- The body at entry (p, q) of its block: the change of format is the identity, so the product into the
    zero accumulator is the sum over k of rows (p, k) * matrix (k, q). -/
theorem pay0_apply (x0 : FVec Ideal S5000x128 .f32) (x1 : FVec Ideal S128x128 .f32) (p : Fin 5000) (q : Fin 128) :
    (k0_pay1 (F := Ideal) x0 x1) (ix2 p q) = ∑ k : Fin 128, x0 (ix2 p k) * x1 (ix2 k q) := by
  unfold k0_pay1
  exact Cert.LibPlainDot.matmul_zero_apply dot_S5000x128_S128x128_S5000x128_1_0_0_1_n_n rfl rfl rfl rfl rfl rfl none _ _ p q

/-- The index maps over the 20 points: the table's and the result's block index is (t, 0), the matrix's (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
-- the TensorCore's buffer contents when the region is entered
variable (V : (c : Dev nD) → (b : Ref sig .tc) → Buf (Elt Ideal) ((c : Thread nD τ).loc b))

/-- Point t's block of the table is its rows 5000 t .. 5000 t + 4999. -/
theorem rows0_apply (c : Dev nD) (t : Fin cfg0.N) (p : Fin 5000) (k : Fin 128) (i : S100000x128.Idx)
    (hi0 : (i 0).val = t.val * 5000 + p.val) (hi1 : (i 1).val = k.val) :
    (iblk0 (F := Ideal) V c 0 t : Vec Ideal S5000x128 .f32) (ix2 p k) = (V c main_arg0 : S100000x128.Idx → EReal) i := by
  obtain ⟨e0, e1, -⟩ := idx0 t
  unfold iblk0
  rw [View.read_apply]
  show V c main_arg0 _ = V c main_arg0 _
  congr 1
  funext a; apply Fin.ext
  match a with
  | ⟨0, _⟩ => show win0_0.index t (0 : Fin 2) * 5000 + 1 * p.val = (i 0).val; rw [e0, hi0]; omega
  | ⟨1, _⟩ => show win0_0.index t (1 : Fin 2) * 128 + 1 * k.val = (i 1).val; rw [e1, hi1]; omega

/-- Every point's block of the matrix is the whole matrix. -/
theorem whole0_apply (c : Dev nD) (t : Fin cfg0.N) (k q : Fin 128) :
    (iblk0 (F := Ideal) V c 1 t : Vec Ideal S128x128 .f32) (ix2 k q) = (V c main_arg3 : S128x128.Idx → EReal) (ix2 k q) := by
  obtain ⟨-, -, e2, e3, -⟩ := idx0 t
  unfold iblk0
  rw [View.read_apply]
  show V c main_arg3 _ = V c main_arg3 _
  congr 1
  funext a; apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- Entry j of what the body leaves at point t is entry (5000 t + j 0, j 1) of the whole product. -/
theorem band0_entry (c : Dev nD) (t : Fin cfg0.N) (j : S5000x128.Idx) (i : S100000x128.Idx)
    (hi0 : (i 0).val = t.val * 5000 + (j 0).val) (hi1 : (i 1).val = (j 1).val) :
    k0_pay1 (F := Ideal) (iblk0 V c 0 t) (iblk0 V c 1 t) j = Cert.Spec.mmOps (F := Ideal) (V c main_arg0) (V c main_arg3) i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hi1
  refine (pay0_apply (iblk0 V c 0 t) (iblk0 V c 1 t) p q').trans ?_
  refine Eq.trans ?_ (mmOps_apply (V c main_arg0) (V c main_arg3) r q').symm
  refine Finset.sum_congr rfl fun k _ => ?_
  rw [rows0_apply V c t p k (ix2 r k) hi0 rfl, whole0_apply V c t k q']

/-- What point t writes back is its block of the whole product. -/
theorem flushed0 (c : Dev nD) (t : Fin cfg0.N) :
    (dat0 (F := Ideal) V c).flushed 2 t
      = ((cfg0.win 2).blk t).view.read (Elt Ideal) (Cert.Spec.mmOps (F := Ideal) (V c main_arg0) (V c main_arg3)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x128) zeroOffsets]
  obtain ⟨-, -, -, -, e4, e5⟩ := idx0 t
  funext j
  show k0_pay1 (F := Ideal) (iblk0 V c 0 t) (iblk0 V c 1 t) j
    = Cert.Spec.mmOps (F := Ideal) (V c main_arg0) (V c main_arg3) (((cfg0.win 2).blk t).view.emb j)
  refine band0_entry V c t j _ ?_ ?_
  · show win0_2.index t (0 : Fin 2) * 5000 + 1 * (j 0).val = t.val * 5000 + (j 0).val; rw [e4]; omega
  · show win0_2.index t (1 : Fin 2) * 128 + 1 * (j 1).val = (j 1).val; rw [e5]; omega

end

/-- An index of the result lies in point t's block iff each coordinate lies in the block's range on its axis. -/
theorem mem_band0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v31).slice (win0_2.rect t)).set ↔ _
  rw [View.set_slice_whole, Rect.mem_set_unit]
  exact Iff.rfl

/-- The bands tile the result: row r lies in band r / 5000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e4, e5⟩ := idx0 t
  refine ⟨t, flush0_2 t, ?_⟩
  rw [mem_band0]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 128 ≤ (i 1).val ∧ (i 1).val < win0_2.index t (1 : Fin 2) * 128 + 128
    rw [e5]; omega

/-! ## Region 2 -/

/-- The body at entry (p, q) of its block: the change of format is the identity and so is a cast to the same shape, so the product into the
    zero accumulator is the sum over k of rows (p, k) * matrix (k, q). -/
theorem pay2_apply (x0 : FVec Ideal S5000x128 .f32) (x1 : FVec Ideal S128x128 .f32) (p : Fin 5000) (q : Fin 128) :
    (k2_pay1 (F := Ideal) x0 x1) (ix2 p q) = ∑ k : Fin 128, x0 (ix2 p k) * x1 (ix2 k q) := by
  unfold k2_pay1
  simp only [shapeCast_self]
  exact Cert.LibPlainDot.matmul_zero_apply dot_S5000x128_S128x128_S5000x128_1_0_0_1_n_n rfl rfl rfl rfl rfl rfl none _ _ p q

/-- The index maps over the 20 points: the table's and the result's block index is (t, 0), the matrix's (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
-- the TensorCore's buffer contents when the region is entered
variable (V : (c : Dev nD) → (b : Ref sig .tc) → Buf (Elt Ideal) ((c : Thread nD τ).loc b))

/-- Point t's block of the table is its rows 5000 t .. 5000 t + 4999. -/
theorem rows2_apply (c : Dev nD) (t : Fin cfg2.N) (p : Fin 5000) (k : Fin 128) (i : S100000x128.Idx)
    (hi0 : (i 0).val = t.val * 5000 + p.val) (hi1 : (i 1).val = k.val) :
    (iblk2 (F := Ideal) V c 0 t : Vec Ideal S5000x128 .f32) (ix2 p k) = (V c main_v49 : S100000x128.Idx → EReal) i := by
  obtain ⟨e0, e1, -⟩ := idx2 t
  unfold iblk2
  rw [View.read_apply]
  show V c main_v49 _ = V c main_v49 _
  congr 1
  funext a; apply Fin.ext
  match a with
  | ⟨0, _⟩ => show win2_0.index t (0 : Fin 2) * 5000 + 1 * p.val = (i 0).val; rw [e0, hi0]; omega
  | ⟨1, _⟩ => show win2_0.index t (1 : Fin 2) * 128 + 1 * k.val = (i 1).val; rw [e1, hi1]; omega

/-- Every point's block of the matrix is the whole matrix. -/
theorem whole2_apply (c : Dev nD) (t : Fin cfg2.N) (k q : Fin 128) :
    (iblk2 (F := Ideal) V c 1 t : Vec Ideal S128x128 .f32) (ix2 k q) = (V c main_v51 : S128x128.Idx → EReal) (ix2 k q) := by
  obtain ⟨-, -, e2, e3, -⟩ := idx2 t
  unfold iblk2
  rw [View.read_apply]
  show V c main_v51 _ = V c main_v51 _
  congr 1
  funext a; apply Fin.ext
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- Entry j of what the body leaves at point t is entry (5000 t + j 0, j 1) of the whole product. -/
theorem band2_entry (c : Dev nD) (t : Fin cfg2.N) (j : S5000x128.Idx) (i : S100000x128.Idx)
    (hi0 : (i 0).val = t.val * 5000 + (j 0).val) (hi1 : (i 1).val = (j 1).val) :
    k2_pay1 (F := Ideal) (iblk2 V c 0 t) (iblk2 V c 1 t) j = Cert.Spec.mmOps (F := Ideal) (V c main_v49) (V c main_v51) i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hi1
  refine (pay2_apply (iblk2 V c 0 t) (iblk2 V c 1 t) p q').trans ?_
  refine Eq.trans ?_ (mmOps_apply (V c main_v49) (V c main_v51) r q').symm
  refine Finset.sum_congr rfl fun k _ => ?_
  rw [rows2_apply V c t p k (ix2 r k) hi0 rfl, whole2_apply V c t k q']

/-- What point t writes back is its block of the whole product. -/
theorem flushed2 (c : Dev nD) (t : Fin cfg2.N) :
    (dat2 (F := Ideal) V c).flushed 2 t
      = ((cfg2.win 2).blk t).view.read (Elt Ideal) (Cert.Spec.mmOps (F := Ideal) (V c main_v49) (V c main_v51)) := by
  show (cfg2.win 2).cut (grid2.coords t) ((dat2 V c).after 2 t) = _
  rw [after2_2]
  unfold out2_2
  rw [View.canon_unit_zero zeroOffsets]
  simp only [View.ld_unit_zero (S := S5000x128) zeroOffsets, View.ld_unit_zero (S := S128x128) zeroOffsets]
  obtain ⟨-, -, -, -, e4, e5⟩ := idx2 t
  funext j
  show k2_pay1 (F := Ideal) (iblk2 V c 0 t) (iblk2 V c 1 t) j
    = Cert.Spec.mmOps (F := Ideal) (V c main_v49) (V c main_v51) (((cfg2.win 2).blk t).view.emb j)
  refine band2_entry V c t j _ ?_ ?_
  · show win2_2.index t (0 : Fin 2) * 5000 + 1 * (j 0).val = t.val * 5000 + (j 0).val; rw [e4]; omega
  · show win2_2.index t (1 : Fin 2) * 128 + 1 * (j 1).val = (j 1).val; rw [e5]; omega

end

/-- An index of the result lies in point t's block iff each coordinate lies in the block's range on its axis. -/
theorem mem_band2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v54).slice (win2_2.rect t)).set ↔ _
  rw [View.set_slice_whole, Rect.mem_set_unit]
  exact Iff.rfl

/-- The bands tile the result: row r lies in band r / 5000. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, e4, e5⟩ := idx2 t
  refine ⟨t, flush2_2 t, ?_⟩
  rw [mem_band2]
  intro a
  match a with
  | ⟨0, _⟩ =>
    show win2_2.index t (0 : Fin 2) * 5000 ≤ (i 0).val ∧ (i 0).val < win2_2.index t (0 : Fin 2) * 5000 + 5000
    rw [e4, ht]; omega
  | ⟨1, _⟩ =>
    show win2_2.index t (1 : Fin 2) * 128 ≤ (i 1).val ∧ (i 1).val < win2_2.index t (1 : Fin 2) * 128 + 128
    rw [e5]; omega

/-! ## Region 4 -/

/-- The body at entry (p, q) of its block: the change of format is the identity and so is a cast to the same shape, so the product into the
    zero accumulator is the sum over k of rows (p, k) * matrix (k, q). -/
theorem pay4_apply (x0 : FVec Ideal S5000x128 .f32) (x1 : FVec Ideal S128x128 .f32) (p : Fin 5000) (q : Fin 128) :
    (k4_pay1 (F := Ideal) x0 x1) (ix2 p q) = ∑ k : Fin 128, x0 (ix2 p k) * x1 (ix2 k q) := by
  unfold k4_pay1
  simp only [shapeCast_self]
  exact Cert.LibPlainDot.matmul_zero_apply dot_S5000x128_S128x128_S5000x128_1_0_0_1_n_n rfl rfl rfl rfl rfl rfl none _ _ p q

/-- The index maps over the 20 points: the table's and the result's block index is (t, 0), the matrix's (0, 0). -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

section
-- the TensorCore's buffer contents when the region is entered
variable (V : (c : Dev nD) → (b : Ref sig .tc) → Buf (Elt Ideal) ((c : Thread nD τ).loc b))

/-- Point t's block of the table is its rows 5000 t .. 5000 t + 4999. -/
theorem rows4_apply (c : Dev nD) (t : Fin cfg4.N) (p : Fin 5000) (k : Fin 128) (i : S100000x128.Idx)
    (hi0 : (i 0).val = t.val * 5000 + p.val) (hi1 : (i 1).val = k.val) :
    (iblk4 (F := Ideal) V c 0 t : Vec Ideal S5000x128 .f32) (ix2 p k) = (V c main_v76 : S100000x128.Idx → EReal) i := by
  obtain ⟨e0, e1, -⟩ := idx4 t
  unfold iblk4
  rw [View.read_apply]
  show V c main_v76 _ = V c main_v76 _
  congr 1
  funext a; apply Fin.ext
  match a with
  | ⟨0, _⟩ => show win4_0.index t (0 : Fin 2) * 5000 + 1 * p.val = (i 0).val; rw [e0, hi0]; omega
  | ⟨1, _⟩ => show win4_0.index t (1 : Fin 2) * 128 + 1 * k.val = (i 1).val; rw [e1, hi1]; omega

/-- Every point's block of the matrix is the whole matrix. -/
theorem whole4_apply (c : Dev nD) (t : Fin cfg4.N) (k q : Fin 128) :
    (iblk4 (F := Ideal) V c 1 t : Vec Ideal S128x128 .f32) (ix2 k q) = (V c main_v78 : S128x128.Idx → EReal) (ix2 k q) := by
  obtain ⟨-, -, e2, e3, -⟩ := idx4 t
  unfold iblk4
  rw [View.read_apply]
  show V c main_v78 _ = V c main_v78 _
  congr 1
  funext a; apply Fin.ext
  match a with
  | ⟨0, _⟩ => show win4_1.index t (0 : Fin 2) * 128 + 1 * k.val = k.val; rw [e2]; omega
  | ⟨1, _⟩ => show win4_1.index t (1 : Fin 2) * 128 + 1 * q.val = q.val; rw [e3]; omega

/-- Entry j of what the body leaves at point t is entry (5000 t + j 0, j 1) of the whole product. -/
theorem band4_entry (c : Dev nD) (t : Fin cfg4.N) (j : S5000x128.Idx) (i : S100000x128.Idx)
    (hi0 : (i 0).val = t.val * 5000 + (j 0).val) (hi1 : (i 1).val = (j 1).val) :
    k4_pay1 (F := Ideal) (iblk4 V c 0 t) (iblk4 V c 1 t) j = Cert.Spec.mmOps (F := Ideal) (V c main_v76) (V c main_v78) i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hi1
  refine (pay4_apply (iblk4 V c 0 t) (iblk4 V c 1 t) p q').trans ?_
  refine Eq.trans ?_ (mmOps_apply (V c main_v76) (V c main_v78) r q').symm
  refine Finset.sum_congr rfl fun k _ => ?_
  rw [rows4_apply V c t p k (ix2 r k) hi0 rfl, whole4_apply V c t k q']

/-- What point t writes back is its block of the whole product. -/
theorem flushed4 (c : Dev nD) (t : Fin cfg4.N) :
    (dat4 (F := Ideal) V c).flushed 2 t
      = ((cfg4.win 2).blk t).view.read (Elt Ideal) (Cert.Spec.mmOps (F := Ideal) (V c main_v76) (V c main_v78)) := by
  show (cfg4.win 2).cut (grid4.coords t) ((dat4 V c).after 2 t) = _
  rw [after4_2]
  unfold out4_2
  rw [View.canon_unit_zero zeroOffsets]
  simp only [View.ld_unit_zero (S := S5000x128) zeroOffsets, View.ld_unit_zero (S := S128x128) zeroOffsets]
  obtain ⟨-, -, -, -, e4, e5⟩ := idx4 t
  funext j
  show k4_pay1 (F := Ideal) (iblk4 V c 0 t) (iblk4 V c 1 t) j
    = Cert.Spec.mmOps (F := Ideal) (V c main_v76) (V c main_v78) (((cfg4.win 2).blk t).view.emb j)
  refine band4_entry V c t j _ ?_ ?_
  · show win4_2.index t (0 : Fin 2) * 5000 + 1 * (j 0).val = t.val * 5000 + (j 0).val; rw [e4]; omega
  · show win4_2.index t (1 : Fin 2) * 128 + 1 * (j 1).val = (j 1).val; rw [e5]; omega

end

/-- An index of the result lies in point t's block iff each coordinate lies in the block's range on its axis. -/
theorem mem_band4 (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v81).slice (win4_2.rect t)).set ↔ _
  rw [View.set_slice_whole, Rect.mem_set_unit]
  exact Iff.rfl

/-- The bands tile the result: row r lies in band r / 5000. -/
theorem cover4 (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨-, -, -, -, e4, e5⟩ := idx4 t
  refine ⟨t, flush4_2 t, ?_⟩
  rw [mem_band4]
  intro a
  match a with
  | ⟨0, _⟩ =>
    show win4_2.index t (0 : Fin 2) * 5000 ≤ (i 0).val ∧ (i 0).val < win4_2.index t (0 : Fin 2) * 5000 + 5000
    rw [e4, ht]; omega
  | ⟨1, _⟩ =>
    show win4_2.index t (1 : Fin 2) * 128 ≤ (i 1).val ∧ (i 1).val < win4_2.index t (1 : Fin 2) * 128 + 128
    rw [e5]; omega

end Mm

/-! ## The three output arrays after their regions -/

-- the TensorCore's buffer contents when the region is entered
variable (V : (c : Dev nD) → (b : Ref sig .tc) → Buf (Elt Ideal) ((c : Thread nD τ).loc b))

theorem mm0 (c : Dev nD) :
    (dat0 (F := Ideal) V c).arrAt 2 cfg0.N = Cert.Spec.mmOps (F := Ideal) (V c main_arg0) (V c main_arg3) :=
  (dat0 (F := Ideal) V c).arrAt_eq_of_cover 2 _ (fun t _ => Mm.flushed0 V c t) Mm.cover0

theorem mm2 (c : Dev nD) :
    (dat2 (F := Ideal) V c).arrAt 2 cfg2.N = Cert.Spec.mmOps (F := Ideal) (V c main_v49) (V c main_v51) :=
  (dat2 (F := Ideal) V c).arrAt_eq_of_cover 2 _ (fun t _ => Mm.flushed2 V c t) Mm.cover2

theorem mm4 (c : Dev nD) :
    (dat4 (F := Ideal) V c).arrAt 2 cfg4.N = Cert.Spec.mmOps (F := Ideal) (V c main_v76) (V c main_v78) :=
  (dat4 (F := Ideal) V c).arrAt_eq_of_cover 2 _ (fun t _ => Mm.flushed4 V c t) Mm.cover4

end Cert.KernelIdeal.RegVal

end
-- ==== Proof.RegLn.lean ====
/-
  The three relu + layer-norm regions: each grid point normalises 5000 rows, a row's result depending on that row only, so the
  output array after the region is the row-wise function of the whole input table.

  For one row x of 128 features, with r = max(x, 0), mu = (sum of r) / 128, xc = r - mu, var = (sum of xc * xc) / 128, the result
  at feature d is  xc d * rsqrt(var + 1e-5) * g d + b d  (`lnAt`). The whole-array text of the specification, read at (row, d),
  is that formula of the table's row: its sums start from the zero word, and 0 + s = s. The body's block, read at (p, d), is the
  same formula of the block's row p: the same operations in the same order, its lane sums starting from the zero accumulator.
  Point t's table block is rows 5000 t .. 5000 t + 4999 of the table, its scale and shift blocks are the whole one-row tables,
  and its result block is rows 5000 t .. 5000 t + 4999 of the result: entry (p, d) of what the body leaves is entry
  (5000 t + p, d) of the whole-array function. The twenty row bands tile the 100000 rows (row r lies in band r / 5000).
-/
import proofs.«415105_j87316685128359_1_alg».proof.Proof.Gen.KernelIdeal.Frame
import proofs.«415105_j87316685128359_1_alg».proof.Proof.Spec
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.RegVal

open Idealize.ShloMosaic Idealize.ShloMosaic.TcCoe Idealize.SL.Sem Idealize.ShloMosaic.StableHlo Cert.KernelIdeal Cert.KernelIdeal.Gen
open Idealize.ShloMosaic.Pipeline (Dat)
open Idealize.ShloMosaic.ValueIdx
open scoped BigOperators

namespace Ln

/-- relu, then the layer norm of one row of 128 features, read at feature `d`: the row's positive part, less its mean,
    times the inverse root of (the mean square of that difference plus 1e-5), times the scale, plus the shift. -/
def lnAt (x : Fin 128 → EReal) (g b : EReal) (d : Fin 128) : EReal :=
  ((max (x d) 0 - Ideal.div (∑ k : Fin 128, max (x k) 0) (Ideal.ofBits .f32 0x43000000#32))
      * Ideal.rsqrt (Ideal.div (∑ k : Fin 128,
            (max (x k) 0 - Ideal.div (∑ k : Fin 128, max (x k) 0) (Ideal.ofBits .f32 0x43000000#32))
              * (max (x k) 0 - Ideal.div (∑ k : Fin 128, max (x k) 0) (Ideal.ofBits .f32 0x43000000#32)))
          (Ideal.ofBits .f32 0x43000000#32) + Ideal.ofBits .f32 0x3727C5AC#32)
      * g) + b

/-! ## The whole-array formula at an index -/

theorem hostDivf_at {s : Shape} (a b : FVec Ideal s .f32) (i : s.Idx) : Host.divf a b i = Ideal.div (a i) (b i) := rfl
theorem hostRsqrt_at {s : Shape} (a : FVec Ideal s .f32) (i : s.Idx) : Host.rsqrt a i = Ideal.rsqrt (a i) := rfl

/-- A scalar spread over any shape reads as the scalar. -/
theorem bcScalar_at {t : Shape} (hb : S_.BroadcastsInDim t (![] : Fin 0 → Fin t.rank)) (w : BitVec 32) (j : t.Idx) :
    broadcastInDim t (no_index ![]) hb (constant (F := Ideal) (no_index S_) .f32 w) j = Ideal.ofBits .f32 w := rfl

/-- A vector of row values as a column. -/
theorem bcCol_at (hb : S100000.BroadcastsInDim S100000x1 (![0] : Fin 1 → Fin 2)) (v : FVec Ideal S100000 .f32) (r : Fin 100000) :
    broadcastInDim (no_index S100000x1) (no_index ![0]) hb v (ix2 r (0 : Fin 1)) = v (ix1 r) :=
  broadcastInDim_apply _ hb v _ _ (fun a => by match a with | ⟨0, _⟩ => rfl)

/-- A column spread along the rows' features. -/
theorem bcRow_at (hb : S100000x1.BroadcastsInDim S100000x128 (![0, 1] : Fin 2 → Fin 2)) (v : FVec Ideal S100000x1 .f32)
    (r : Fin 100000) (d : Fin 128) :
    broadcastInDim (no_index S100000x128) (no_index ![0, 1]) hb v (ix2 r d) = v (ix2 r (0 : Fin 1)) :=
  broadcastInDim_apply _ hb v _ _ (fun a => by match a with | ⟨0, _⟩ => rfl | ⟨1, _⟩ => rfl)

/-- A one-row table spread over all rows. -/
theorem bcFeat_at (hb : S1x128.BroadcastsInDim S100000x128 (![0, 1] : Fin 2 → Fin 2)) (v : FVec Ideal S1x128 .f32)
    (r : Fin 100000) (d : Fin 128) :
    broadcastInDim (no_index S100000x128) (no_index ![0, 1]) hb v (ix2 r d) = v (ix2 (0 : Fin 1) d) :=
  broadcastInDim_apply _ hb v _ _ (fun a => by match a with | ⟨0, _⟩ => rfl | ⟨1, _⟩ => rfl)

/-- The host's sum along the features, started from the zero word, is the sum of the row. -/
theorem rowSum_at (x : FVec Ideal S100000x128 .f32) (h' : S100000x128.ReducesTo [1] S100000) (hu : 0 < S_.numel) (r : Fin 100000) :
    Host.reduceAdd (F := Ideal) x (constant (F := Ideal) (no_index S_) .f32 0x00000000#32) h' hu (ix1 r) = ∑ k : Fin 128, x (ix2 r k) := by
  have hred : S100000x128.Reduces [1] S100000 := by decide
  show Ideal.hostReduceAdd h' x (Ideal.ofBits .f32 0x00000000#32) (ix1 r) = _
  rw [Ideal.hostReduceAdd_single h' hred, Ideal.ofBits_zero_f32, zero_add]
  refine Finset.sum_congr rfl fun k _ => congrArg x ?_
  funext a; match a with | ⟨0, _⟩ => rfl | ⟨1, _⟩ => rfl

/-- The reference's relu and layer norm, read at row `r` and feature `d`, is the row formula of row `r`. -/
theorem lnOps_apply (h : FVec Ideal S100000x128 .f32) (g b : FVec Ideal S1x128 .f32) (r : Fin 100000) (d : Fin 128) :
    Cert.Spec.lnOps (F := Ideal) h g b (ix2 r d) = lnAt (fun k => h (ix2 r k)) (g (ix2 0 d)) (b (ix2 0 d)) d := by
  unfold Cert.Spec.lnOps lnAt
  dsimp only
  simp only [addf_apply, mulf_apply, subf_apply, maximumf_apply, hostDivf_at, hostRsqrt_at, bcScalar_at, bcCol_at, bcRow_at,
    bcFeat_at, rowSum_at, Ideal.ofBits_zero_f32]

/-! ## The kernel's block result at an index -/

theorem rsqrt_at {s : Shape} (a : FVec Ideal s .f32) (i : s.Idx) : rsqrt a i = Ideal.rsqrt (a i) := rfl

/-- A block's sum along the lanes, started from the zero word, is the sum of the block's row. -/
theorem laneSum_at (src : FVec Ideal S5000x128 .f32) (h : S5000x128.Reduces [1] S5000) (hφ : FKind.Formats .f32)
    (hacc : (0x00000000#32 : BitVec 32) = 0x00000000#32) (p : Fin 5000) :
    multiReduction (F := Ideal) .add (no_index [1]) (no_index S5000) src 0x00000000#32 h hφ hacc (ix1 p)
      = ∑ k : Fin 128, src (ix2 p k) := by
  refine (Ideal.multiReduction_add_single src 0x00000000#32 h hφ hacc (ix1 p)).trans ?_
  refine Finset.sum_congr rfl fun k _ => congrArg src ?_
  funext a; match a with | ⟨0, _⟩ => rfl | ⟨1, _⟩ => rfl

/-- A vector of the block's row values as a column. -/
theorem toCol_at (hc : S5000.ShapeCasts S5000x1) (v : FVec Ideal S5000 .f32) (p : Fin 5000) :
    shapeCast (no_index S5000x1) v hc (ix2 p (0 : Fin 1)) = v (ix1 p) :=
  shapeCast_apply v hc _ _ (by
    rw [Shape.rowMajor_val_one, Shape.rowMajor_val_two]
    show p.val = p.val * 1 + 0
    omega)

/-- A column of the block spread along the lanes. -/
theorem bcLane_at (hb : S5000x1.Broadcasts S5000x128) (v : FVec Ideal S5000x1 .f32) (p : Fin 5000) (d : Fin 128) :
    broadcastTo (no_index S5000x128) v hb (ix2 p d) = v (ix2 p (0 : Fin 1)) :=
  broadcastTo_apply v hb _ _ (fun a => by match a with | ⟨0, _⟩ => rfl | ⟨1, _⟩ => rfl)

/-- A one-row table spread over the block's rows. -/
theorem bcBlockFeat_at (hb : S1x128.Broadcasts S5000x128) (v : FVec Ideal S1x128 .f32) (p : Fin 5000) (d : Fin 128) :
    broadcastTo (no_index S5000x128) v hb (ix2 p d) = v (ix2 (0 : Fin 1) d) :=
  broadcastTo_apply v hb _ _ (fun a => by match a with | ⟨0, _⟩ => rfl | ⟨1, _⟩ => rfl)

/-- The body's result block of region 1 at row `p` and lane `d` is the row formula of the table block's row `p`. -/
theorem pay1_apply (x0 : Vec Ideal S5000x128 .f32) (x1 x2 : Vec Ideal S1x128 .f32) (p : Fin 5000) (d : Fin 128) :
    k1_pay1 (F := Ideal) x0 x1 x2 (ix2 p d) = lnAt (fun k => x0 (ix2 p k)) (x1 (ix2 0 d)) (x2 (ix2 0 d)) d := by
  unfold k1_pay1 lnAt
  dsimp only
  simp only [addf_apply, mulf_apply, subf_apply, maximumf_apply, divf_apply, rsqrt_at, broadcast_apply, shapeCast_self, toCol_at,
    bcLane_at, bcBlockFeat_at, laneSum_at, Ideal.ofBits_def, Ideal.ofBits_zero_f32]

/-- The body's result block of region 3 at row `p` and lane `d` is the row formula of the table block's row `p`. -/
theorem pay3_apply (x0 : Vec Ideal S5000x128 .f32) (x1 x2 : Vec Ideal S1x128 .f32) (p : Fin 5000) (d : Fin 128) :
    k3_pay1 (F := Ideal) x0 x1 x2 (ix2 p d) = lnAt (fun k => x0 (ix2 p k)) (x1 (ix2 0 d)) (x2 (ix2 0 d)) d := by
  unfold k3_pay1 lnAt
  dsimp only
  simp only [addf_apply, mulf_apply, subf_apply, maximumf_apply, divf_apply, rsqrt_at, broadcast_apply, shapeCast_self, toCol_at,
    bcLane_at, bcBlockFeat_at, laneSum_at, Ideal.ofBits_def, Ideal.ofBits_zero_f32]

/-- The body's result block of region 5 at row `p` and lane `d` is the row formula of the table block's row `p`. -/
theorem pay5_apply (x0 : Vec Ideal S5000x128 .f32) (x1 x2 : Vec Ideal S1x128 .f32) (p : Fin 5000) (d : Fin 128) :
    k5_pay1 (F := Ideal) x0 x1 x2 (ix2 p d) = lnAt (fun k => x0 (ix2 p k)) (x1 (ix2 0 d)) (x2 (ix2 0 d)) d := by
  unfold k5_pay1 lnAt
  dsimp only
  simp only [addf_apply, mulf_apply, subf_apply, maximumf_apply, divf_apply, rsqrt_at, broadcast_apply, shapeCast_self, toCol_at,
    bcLane_at, bcBlockFeat_at, laneSum_at, Ideal.ofBits_def, Ideal.ofBits_zero_f32]

/-! ## From blocks to the array -/

/-- Zero offsets on two axes, however spelt. -/
theorem zeroOffsets : (![0, 0] : Fin 2 → Nat) = fun _ => 0 := funext fun a => by fin_cases a <;> rfl

/-! ### Region 1 -/

/-- The index maps over the 20 points: the table's and the result's block index is (t, 0), the scale's and the shift's (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
-- the TensorCore's buffer contents when the region is entered
variable (V : (c : Dev nD) → (b : Ref sig .tc) → Buf (Elt Ideal) ((c : Thread nD τ).loc b))

/-- Point t's block of the table is its rows 5000 t .. 5000 t + 4999. -/
theorem tableRows1 (c : Dev nD) (t : Fin cfg1.N) (p : Fin 5000) (k : Fin 128) (r : Fin 100000) (hr : r.val = t.val * 5000 + p.val) :
    (iblk1 (F := Ideal) V c 0 t : Vec Ideal S5000x128 .f32) (ix2 p k) = (V c main_v46 : S100000x128.Idx → EReal) (ix2 r k) := by
  obtain ⟨e0, e1, -⟩ := idx1 t
  unfold iblk1
  rw [View.read_apply]
  show V c main_v46 _ = V c main_v46 _
  congr 1
  funext a; apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Every point's block of the scale is the whole one-row table. -/
theorem scale1 (c : Dev nD) (t : Fin cfg1.N) (d : Fin 128) :
    (iblk1 (F := Ideal) V c 1 t : Vec Ideal S1x128 .f32) (ix2 0 d) = (V c main_v47 : S1x128.Idx → EReal) (ix2 0 d) := by
  obtain ⟨-, -, e2, e3, -⟩ := idx1 t
  unfold iblk1
  rw [View.read_apply]
  show V c main_v47 _ = V c main_v47 _
  congr 1
  funext a; apply Fin.ext
  match a with
  | ⟨0, _⟩ => show win1_1.index t (0 : Fin 2) * 1 + 1 * 0 = 0; rw [e2]
  | ⟨1, _⟩ => show win1_1.index t (1 : Fin 2) * 128 + 1 * d.val = d.val; rw [e3]; omega

/-- Every point's block of the shift is the whole one-row table. -/
theorem shift1 (c : Dev nD) (t : Fin cfg1.N) (d : Fin 128) :
    (iblk1 (F := Ideal) V c 2 t : Vec Ideal S1x128 .f32) (ix2 0 d) = (V c main_v48 : S1x128.Idx → EReal) (ix2 0 d) := by
  obtain ⟨-, -, -, -, e4, e5, -⟩ := idx1 t
  unfold iblk1
  rw [View.read_apply]
  show V c main_v48 _ = V c main_v48 _
  congr 1
  funext a; apply Fin.ext
  match a with
  | ⟨0, _⟩ => show win1_2.index t (0 : Fin 2) * 1 + 1 * 0 = 0; rw [e4]
  | ⟨1, _⟩ => show win1_2.index t (1 : Fin 2) * 128 + 1 * d.val = d.val; rw [e5]; omega

/-- Entry j of what the body leaves at point t is entry (5000 t + j 0, j 1) of the whole-array function: both are the row
    formula of the same row of the table, with the same scale and shift. -/
theorem rowBand1_entry (c : Dev nD) (t : Fin cfg1.N) (j : S5000x128.Idx) (i : S100000x128.Idx)
    (hi0 : (i 0).val = t.val * 5000 + (j 0).val) (hi1 : (i 1).val = (j 1).val) :
    k1_pay1 (F := Ideal) (iblk1 V c 0 t) (iblk1 V c 1 t) (iblk1 V c 2 t) j
      = Cert.Spec.lnOps (F := Ideal) (V c main_v46) (V c main_v47) (V c main_v48) i := by
  obtain ⟨p, d, rfl⟩ : ∃ (p : Fin 5000) (d : Fin 128), j = ix2 p d := ⟨j 0, j 1, eq_ix2 j⟩
  obtain ⟨r, d', rfl⟩ : ∃ (r : Fin 100000) (d' : Fin 128), i = ix2 r d' := ⟨i 0, i 1, eq_ix2 i⟩
  obtain rfl : d' = d := Fin.ext hi1
  refine (pay1_apply (iblk1 V c 0 t) (iblk1 V c 1 t) (iblk1 V c 2 t) p d').trans ?_
  refine Eq.trans ?_ (lnOps_apply (V c main_v46) (V c main_v47) (V c main_v48) r d').symm
  have h0 : (fun k : Fin 128 => (iblk1 (F := Ideal) V c 0 t : Vec Ideal S5000x128 .f32) (ix2 p k))
      = fun k : Fin 128 => (V c main_v46 : S100000x128.Idx → EReal) (ix2 r k) := funext fun k => tableRows1 V c t p k r hi0
  rw [h0, scale1 V c t d', shift1 V c t d']

/-- What point t writes back is its block of the whole-array function. -/
theorem flushed1 (c : Dev nD) (t : Fin cfg1.N) :
    (dat1 (F := Ideal) V c).flushed 3 t
      = ((cfg1.win 3).blk t).view.read (Elt Ideal) (Cert.Spec.lnOps (F := Ideal) (V c main_v46) (V c main_v47) (V c main_v48)) := by
  show (cfg1.win 3).cut (grid1.coords t) ((dat1 V c).after 3 t) = _
  rw [after1_3]
  unfold out1_3
  rw [View.canon_unit_zero zeroOffsets]
  simp only [View.ld_unit_zero (S := S5000x128) zeroOffsets, View.ld_unit_zero (S := S1x128) zeroOffsets]
  obtain ⟨-, -, -, -, -, -, e6, e7⟩ := idx1 t
  funext j
  show k1_pay1 (F := Ideal) (iblk1 V c 0 t) (iblk1 V c 1 t) (iblk1 V c 2 t) j
    = Cert.Spec.lnOps (F := Ideal) (V c main_v46) (V c main_v47) (V c main_v48) (((cfg1.win 3).blk t).view.emb j)
  refine rowBand1_entry V c t j _ ?_ ?_
  · show win1_3.index t (0 : Fin 2) * 5000 + 1 * (j 0).val = t.val * 5000 + (j 0).val; rw [e6]; omega
  · show win1_3.index t (1 : Fin 2) * 128 + 1 * (j 1).val = (j 1).val; rw [e7]; omega

end

/-- An index of the result lies in point t's block iff each coordinate lies in the block's range on its axis. -/
theorem mem_rowBand1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v49).slice (win1_3.rect t)).set ↔ _
  rw [View.set_slice_whole, Rect.mem_set_unit]
  exact Iff.rfl

/-- The row bands tile the result: row r lies in band r / 5000. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, e6, e7⟩ := idx1 t
  refine ⟨t, flush1_3 t, ?_⟩
  rw [mem_rowBand1]
  intro a
  match a with
  | ⟨0, _⟩ =>
    show win1_3.index t (0 : Fin 2) * 5000 ≤ (i 0).val ∧ (i 0).val < win1_3.index t (0 : Fin 2) * 5000 + 5000
    rw [e6, ht]; omega
  | ⟨1, _⟩ =>
    show win1_3.index t (1 : Fin 2) * 128 ≤ (i 1).val ∧ (i 1).val < win1_3.index t (1 : Fin 2) * 128 + 128
    rw [e7]; omega

/-! ### Region 3 -/

/-- The index maps over the 20 points: the table's and the result's block index is (t, 0), the scale's and the shift's (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

section
-- the TensorCore's buffer contents when the region is entered
variable (V : (c : Dev nD) → (b : Ref sig .tc) → Buf (Elt Ideal) ((c : Thread nD τ).loc b))

/-- Point t's block of the table is its rows 5000 t .. 5000 t + 4999. -/
theorem tableRows3 (c : Dev nD) (t : Fin cfg3.N) (p : Fin 5000) (k : Fin 128) (r : Fin 100000) (hr : r.val = t.val * 5000 + p.val) :
    (iblk3 (F := Ideal) V c 0 t : Vec Ideal S5000x128 .f32) (ix2 p k) = (V c main_v69 : S100000x128.Idx → EReal) (ix2 r k) := by
  obtain ⟨e0, e1, -⟩ := idx3 t
  unfold iblk3
  rw [View.read_apply]
  show V c main_v69 _ = V c main_v69 _
  congr 1
  funext a; apply Fin.ext
  match a with
  | ⟨0, _⟩ => show win3_0.index t (0 : Fin 2) * 5000 + 1 * p.val = r.val; rw [e0, hr]; omega
  | ⟨1, _⟩ => show win3_0.index t (1 : Fin 2) * 128 + 1 * k.val = k.val; rw [e1]; omega

/-- Every point's block of the scale is the whole one-row table. -/
theorem scale3 (c : Dev nD) (t : Fin cfg3.N) (d : Fin 128) :
    (iblk3 (F := Ideal) V c 1 t : Vec Ideal S1x128 .f32) (ix2 0 d) = (V c main_v74 : S1x128.Idx → EReal) (ix2 0 d) := by
  obtain ⟨-, -, e2, e3, -⟩ := idx3 t
  unfold iblk3
  rw [View.read_apply]
  show V c main_v74 _ = V c main_v74 _
  congr 1
  funext a; apply Fin.ext
  match a with
  | ⟨0, _⟩ => show win3_1.index t (0 : Fin 2) * 1 + 1 * 0 = 0; rw [e2]
  | ⟨1, _⟩ => show win3_1.index t (1 : Fin 2) * 128 + 1 * d.val = d.val; rw [e3]; omega

/-- Every point's block of the shift is the whole one-row table. -/
theorem shift3 (c : Dev nD) (t : Fin cfg3.N) (d : Fin 128) :
    (iblk3 (F := Ideal) V c 2 t : Vec Ideal S1x128 .f32) (ix2 0 d) = (V c main_v75 : S1x128.Idx → EReal) (ix2 0 d) := by
  obtain ⟨-, -, -, -, e4, e5, -⟩ := idx3 t
  unfold iblk3
  rw [View.read_apply]
  show V c main_v75 _ = V c main_v75 _
  congr 1
  funext a; apply Fin.ext
  match a with
  | ⟨0, _⟩ => show win3_2.index t (0 : Fin 2) * 1 + 1 * 0 = 0; rw [e4]
  | ⟨1, _⟩ => show win3_2.index t (1 : Fin 2) * 128 + 1 * d.val = d.val; rw [e5]; omega

/-- Entry j of what the body leaves at point t is entry (5000 t + j 0, j 1) of the whole-array function: both are the row
    formula of the same row of the table, with the same scale and shift. -/
theorem rowBand3_entry (c : Dev nD) (t : Fin cfg3.N) (j : S5000x128.Idx) (i : S100000x128.Idx)
    (hi0 : (i 0).val = t.val * 5000 + (j 0).val) (hi1 : (i 1).val = (j 1).val) :
    k3_pay1 (F := Ideal) (iblk3 V c 0 t) (iblk3 V c 1 t) (iblk3 V c 2 t) j
      = Cert.Spec.lnOps (F := Ideal) (V c main_v69) (V c main_v74) (V c main_v75) i := by
  obtain ⟨p, d, rfl⟩ : ∃ (p : Fin 5000) (d : Fin 128), j = ix2 p d := ⟨j 0, j 1, eq_ix2 j⟩
  obtain ⟨r, d', rfl⟩ : ∃ (r : Fin 100000) (d' : Fin 128), i = ix2 r d' := ⟨i 0, i 1, eq_ix2 i⟩
  obtain rfl : d' = d := Fin.ext hi1
  refine (pay3_apply (iblk3 V c 0 t) (iblk3 V c 1 t) (iblk3 V c 2 t) p d').trans ?_
  refine Eq.trans ?_ (lnOps_apply (V c main_v69) (V c main_v74) (V c main_v75) r d').symm
  have h0 : (fun k : Fin 128 => (iblk3 (F := Ideal) V c 0 t : Vec Ideal S5000x128 .f32) (ix2 p k))
      = fun k : Fin 128 => (V c main_v69 : S100000x128.Idx → EReal) (ix2 r k) := funext fun k => tableRows3 V c t p k r hi0
  rw [h0, scale3 V c t d', shift3 V c t d']

/-- What point t writes back is its block of the whole-array function. -/
theorem flushed3 (c : Dev nD) (t : Fin cfg3.N) :
    (dat3 (F := Ideal) V c).flushed 3 t
      = ((cfg3.win 3).blk t).view.read (Elt Ideal) (Cert.Spec.lnOps (F := Ideal) (V c main_v69) (V c main_v74) (V c main_v75)) := by
  show (cfg3.win 3).cut (grid3.coords t) ((dat3 V c).after 3 t) = _
  rw [after3_3]
  unfold out3_3
  rw [View.canon_unit_zero zeroOffsets]
  simp only [View.ld_unit_zero (S := S5000x128) zeroOffsets, View.ld_unit_zero (S := S1x128) zeroOffsets]
  obtain ⟨-, -, -, -, -, -, e6, e7⟩ := idx3 t
  funext j
  show k3_pay1 (F := Ideal) (iblk3 V c 0 t) (iblk3 V c 1 t) (iblk3 V c 2 t) j
    = Cert.Spec.lnOps (F := Ideal) (V c main_v69) (V c main_v74) (V c main_v75) (((cfg3.win 3).blk t).view.emb j)
  refine rowBand3_entry V c t j _ ?_ ?_
  · show win3_3.index t (0 : Fin 2) * 5000 + 1 * (j 0).val = t.val * 5000 + (j 0).val; rw [e6]; omega
  · show win3_3.index t (1 : Fin 2) * 128 + 1 * (j 1).val = (j 1).val; rw [e7]; omega

end

/-- An index of the result lies in point t's block iff each coordinate lies in the block's range on its axis. -/
theorem mem_rowBand3 (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v76).slice (win3_3.rect t)).set ↔ _
  rw [View.set_slice_whole, Rect.mem_set_unit]
  exact Iff.rfl

/-- The row bands tile the result: row r lies in band r / 5000. -/
theorem cover3 (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, e6, e7⟩ := idx3 t
  refine ⟨t, flush3_3 t, ?_⟩
  rw [mem_rowBand3]
  intro a
  match a with
  | ⟨0, _⟩ =>
    show win3_3.index t (0 : Fin 2) * 5000 ≤ (i 0).val ∧ (i 0).val < win3_3.index t (0 : Fin 2) * 5000 + 5000
    rw [e6, ht]; omega
  | ⟨1, _⟩ =>
    show win3_3.index t (1 : Fin 2) * 128 ≤ (i 1).val ∧ (i 1).val < win3_3.index t (1 : Fin 2) * 128 + 128
    rw [e7]; omega

/-! ### Region 5 -/

/-- The index maps over the 20 points: the table's and the result's block index is (t, 0), the scale's and the shift's (0, 0). -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

section
-- the TensorCore's buffer contents when the region is entered
variable (V : (c : Dev nD) → (b : Ref sig .tc) → Buf (Elt Ideal) ((c : Thread nD τ).loc b))

/-- Point t's block of the table is its rows 5000 t .. 5000 t + 4999. -/
theorem tableRows5 (c : Dev nD) (t : Fin cfg5.N) (p : Fin 5000) (k : Fin 128) (r : Fin 100000) (hr : r.val = t.val * 5000 + p.val) :
    (iblk5 (F := Ideal) V c 0 t : Vec Ideal S5000x128 .f32) (ix2 p k) = (V c main_v96 : S100000x128.Idx → EReal) (ix2 r k) := by
  obtain ⟨e0, e1, -⟩ := idx5 t
  unfold iblk5
  rw [View.read_apply]
  show V c main_v96 _ = V c main_v96 _
  congr 1
  funext a; apply Fin.ext
  match a with
  | ⟨0, _⟩ => show win5_0.index t (0 : Fin 2) * 5000 + 1 * p.val = r.val; rw [e0, hr]; omega
  | ⟨1, _⟩ => show win5_0.index t (1 : Fin 2) * 128 + 1 * k.val = k.val; rw [e1]; omega

/-- Every point's block of the scale is the whole one-row table. -/
theorem scale5 (c : Dev nD) (t : Fin cfg5.N) (d : Fin 128) :
    (iblk5 (F := Ideal) V c 1 t : Vec Ideal S1x128 .f32) (ix2 0 d) = (V c main_v101 : S1x128.Idx → EReal) (ix2 0 d) := by
  obtain ⟨-, -, e2, e3, -⟩ := idx5 t
  unfold iblk5
  rw [View.read_apply]
  show V c main_v101 _ = V c main_v101 _
  congr 1
  funext a; apply Fin.ext
  match a with
  | ⟨0, _⟩ => show win5_1.index t (0 : Fin 2) * 1 + 1 * 0 = 0; rw [e2]
  | ⟨1, _⟩ => show win5_1.index t (1 : Fin 2) * 128 + 1 * d.val = d.val; rw [e3]; omega

/-- Every point's block of the shift is the whole one-row table. -/
theorem shift5 (c : Dev nD) (t : Fin cfg5.N) (d : Fin 128) :
    (iblk5 (F := Ideal) V c 2 t : Vec Ideal S1x128 .f32) (ix2 0 d) = (V c main_v102 : S1x128.Idx → EReal) (ix2 0 d) := by
  obtain ⟨-, -, -, -, e4, e5, -⟩ := idx5 t
  unfold iblk5
  rw [View.read_apply]
  show V c main_v102 _ = V c main_v102 _
  congr 1
  funext a; apply Fin.ext
  match a with
  | ⟨0, _⟩ => show win5_2.index t (0 : Fin 2) * 1 + 1 * 0 = 0; rw [e4]
  | ⟨1, _⟩ => show win5_2.index t (1 : Fin 2) * 128 + 1 * d.val = d.val; rw [e5]; omega

/-- Entry j of what the body leaves at point t is entry (5000 t + j 0, j 1) of the whole-array function: both are the row
    formula of the same row of the table, with the same scale and shift. -/
theorem rowBand5_entry (c : Dev nD) (t : Fin cfg5.N) (j : S5000x128.Idx) (i : S100000x128.Idx)
    (hi0 : (i 0).val = t.val * 5000 + (j 0).val) (hi1 : (i 1).val = (j 1).val) :
    k5_pay1 (F := Ideal) (iblk5 V c 0 t) (iblk5 V c 1 t) (iblk5 V c 2 t) j
      = Cert.Spec.lnOps (F := Ideal) (V c main_v96) (V c main_v101) (V c main_v102) i := by
  obtain ⟨p, d, rfl⟩ : ∃ (p : Fin 5000) (d : Fin 128), j = ix2 p d := ⟨j 0, j 1, eq_ix2 j⟩
  obtain ⟨r, d', rfl⟩ : ∃ (r : Fin 100000) (d' : Fin 128), i = ix2 r d' := ⟨i 0, i 1, eq_ix2 i⟩
  obtain rfl : d' = d := Fin.ext hi1
  refine (pay5_apply (iblk5 V c 0 t) (iblk5 V c 1 t) (iblk5 V c 2 t) p d').trans ?_
  refine Eq.trans ?_ (lnOps_apply (V c main_v96) (V c main_v101) (V c main_v102) r d').symm
  have h0 : (fun k : Fin 128 => (iblk5 (F := Ideal) V c 0 t : Vec Ideal S5000x128 .f32) (ix2 p k))
      = fun k : Fin 128 => (V c main_v96 : S100000x128.Idx → EReal) (ix2 r k) := funext fun k => tableRows5 V c t p k r hi0
  rw [h0, scale5 V c t d', shift5 V c t d']

/-- What point t writes back is its block of the whole-array function. -/
theorem flushed5 (c : Dev nD) (t : Fin cfg5.N) :
    (dat5 (F := Ideal) V c).flushed 3 t
      = ((cfg5.win 3).blk t).view.read (Elt Ideal) (Cert.Spec.lnOps (F := Ideal) (V c main_v96) (V c main_v101) (V c main_v102)) := by
  show (cfg5.win 3).cut (grid5.coords t) ((dat5 V c).after 3 t) = _
  rw [after5_3]
  unfold out5_3
  rw [View.canon_unit_zero zeroOffsets]
  simp only [View.ld_unit_zero (S := S5000x128) zeroOffsets, View.ld_unit_zero (S := S1x128) zeroOffsets]
  obtain ⟨-, -, -, -, -, -, e6, e7⟩ := idx5 t
  funext j
  show k5_pay1 (F := Ideal) (iblk5 V c 0 t) (iblk5 V c 1 t) (iblk5 V c 2 t) j
    = Cert.Spec.lnOps (F := Ideal) (V c main_v96) (V c main_v101) (V c main_v102) (((cfg5.win 3).blk t).view.emb j)
  refine rowBand5_entry V c t j _ ?_ ?_
  · show win5_3.index t (0 : Fin 2) * 5000 + 1 * (j 0).val = t.val * 5000 + (j 0).val; rw [e6]; omega
  · show win5_3.index t (1 : Fin 2) * 128 + 1 * (j 1).val = (j 1).val; rw [e7]; omega

end

/-- An index of the result lies in point t's block iff each coordinate lies in the block's range on its axis. -/
theorem mem_rowBand5 (t : Fin cfg5.N) (i : S100000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v103).slice (win5_3.rect t)).set ↔ _
  rw [View.set_slice_whole, Rect.mem_set_unit]
  exact Iff.rfl

/-- The row bands tile the result: row r lies in band r / 5000. -/
theorem cover5 (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 20 := N_5
  obtain ⟨t, ht⟩ : ∃ t : Fin cfg5.N, t.val = (i 0).val / 5000 := ⟨⟨(i 0).val / 5000, by rw [hN]; omega⟩, rfl⟩
  obtain ⟨-, -, -, -, -, -, e6, e7⟩ := idx5 t
  refine ⟨t, flush5_3 t, ?_⟩
  rw [mem_rowBand5]
  intro a
  match a with
  | ⟨0, _⟩ =>
    show win5_3.index t (0 : Fin 2) * 5000 ≤ (i 0).val ∧ (i 0).val < win5_3.index t (0 : Fin 2) * 5000 + 5000
    rw [e6, ht]; omega
  | ⟨1, _⟩ =>
    show win5_3.index t (1 : Fin 2) * 128 ≤ (i 1).val ∧ (i 1).val < win5_3.index t (1 : Fin 2) * 128 + 128
    rw [e7]; omega

end Ln

/-! ## The three output arrays after their regions -/

-- the TensorCore's buffer contents when the region is entered
variable (V : (c : Dev nD) → (b : Ref sig .tc) → Buf (Elt Ideal) ((c : Thread nD τ).loc b))

theorem ln1 (c : Dev nD) :
    (dat1 (F := Ideal) V c).arrAt 3 cfg1.N = Cert.Spec.lnOps (F := Ideal) (V c main_v46) (V c main_v47) (V c main_v48) :=
  (dat1 (F := Ideal) V c).arrAt_eq_of_cover 3 _ (fun t _ => Ln.flushed1 V c t) Ln.cover1

theorem ln3 (c : Dev nD) :
    (dat3 (F := Ideal) V c).arrAt 3 cfg3.N = Cert.Spec.lnOps (F := Ideal) (V c main_v69) (V c main_v74) (V c main_v75) :=
  (dat3 (F := Ideal) V c).arrAt_eq_of_cover 3 _ (fun t _ => Ln.flushed3 V c t) Ln.cover3

theorem ln5 (c : Dev nD) :
    (dat5 (F := Ideal) V c).arrAt 3 cfg5.N = Cert.Spec.lnOps (F := Ideal) (V c main_v96) (V c main_v101) (V c main_v102) :=
  (dat5 (F := Ideal) V c).arrAt_eq_of_cover 3 _ (fun t _ => Ln.flushed5 V c t) Ln.cover5

end Cert.KernelIdeal.RegVal

end
-- ==== Proof.LibScatterAddRows.lean ====
/-
  An accumulating float scatter of N whole rows into a two-axis table of K rows, read at an element, over the
  extended reals.

  `x.at[idx].add(upd)` of a table `x : [K, B]` with one row index per update (`idx : [N, 1]`, `upd : [N, B]`; also what
  `jax.ops.segment_sum` of a two-axis array lowers to) prints as a scatter whose first operand axis is inserted and
  indexed by the start index, and whose second operand axis is the update's one window axis. At the ideal instance
  the result at `(b, c)` is the operand's element plus the sum over the updates `i` whose index word, read as a signed
  integer, is `b`, of the update's element `(i, c)`; an update whose index is negative or at least K lands nowhere.

  The steps, each a lemma of its own. On the first operand axis the start of update element `(i, c')` is the signed
  index word of row `i` (`rowsDims_start0`) and the window coordinate is 0, the axis being inserted
  (`rowsDims_window0`); on the second axis the start is 0, the start index naming the first axis only
  (`rowsDims_start1`), and the window coordinate is `c'` (`rowsDims_window1`). So update element `(i, c')` lands on
  `(b, c)` exactly when the signed word of row `i` equals `b` and `c' = c` (`rowsDims_resultIdx?_eq_some_iff`). The sum
  over the update elements landing on `(b, c)`, written as a double sum over the coordinates (`sum_idx2`), then keeps
  one term of the inner sum, and what is left is a sum over the rows `i` alone.
-/
import Idealize.ShloMosaic.PureOps.Ideal
import Idealize.ShloMosaic.Lib.ValueIdx

noncomputable section

open scoped BigOperators

namespace Idealize.ShloMosaic.ScatterAddRows

open Idealize.ShloMosaic Idealize.ShloMosaic.ValueIdx

/-- The dimension numbers of a scatter of N rows into a table of K rows: operand `[K, B]`, indices `[N, 1]`,
    updates `[N, B]`. -/
abbrev rowsDims (K B N : Nat)
    (wf : ScatterDims.WF ⟨2, ![K, B]⟩ ⟨2, ![N, 1]⟩ ⟨2, ![N, B]⟩ [1] [0] [0] 1) :
    ScatterDims ⟨2, ![K, B]⟩ ⟨2, ![N, 1]⟩ ⟨2, ![N, B]⟩ where
  updateWindowDims := [1]
  insertedWindowDims := [0]
  scatterDimsToOperandDims := [0]
  indexVectorDim := 1
  wf := wf

/-- A property of the two axes holds of every axis once it holds of each. -/
theorem forall_axis2 {P : Fin 2 → Prop} (h0 : P 0) (h1 : P 1) : ∀ a, P a := by
  intro a
  match a with
  | ⟨0, _⟩ => exact h0
  | ⟨1, _⟩ => exact h1

/-- Two two-axis indices with the same two coordinates are equal. -/
theorem idx2_ext {n0 n1 : Nat} {f g : (⟨2, ![n0, n1]⟩ : Shape).Idx}
    (h0 : f 0 = g 0) (h1 : f 1 = g 1) : f = g := by
  rw [eq_ix2 f, eq_ix2 g, h0, h1]

/-- The operand's one axis that is not inserted is the second. -/
theorem rowsDims_sKept {K B N : Nat}
    (wf : ScatterDims.WF ⟨2, ![K, B]⟩ ⟨2, ![N, 1]⟩ ⟨2, ![N, B]⟩ [1] [0] [0] 1) :
    (rowsDims K B N wf).sKept = [1] := rfl

/-- The start of an update element on the first operand axis is the index word of its row, read as a signed integer:
    the start index's only component sits at `[j 0, 0]` of the scatter indices. -/
theorem rowsDims_start0 {K B N w : Nat}
    (wf : ScatterDims.WF ⟨2, ![K, B]⟩ ⟨2, ![N, 1]⟩ ⟨2, ![N, B]⟩ [1] [0] [0] 1)
    (idx : IVec ⟨2, ![N, 1]⟩ w) (j : (⟨2, ![N, B]⟩ : Shape).Idx) :
    (rowsDims K B N wf).start j idx 0 = (idx (ix2 (j 0) (0 : Fin 1))).toInt := by
  unfold ScatterDims.start
  rw [dif_pos (show (0 : Fin 2) ∈ (rowsDims K B N wf).scatterDimsToOperandDims from List.mem_singleton.mpr rfl)]
  have hsi : (rowsDims K B N wf).siIdx j ⟨List.idxOf (0 : Fin 2) (rowsDims K B N wf).scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

/-- The start index names the first operand axis only, so on the second axis every start is `0`. -/
theorem rowsDims_start1 {K B N w : Nat}
    (wf : ScatterDims.WF ⟨2, ![K, B]⟩ ⟨2, ![N, 1]⟩ ⟨2, ![N, B]⟩ [1] [0] [0] 1)
    (idx : IVec ⟨2, ![N, 1]⟩ w) (j : (⟨2, ![N, B]⟩ : Shape).Idx) :
    (rowsDims K B N wf).start j idx 1 = 0 := by
  unfold ScatterDims.start
  rw [dif_neg (show ¬ (1 : Fin 2) ∈ (rowsDims K B N wf).scatterDimsToOperandDims from
    fun h => absurd (List.mem_singleton.mp h) (by decide : ¬ (1 : Fin 2) = 0))]

/-- The first operand axis is an inserted window axis, so every update element's window coordinate on it is `0`. -/
theorem rowsDims_window0 {K B N : Nat}
    (wf : ScatterDims.WF ⟨2, ![K, B]⟩ ⟨2, ![N, 1]⟩ ⟨2, ![N, B]⟩ [1] [0] [0] 1)
    (j : (⟨2, ![N, B]⟩ : Shape).Idx) : (rowsDims K B N wf).window j 0 = 0 := by
  unfold ScatterDims.window
  rw [dif_neg]
  rw [rowsDims_sKept]
  exact (by decide : ¬ (0 : Fin 2) ∈ [1])

/-- The second operand axis is the one kept axis, so the window coordinate on it is the update element's coordinate
    on its one window axis, the second. -/
theorem rowsDims_window1 {K B N : Nat}
    (wf : ScatterDims.WF ⟨2, ![K, B]⟩ ⟨2, ![N, 1]⟩ ⟨2, ![N, B]⟩ [1] [0] [0] 1)
    (j : (⟨2, ![N, B]⟩ : Shape).Idx) : (rowsDims K B N wf).window j 1 = (j 1).val := by
  unfold ScatterDims.window
  rw [dif_pos (show (1 : Fin 2) ∈ (rowsDims K B N wf).sKept by
    rw [rowsDims_sKept]; exact (by decide : (1 : Fin 2) ∈ [1]))]
  rfl

/-- Update element `(i, c')` lands on `(b, c)` exactly when the index word of row `i`, read as a signed integer,
    is `b`, and `c' = c`: a word that is negative or at least `K` names no row of the operand, and the update
    is dropped. -/
theorem rowsDims_resultIdx?_eq_some_iff {K B N w : Nat}
    (wf : ScatterDims.WF ⟨2, ![K, B]⟩ ⟨2, ![N, 1]⟩ ⟨2, ![N, B]⟩ [1] [0] [0] 1)
    (idx : IVec ⟨2, ![N, 1]⟩ w) (i : Fin N) (c' : Fin B) (b : Fin K) (c : Fin B) :
    (rowsDims K B N wf).resultIdx? (ix2 i c') idx = some (ix2 b c)
      ↔ (idx (ix2 i (0 : Fin 1))).toInt = (b.val : Int) ∧ c' = c := by
  have hb : b.val < K := b.isLt
  have hc' : c'.val < B := c'.isLt
  have p0 : (rowsDims K B N wf).start (ix2 i c') idx 0 + ((rowsDims K B N wf).window (ix2 i c') 0 : Int)
      = (idx (ix2 i (0 : Fin 1))).toInt := by
    rw [rowsDims_start0, rowsDims_window0]; exact Int.add_zero _
  have p1 : (rowsDims K B N wf).start (ix2 i c') idx 1 + ((rowsDims K B N wf).window (ix2 i c') 1 : Int)
      = (c'.val : Int) := by
    rw [rowsDims_start1, rowsDims_window1]; exact Int.zero_add _
  unfold ScatterDims.resultIdx?
  split_ifs with h
  · rw [Option.some.injEq]
    constructor
    · intro e
      have e0 := congrArg (fun f => (f 0).val) e
      have e1 := congrArg (fun f => (f 1).val) e
      change ((rowsDims K B N wf).start (ix2 i c') idx 0
        + ((rowsDims K B N wf).window (ix2 i c') 0 : Int)).toNat = b.val at e0
      change ((rowsDims K B N wf).start (ix2 i c') idx 1
        + ((rowsDims K B N wf).window (ix2 i c') 1 : Int)).toNat = c.val at e1
      have h0 := (h 0).1
      rw [p0] at e0 h0
      rw [p1] at e1
      exact ⟨by omega, Fin.ext (by omega)⟩
    · rintro ⟨e, rfl⟩
      refine idx2_ext (Fin.ext ?_) (Fin.ext ?_)
      · change ((rowsDims K B N wf).start (ix2 i c') idx 0
          + ((rowsDims K B N wf).window (ix2 i c') 0 : Int)).toNat = b.val
        rw [p0]; omega
      · change ((rowsDims K B N wf).start (ix2 i c') idx 1
          + ((rowsDims K B N wf).window (ix2 i c') 1 : Int)).toNat = c'.val
        rw [p1]; omega
  · constructor
    · intro e; exact absurd e (by simp)
    · rintro ⟨e, rfl⟩
      exfalso
      apply h
      refine forall_axis2 ?_ ?_
      · rw [p0]
        change 0 ≤ (idx (ix2 i (0 : Fin 1))).toInt ∧ (idx (ix2 i (0 : Fin 1))).toInt < (K : Int)
        omega
      · rw [p1]
        change 0 ≤ (c'.val : Int) ∧ (c'.val : Int) < (B : Int)
        omega

/-- THE SUM OF ROWS AT `(b, c)`: the operand's element plus the sum, over the updates whose index word is `b`, of the
    update's element `(i, c)`. -/
theorem scatterAdd_rows_apply {K B N w : Nat}
    (wf : ScatterDims.WF ⟨2, ![K, B]⟩ ⟨2, ![N, 1]⟩ ⟨2, ![N, B]⟩ [1] [0] [0] 1)
    (x : (⟨2, ![K, B]⟩ : Shape).Idx → EReal) (idx : IVec ⟨2, ![N, 1]⟩ w)
    (upd : (⟨2, ![N, B]⟩ : Shape).Idx → EReal) (b : Fin K) (c : Fin B) :
    Ideal.hostScatterAdd (rowsDims K B N wf) x idx upd (ix2 b c)
      = x (ix2 b c) + ∑ i : Fin N, if (idx (ix2 i (0 : Fin 1))).toInt = (b.val : Int) then upd (ix2 i c) else 0 := by
  unfold Ideal.hostScatterAdd
  refine congrArg (x (ix2 b c) + ·) ?_
  rw [Finset.sum_filter, sum_idx2]
  refine Finset.sum_congr rfl fun i _ => ?_
  have hc : ∀ c' : Fin B, c' ≠ c →
      (if (rowsDims K B N wf).resultIdx? (ix2 i c') idx = some (ix2 b c)
        then upd (ix2 i c') else 0) = 0 := fun c' hc' =>
    if_neg fun h => hc' ((rowsDims_resultIdx?_eq_some_iff wf idx i c' b c).mp h).2
  rw [Fintype.sum_eq_single c hc]
  exact if_congr ((rowsDims_resultIdx?_eq_some_iff wf idx i c b c).trans
    ⟨fun h => h.1, fun h => ⟨h, rfl⟩⟩) rfl rfl

end Idealize.ShloMosaic.ScatterAddRows

end
-- ==== Proof.RegPool.lean ====
/-
  The pooling region: the 64 x 128 output block stays resident over the 20 grid points; point 0 zeroes it and every point adds, for
  its 5000 rows, the indicator matrix [graph g = batch r] transposed times the rows. After the last point entry (g, d) is the sum of
  h (r, d) over the rows r whose graph index is g: the reference's scatter-add.

  The steps. Each case of the body leaves one function of the blocks it reads: the first point the step applied to the zero
  block, a later point the step applied to the block found there. The step at entry (g, d) adds the sum, over the point's 5000
  rows r, of h (r, d) where row r's graph word equals the word of g — the indicator entry is 1 there and 0 elsewhere, and on the
  extended reals 1 * x = x and 0 * x = 0 with no condition on x. The words of the graph numbers 0 … 63 are their own signed
  readings, so equality of words with the word of g is equality of the signed reading with g; a graph word that is negative or at
  least 64 matches no g, and the reference's scatter-add drops exactly those rows. Row r of point t's block is row 5000 t + r of
  the table, so after point n the entry is the sum over the first 5000 (n + 1) rows, by induction on n; at n = 19 that is the sum
  over all 100000 rows, which is the scatter-add from the zero table read at (g, d). The output's one block is the whole array
  and is written back after the last point only, so the array ends holding that block.
-/
import proofs.«415105_j87316685128359_1_alg».proof.Proof.Gen.KernelIdeal.Frame
import proofs.«415105_j87316685128359_1_alg».proof.Proof.Spec
import proofs.«415105_j87316685128359_1_alg».proof.Proof.LibScatterAddRows
import Idealize.ShloMosaic.PureOps.Ideal
import Idealize.ShloMosaic.PureOps.Ideal.Laws
import Idealize.ShloMosaic.Lib.Pipeline.Value
import Idealize.ShloMosaic.Lib.ValueIdx
import Idealize.ShloMosaic.Lib.Tactic

noncomputable section

open scoped BigOperators

namespace Cert.KernelIdeal.RegVal

open Idealize.ShloMosaic Idealize.ShloMosaic.TcCoe Idealize.SL.Sem Idealize.ShloMosaic.StableHlo Cert.KernelIdeal Cert.KernelIdeal.Gen
open Idealize.ShloMosaic.Pipeline (Dat)
open Idealize.ShloMosaic.ValueIdx

namespace Pool

/-! ## What each case of the body leaves in the resident block -/

section Pieces
variable {F : FTy → Type} [FloatOps F]

theorem hz : (![0, 0] : Fin 2 → Nat) = fun _ => 0 := funext fun a => by fin_cases a <;> rfl

/-- A later point: the block `xo` found there, plus the indicator product of this point's rows. -/
theorem pool_later (c : Dev nD) (i : grid6.Coords) (a1 : Memref sig .tc .vmem S5000x128 .f32) (h1 : a1.IsWhole)
    (a2 : Memref sig .tc .vmem S5000x1 .i32) (h2 : a2.IsWhole) (a3 : Memref sig .tc .vmem S64x128 .f32) (h3 : a3.IsWhole)
    (hc : ¬cond6_0 i) (x0 : Vec F S5000x128 .f32) (x1 : Vec F S5000x1 .i32) (xo : Vec F S64x128 .f32) :
    out6_B_2 c i a1 h1 a2 h2 a3 h3 hc x0 x1 xo = k6_pay2 x1 x0 xo := by
  unfold out6_B_2
  rw [View.read_writes_eq_canon _ _ _ (cover6_B_2 c i a1 h1 a2 h2 a3 h3 hc x0 x1 xo)]
  unfold kernelRun6_B
  dsimp only
  sl_unfold_words
  rw [View.canon_unit_zero hz]
  simp only [View.readAt_eq_ld, h1.read_unread, h2.read_unread, h3.read_unread, View.ld_unit_zero (S := S5000x128) hz,
    View.ld_unit_zero (S := S5000x1) hz, View.ld_unit_zero (S := S64x128) hz]

/-- The first point: the block is zeroed, read back, and the indicator product of the first rows added. -/
theorem pool_first (c : Dev nD) (i : grid6.Coords) (a1 : Memref sig .tc .vmem S5000x128 .f32) (h1 : a1.IsWhole)
    (a2 : Memref sig .tc .vmem S5000x1 .i32) (h2 : a2.IsWhole) (a3 : Memref sig .tc .vmem S64x128 .f32) (h3 : a3.IsWhole)
    (hc : cond6_0 i) (x0 : Vec F S5000x128 .f32) (x1 : Vec F S5000x1 .i32) :
    out6_A_2 c i a1 h1 a2 h2 a3 h3 hc x0 x1 = k6_pay2 x1 x0 (k6_pay1 (F := F)) := by
  unfold out6_A_2
  rw [View.read_writes_eq_canon _ _ _ (cover6_A_2 c i a1 h1 a2 h2 a3 h3 hc x0 x1)]
  unfold kernelRun6_A
  dsimp only
  sl_unfold_words
  rw [View.canon_cons_unit_zero (S := S64x128) hz, View.readCov_unit_zero (S := S64x128) _ hz]
  simp only [View.readAt_eq_ld, h1.read_unread, h2.read_unread, View.ld_unit_zero (S := S5000x128) hz,
    View.ld_unit_zero (S := S5000x1) hz]

end Pieces

/-! ## The body's arithmetic at an entry -/

/-- A 32-bit word equals the word of a graph number below 64 exactly when, read as a signed integer, it is that number. -/
theorem word_eq_graph_iff (w : BitVec 32) (g : Fin 64) : BitVec.ofNat 32 g.val = w ↔ w.toInt = (g.val : Int) := by
  have hg := g.isLt
  have e := BitVec.toInt_eq_toNat_cond w
  have hw := w.isLt
  constructor
  · rintro rfl
    rw [BitVec.toNat_ofNat] at e
    omega
  · intro h
    apply BitVec.eq_of_toNat_eq
    rw [BitVec.toNat_ofNat]
    omega

/-- The indicator entry: the comparison's bit, widened and converted, is 1 where the words agree and 0 elsewhere. -/
theorem indicator_word (x y : BitVec 32) (h : 1 < 32) :
    (FloatOps.sitofp (F := Ideal) .f32 ((IntOp.cmpi .eq x y).setWidth 32) : EReal) = if x = y then 1 else 0 := by
  show ((((IntOp.cmpi .eq x y).setWidth 32).toInt : ℝ) : EReal) = _
  by_cases hxy : x = y
  · subst hxy
    rw [if_pos rfl]
    simp [IntOp.cmpi]
  · rw [if_neg hxy]
    have hb : (x == y) = false := beq_false_of_ne hxy
    simp [IntOp.cmpi, hb]

theorem poolDot_lhs0 (j : S64x128.Idx) (k : dot_S5000x64_S5000x128_S64x128_0_0_1_1_n_n.contr.Idx) :
    (dot_S5000x64_S5000x128_S64x128_0_0_1_1_n_n.lhsIdx j k 0 : ℕ) = k ⟨0, by decide⟩ := by
  simp [DotDims.lhsIdx, dot_S5000x64_S5000x128_S64x128_0_0_1_1_n_n]; rfl
theorem poolDot_lhs1 (j : S64x128.Idx) (k : dot_S5000x64_S5000x128_S64x128_0_0_1_1_n_n.contr.Idx) :
    (dot_S5000x64_S5000x128_S64x128_0_0_1_1_n_n.lhsIdx j k 1 : ℕ) = j 0 := by
  simp [DotDims.lhsIdx, dot_S5000x64_S5000x128_S64x128_0_0_1_1_n_n]; rfl
theorem poolDot_rhs0 (j : S64x128.Idx) (k : dot_S5000x64_S5000x128_S64x128_0_0_1_1_n_n.contr.Idx) :
    (dot_S5000x64_S5000x128_S64x128_0_0_1_1_n_n.rhsIdx j k 0 : ℕ) = k ⟨0, by decide⟩ := by
  simp [DotDims.rhsIdx, dot_S5000x64_S5000x128_S64x128_0_0_1_1_n_n]; rfl
theorem poolDot_rhs1 (j : S64x128.Idx) (k : dot_S5000x64_S5000x128_S64x128_0_0_1_1_n_n.contr.Idx) :
    (dot_S5000x64_S5000x128_S64x128_0_0_1_1_n_n.rhsIdx j k 1 : ℕ) = j 1 := by
  simp [DotDims.rhsIdx, dot_S5000x64_S5000x128_S64x128_0_0_1_1_n_n]; rfl

/-- The product that contracts the ROWS of both operands, into the zero block: entry (g, d) is the sum over the rows
    of the left operand's (r, g) times the right operand's (r, d). -/
theorem rows_product_apply (A : FVec Ideal S5000x64 .bf16) (B : FVec Ideal S5000x128 .bf16) (g : Fin 64) (d : Fin 128) :
    FloatOps.matmul dot_S5000x64_S5000x128_S64x128_0_0_1_1_n_n none A B (constant (F := Ideal) S64x128 .f32 0x00000000#32) (ix2 g d)
      = ∑ r : Fin 5000, A (ix2 r g) * B (ix2 r d) := by
  rw [Ideal.matmul_constant_zero_apply,
    ← Equiv.sum_comp (contrEquiv1 dot_S5000x64_S5000x128_S64x128_0_0_1_1_n_n 5000 rfl rfl).symm]
  refine Finset.sum_congr rfl fun r _ => ?_
  have c2 := contrEquiv1_symm_val dot_S5000x64_S5000x128_S64x128_0_0_1_1_n_n 5000 rfl rfl r
  have l2 : dot_S5000x64_S5000x128_S64x128_0_0_1_1_n_n.lhsIdx (ix2 g d)
      ((contrEquiv1 dot_S5000x64_S5000x128_S64x128_0_0_1_1_n_n 5000 rfl rfl).symm r) = ix2 r g := by
    funext ax; apply Fin.ext
    match ax with
    | ⟨0, _⟩ => exact (poolDot_lhs0 _ _).trans c2
    | ⟨1, _⟩ => exact poolDot_lhs1 _ _
  have r2 : dot_S5000x64_S5000x128_S64x128_0_0_1_1_n_n.rhsIdx (ix2 g d)
      ((contrEquiv1 dot_S5000x64_S5000x128_S64x128_0_0_1_1_n_n 5000 rfl rfl).symm r) = ix2 r d := by
    funext ax; apply Fin.ext
    match ax with
    | ⟨0, _⟩ => exact (poolDot_rhs0 _ _).trans c2
    | ⟨1, _⟩ => exact poolDot_rhs1 _ _
  rw [l2, r2]

/-- The indicator matrix at (r, g): 1 where row r's graph word, read signed, is g, else 0. -/
theorem indicator_apply (b : IVec S5000x1 32) (r : Fin 5000) (g : Fin 64) :
    (sitofp (F := Ideal) .f32 (extui 32 (cmpi .eq (iota .tc S5000x64 32 [1] iota_S5000x64_d1_w32)
        (broadcastTo S5000x64 b broadcasts_S5000x1_S5000x64)) natLt_1_32) : FVec Ideal S5000x64 .f32) (ix2 r g)
      = if (b (ix2 r (0 : Fin 1))).toInt = (g.val : Int) then 1 else 0 := by
  show (FloatOps.sitofp (F := Ideal) .f32 ((IntOp.cmpi .eq (iota .tc S5000x64 32 [1] iota_S5000x64_d1_w32 (ix2 r g))
    (broadcastTo S5000x64 b broadcasts_S5000x1_S5000x64 (ix2 r g))).setWidth 32) : EReal) = _
  rw [indicator_word _ _ (by decide), iota_single_apply,
    broadcastTo_apply b broadcasts_S5000x1_S5000x64 (ix2 r g) (ix2 r (0 : Fin 1))
      (fun a => by match a with | ⟨0, _⟩ => rfl | ⟨1, _⟩ => rfl)]
  exact if_congr (word_eq_graph_iff _ g) rfl rfl

/-- THE STEP at an entry: what a point adds to entry (g, d) of the block it finds is the sum of its rows (r, d) over
    the rows r whose graph word, read signed, is g. -/
theorem pool_step_apply (b : Vec Ideal S5000x1 .i32) (h : Vec Ideal S5000x128 .f32) (acc : Vec Ideal S64x128 .f32)
    (g : Fin 64) (d : Fin 128) :
    k6_pay2 (F := Ideal) b h acc (ix2 g d)
      = acc (ix2 g d) + ∑ r : Fin 5000, if (b (ix2 r (0 : Fin 1))).toInt = (g.val : Int) then h (ix2 r d) else 0 := by
  unfold k6_pay2
  dsimp only
  simp only [shapeCast_self]
  refine congrArg (acc (ix2 g d) + ·) ?_
  refine (rows_product_apply _ _ g d).trans ?_
  refine Finset.sum_congr rfl fun r _ => ?_
  refine (congrArg (· * h (ix2 r d)) (indicator_apply b r g)).trans ?_
  by_cases hw : (b (ix2 r (0 : Fin 1))).toInt = (g.val : Int)
  · rw [if_pos hw, if_pos hw, one_mul]
  · rw [if_neg hw, if_neg hw, zero_mul]

/-! ## The blocks and the arrays, at their literal types -/

section Region
-- the TensorCore's buffer contents when the region is entered
variable (V : (c : Dev nD) → (b : Ref sig .tc) → Buf (Elt Ideal) ((c : Thread nD τ).loc b))

/-- The rows of h and the column of graph words as the region finds them, and the blocks of 5000 rows point t reads. -/
abbrev rowsArr (c : Dev nD) : Vec Ideal S100000x128 .f32 := V c main_v103
abbrev graphArr (c : Dev nD) : IVec S100000x1 32 := V c main_v104
abbrev rowsBlk (c : Dev nD) (t : Fin cfg6.N) : Vec Ideal S5000x128 .f32 := iblk6 V c 0 t
abbrev graphBlk (c : Dev nD) (t : Fin cfg6.N) : IVec S5000x1 32 := iblk6 V c 1 t

/-- The index maps over the grid: the two inputs' block number along the rows is the point's number, the output's
    block never moves. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, _)

/-- Row r of point t's block of h is row 5000 t + r of h. -/
theorem rowsBlk_apply (c : Dev nD) (t : Fin cfg6.N) (r : Fin 5000) (d : Fin 128) (hr : 5000 * t.val + r.val < 100000) :
    rowsBlk V c t (ix2 r d) = rowsArr V c (ix2 ⟨5000 * t.val + r.val, hr⟩ d) := by
  obtain ⟨e0, e1, -⟩ := idx_facts t
  show V c main_v103 (((cfg6.win 0).blk t).view.emb (ix2 r d)) = V c main_v103 _
  refine congrArg (V c main_v103) ?_
  funext a; apply Fin.ext
  match a with
  | ⟨0, _⟩ => show win6_0.index t (0 : Fin 2) * 5000 + 1 * r.val = 5000 * t.val + r.val; omega
  | ⟨1, _⟩ => show win6_0.index t (1 : Fin 2) * 128 + 1 * d.val = d.val; omega

/-- Row r of point t's block of graph words is row 5000 t + r of the column. -/
theorem graphBlk_apply (c : Dev nD) (t : Fin cfg6.N) (r : Fin 5000) (hr : 5000 * t.val + r.val < 100000) :
    graphBlk V c t (ix2 r (0 : Fin 1)) = graphArr V c (ix2 ⟨5000 * t.val + r.val, hr⟩ (0 : Fin 1)) := by
  obtain ⟨-, -, e2, e3, -⟩ := idx_facts t
  show V c main_v104 (((cfg6.win 1).blk t).view.emb (ix2 r (0 : Fin 1))) = V c main_v104 _
  refine congrArg (V c main_v104) ?_
  funext a; apply Fin.ext
  match a with
  | ⟨0, _⟩ => show win6_1.index t (0 : Fin 2) * 5000 + 1 * r.val = 5000 * t.val + r.val; omega
  | ⟨1, _⟩ => show win6_1.index t (1 : Fin 2) * 1 + 1 * 0 = 0; omega

/-! ## The running sums -/

/-- What row i of the table adds to entry (g, d): its element (i, d) if its graph word, read signed, is g. Zero past
    the table, so that sums over ranges of naturals split without bounds. -/
def addend (hh : Vec Ideal S100000x128 .f32) (bb : IVec S100000x1 32) (g : Fin 64) (d : Fin 128) (i : ℕ) : EReal :=
  if hi : i < 100000 then (if (bb (ix2 ⟨i, hi⟩ (0 : Fin 1))).toInt = (g.val : Int) then hh (ix2 ⟨i, hi⟩ d) else 0) else 0

/-- Point t's 5000 rows, as rows 5000 t … 5000 t + 4999 of the table. -/
theorem block_sum (c : Dev nD) (t : Fin cfg6.N) (g : Fin 64) (d : Fin 128) :
    (∑ r : Fin 5000, if (graphBlk V c t (ix2 r (0 : Fin 1))).toInt = (g.val : Int) then rowsBlk V c t (ix2 r d) else 0)
      = ∑ s ∈ Finset.range 5000, addend (rowsArr V c) (graphArr V c) g d (5000 * t.val + s) := by
  have hN : t.val < 20 := lt_of_lt_of_eq t.isLt (show cfg6.N = 20 from N_6)
  rw [Finset.sum_range]
  refine Finset.sum_congr rfl fun r _ => ?_
  have hr : 5000 * t.val + r.val < 100000 := by have := r.isLt; omega
  unfold addend
  rw [dif_pos hr, rowsBlk_apply V c t r d hr, graphBlk_apply V c t r hr]

/-- THE INVARIANT: after point n entry (g, d) of the resident block is the sum over the first 5000 (n + 1) rows of the
    table of the rows of graph g — by induction on the point. -/
theorem pool_partial (c : Dev nD) : ∀ (n : ℕ) (hn : n < cfg6.N) (g : Fin 64) (d : Fin 128),
    outsAt6 V c n hn (ix2 g d) = ∑ i ∈ Finset.range (5000 * (n + 1)), addend (rowsArr V c) (graphArr V c) g d i
  | 0, hn, g, d => by
    rw [outsAt6_A V c ⟨0, hn⟩ rfl]
    refine (congrFun (pool_first (F := Ideal) c (grid6.coords ⟨0, hn⟩) (ms6_0 ⟨0, hn⟩) (hs6_0 ⟨0, hn⟩) (ms6_1 ⟨0, hn⟩)
      (hs6_1 ⟨0, hn⟩) (ms6_2 ⟨0, hn⟩) (hs6_2 ⟨0, hn⟩) ((hcond6_0 ⟨0, hn⟩).mpr rfl) (iblk6 V c 0 ⟨0, hn⟩)
      (iblk6 V c 1 ⟨0, hn⟩)) (ix2 g d)).trans ?_
    refine (pool_step_apply (graphBlk V c ⟨0, hn⟩) (rowsBlk V c ⟨0, hn⟩) (k6_pay1 (F := Ideal)) g d).trans ?_
    rw [block_sum V c ⟨0, hn⟩ g d]
    show Ideal.ofBits .f32 0x00000000#32 + _ = _
    rw [Ideal.ofBits_zero_f32, zero_add]
    refine Finset.sum_congr rfl fun s _ => ?_
    show addend _ _ g d (5000 * 0 + s) = _
    rw [Nat.mul_zero, Nat.zero_add]
  | n + 1, hn, g, d => by
    have hN : cfg6.N = 20 := N_6
    have hB : ¬(⟨n + 1, hn⟩ : Fin cfg6.N).val % 20 = 0 := by dsimp only; omega
    rw [outsAt6_B V c ⟨n + 1, hn⟩ hB]
    refine (congrFun (pool_later (F := Ideal) c (grid6.coords ⟨n + 1, hn⟩) (ms6_0 ⟨n + 1, hn⟩) (hs6_0 ⟨n + 1, hn⟩)
      (ms6_1 ⟨n + 1, hn⟩) (hs6_1 ⟨n + 1, hn⟩) (ms6_2 ⟨n + 1, hn⟩) (hs6_2 ⟨n + 1, hn⟩)
      (fun h => hB ((hcond6_0 ⟨n + 1, hn⟩).mp h)) (iblk6 V c 0 ⟨n + 1, hn⟩) (iblk6 V c 1 ⟨n + 1, hn⟩)
      (outsAt6 V c n (Nat.lt_of_succ_lt hn))) (ix2 g d)).trans ?_
    refine (pool_step_apply (graphBlk V c ⟨n + 1, hn⟩) (rowsBlk V c ⟨n + 1, hn⟩)
      (outsAt6 V c n (Nat.lt_of_succ_lt hn)) g d).trans ?_
    rw [pool_partial c n (Nat.lt_of_succ_lt hn) g d, block_sum V c ⟨n + 1, hn⟩ g d,
      show 5000 * (n + 1 + 1) = 5000 * (n + 1) + 5000 from Nat.mul_succ 5000 (n + 1), Finset.sum_range_add]

end Region

/-! ## The reference's scatter-add at an entry -/

/-- Entry (g, d) of the sum of the rows of each graph, from the zero table: the sum over all rows of the table of the
    rows whose graph word, read signed, is g. -/
theorem poolOps_apply (hh : Vec Ideal S100000x128 .f32) (bb : IVec S100000x1 32) (g : Fin 64) (d : Fin 128) :
    Cert.Spec.poolOps (F := Ideal) hh bb (ix2 g d)
      = ∑ i : Fin 100000, if (bb (ix2 i (0 : Fin 1))).toInt = (g.val : Int) then hh (ix2 i d) else 0 := by
  unfold Cert.Spec.poolOps
  refine (ScatterAddRows.scatterAdd_rows_apply (K := 64) (B := 128) (N := 100000)
    Cert.ReferenceIdeal.scatter_S64x128_S100000x1_S100000x128_1_0_0_1.wf _ bb hh g d).trans ?_
  show Ideal.ofBits .f32 0x00000000#32 + _ = _
  rw [Ideal.ofBits_zero_f32, zero_add]

section Block

/-- The output window's one block is the whole 64 x 128 array at every point: a block that agrees with a table entry by
    entry is that table read through the window. -/
theorem whole_block_read (t : Fin cfg6.N) (X G : Vec Ideal S64x128 .f32)
    (h : ∀ (g : Fin 64) (d : Fin 128), X (ix2 g d) = G (ix2 g d)) :
    (cfg6.win 2).cut (grid6.coords t) X = ((cfg6.win 2).blk t).view.read (Elt Ideal) G := by
  obtain rfl : X = G := funext fun j => by rw [eq_ix2 j]; exact h _ _
  obtain ⟨-, -, -, -, e4, e5⟩ := idx_facts t
  have hz' : (fun a => win6_2.index t a * main_v105.ty.shape.size a) = fun _ => 0 := funext fun a => by
    match a with
    | ⟨0, _⟩ => show win6_2.index t (0 : Fin 2) * 64 = 0; omega
    | ⟨1, _⟩ => show win6_2.index t (1 : Fin 2) * 128 = 0; omega
  exact (Memref.read_access_unit_zero (Elt Ideal) main_v105 hz' (fun a => by rw [congrFun hz' a]; simp) X).symm

end Block

end Pool

open Pool

section Result
-- the TensorCore's buffer contents when the region is entered
variable (V : (c : Dev nD) → (b : Ref sig .tc) → Buf (Elt Ideal) ((c : Thread nD τ).loc b))

theorem pool6 (c : Dev nD) :
    (dat6 (F := Ideal) V c).arrAt 2 cfg6.N = Cert.Spec.poolOps (F := Ideal) (V c main_v103) (V c main_v104) := by
  have hN : cfg6.N = 20 := N_6
  refine (dat6 (F := Ideal) V c).arrAt_eq_of_cover 2 _ (fun t hf => ?_) (fun i => ?_)
  · -- the one write-back, at the last point, writes the sums over all 100000 rows
    have h19 : t.val = 19 := by have := (flush6_2 t).mp hf; have := t.isLt; omega
    show (cfg6.win 2).cut (grid6.coords t) ((dat6 V c).after 2 t) = _
    rw [after6_2]
    refine whole_block_read t _ _ fun g d => ?_
    rw [pool_partial V c t.val t.isLt g d, poolOps_apply, show 5000 * (t.val + 1) = 100000 by omega, Finset.sum_range]
    refine Finset.sum_congr rfl fun i _ => ?_
    unfold addend
    rw [dif_pos i.isLt]
  · -- and the last point's block covers the array
    have hL : 19 < cfg6.N := lt_of_lt_of_eq (by decide : 19 < 20) hN.symm
    refine ⟨⟨19, hL⟩, (flush6_2 ⟨19, hL⟩).mpr rfl, ?_⟩
    obtain ⟨-, -, -, -, e4, e5⟩ := idx_facts ⟨19, hL⟩
    show i ∈ ((View.whole main_v105).slice (win6_2.rect ⟨19, hL⟩)).set
    rw [View.set_slice_whole, Rect.mem_set_unit]
    intro a
    have h0 : (i 0 : Nat) < 64 := (i 0).isLt
    have h1 : (i 1 : Nat) < 128 := (i 1).isLt
    match a with
    | ⟨0, _⟩ =>
      show win6_2.index ⟨19, hL⟩ (0 : Fin 2) * 64 ≤ (i 0 : Nat) ∧ (i 0 : Nat) < win6_2.index ⟨19, hL⟩ (0 : Fin 2) * 64 + 64
      omega
    | ⟨1, _⟩ =>
      show win6_2.index ⟨19, hL⟩ (1 : Fin 2) * 128 ≤ (i 1 : Nat) ∧ (i 1 : Nat) < win6_2.index ⟨19, hL⟩ (1 : Fin 2) * 128 + 128
      omega

end Result

end Cert.KernelIdeal.RegVal

end
-- ==== Proof.RegMlp.lean ====
/-
  The head: one grid point computes the three affine maps and the log-softmax on whole blocks, so the two output arrays are those
  functions of the input arrays.
-/
import proofs.«415105_j87316685128359_1_alg».proof.Proof.Gen.KernelIdeal.Frame
import proofs.«415105_j87316685128359_1_alg».proof.Proof.Spec
import proofs.«415105_j87316685128359_1_alg».proof.Proof.LibPlainDot
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RegVal

open Idealize.ShloMosaic Idealize.ShloMosaic.TcCoe Idealize.SL.Sem Idealize.ShloMosaic.StableHlo Cert.KernelIdeal Cert.KernelIdeal.Gen
open Idealize.ShloMosaic.Pipeline (Dat)

namespace Mlp

open Idealize.ShloMosaic.ValueIdx

/-! ## One affine layer -/

section Layer
variable {M K N : Nat}

/-- A one-row table spread over the rows of an M × N table, in the reference's spelling, reads at (p, q) the row's entry q. -/
theorem rowSpread_apply (b : (⟨2, ![1, N]⟩ : Shape).Idx → EReal)
    (h : (⟨2, ![1, N]⟩ : Shape).BroadcastsInDim ⟨2, ![M, N]⟩ ![0, 1]) (p : Fin M) (q : Fin N) :
    broadcastInDim ⟨2, ![M, N]⟩ ![0, 1] h b (ix2 p q) = b (ix2 (0 : Fin 1) q) := by
  refine broadcastInDim_apply _ h b (ix2 p q) (ix2 (0 : Fin 1) q) fun ax => ?_
  match ax with
  | ⟨0, _⟩ => rfl
  | ⟨1, _⟩ =>
    show q.val = if N = 1 then 0 else q.val
    split
    · have := q.isLt; omega
    · rfl

/-- x W + b in the kernel's spelling (a product into the zero accumulator, the operands passed through a change of
    float format, which is the identity on exact values) is x W + b in the reference's: both are, at (p, q),
    the sum over k of x (p, k) · W (k, q), plus b (0, q). -/
theorem affine_eq (dk dr : DotDims ⟨2, ![M, K]⟩ ⟨2, ![K, N]⟩ ⟨2, ![M, N]⟩)
    (klc : dk.lhsContracting = [1]) (krc : dk.rhsContracting = [0]) (kln : dk.lhsNonContracting = [0])
    (krn : dk.rhsNonContracting = [1]) (klb : dk.lhsBatch = []) (krb : dk.rhsBatch = [])
    (rlc : dr.lhsContracting = [1]) (rrc : dr.rhsContracting = [0]) (rln : dr.lhsNonContracting = [0])
    (rrn : dr.rhsNonContracting = [1]) (rlb : dr.lhsBatch = []) (rrb : dr.rhsBatch = [])
    (x : FVec Ideal ⟨2, ![M, K]⟩ .f32) (w : FVec Ideal ⟨2, ![K, N]⟩ .f32) (b : FVec Ideal ⟨2, ![1, N]⟩ .f32)
    (t : FTy.bits .bf16 < FTy.bits .f32)
    (hb : (⟨2, ![1, N]⟩ : Shape).Broadcasts ⟨2, ![M, N]⟩)
    (hbi : (⟨2, ![1, N]⟩ : Shape).BroadcastsInDim ⟨2, ![M, N]⟩ ![0, 1]) :
    addf (matmul dk none (truncf .bf16 x t) (truncf .bf16 w t) (constant (F := Ideal) ⟨2, ![M, N]⟩ .f32 0x00000000#32))
        (broadcastTo ⟨2, ![M, N]⟩ b hb)
      = addf (Host.dotGeneral (F := Ideal) dr none x w) (broadcastInDim ⟨2, ![M, N]⟩ ![0, 1] hbi b) := by
  funext j
  obtain ⟨p, q, rfl⟩ : ∃ (p : Fin M) (q : Fin N), j = ix2 p q := ⟨j 0, j 1, eq_ix2 j⟩
  rw [addf_apply, addf_apply, broadcastTo_1b_ab_apply, rowSpread_apply]
  congr 1
  exact (Cert.LibPlainDot.matmul_zero_apply dk klc krc kln krn klb krb none (truncf .bf16 x t) (truncf .bf16 w t) p q).trans
    (Cert.LibPlainDot.dotGeneral_apply dr rlc rrc rln rrn rlb rrb none .single x w p q).symm

end Layer

/-! ## The logits block -/

/-- The three layers of the body are the three layers of the reference, layer by layer. -/
theorem pay_logits (x0 : FVec Ideal S64x128 .f32) (x1 : FVec Ideal S128x256 .f32) (x2 : FVec Ideal S1x256 .f32)
    (x3 : FVec Ideal S256x128 .f32) (x4 : FVec Ideal S1x128 .f32) (x5 : FVec Ideal S128x8 .f32) (x6 : FVec Ideal S1x8 .f32) :
    k7_pay2 (F := Ideal) x0 x1 x2 x3 x4 x5 x6 = Cert.Spec.logitsOps (F := Ideal) x0 x1 x2 x3 x4 x5 x6 := by
  unfold k7_pay2 Cert.Spec.logitsOps
  dsimp only
  simp only [shapeCast_self]
  rw [affine_eq dot_S64x128_S128x256_S64x256_1_0_0_1_n_n Cert.ReferenceIdeal.dot_S64x128_S128x256_S64x256_1_0_0_1_n_n
      rfl rfl rfl rfl rfl rfl rfl rfl rfl rfl rfl rfl x0 x1 x2 bitsLt_bf16_f32 broadcasts_S1x256_S64x256
      Cert.ReferenceIdeal.Facts₀.bcast_S1x256_S64x256_0_1,
    affine_eq dot_S64x256_S256x128_S64x128_1_0_0_1_n_n Cert.ReferenceIdeal.dot_S64x256_S256x128_S64x128_1_0_0_1_n_n
      rfl rfl rfl rfl rfl rfl rfl rfl rfl rfl rfl rfl _ x3 x4 bitsLt_bf16_f32 broadcasts_S1x128_S64x128
      Cert.ReferenceIdeal.Facts₀.bcast_S1x128_S64x128_0_1,
    affine_eq dot_S64x128_S128x8_S64x8_1_0_0_1_n_n Cert.ReferenceIdeal.dot_S64x128_S128x8_S64x8_1_0_0_1_n_n
      rfl rfl rfl rfl rfl rfl rfl rfl rfl rfl rfl rfl _ x5 x6 bitsLt_bf16_f32 broadcasts_S1x8_S64x8
      Cert.ReferenceIdeal.Facts₀.bcast_S1x8_S64x8_0_1]

/-! ## The log-softmax block -/

section Columns
variable {A B : Nat}

/-- A vector cast to a column reads at (p, u) the vector's entry p. -/
theorem colCast_apply (m : (⟨1, ![A]⟩ : Shape).Idx → EReal) (h : (⟨1, ![A]⟩ : Shape).ShapeCasts ⟨2, ![A, 1]⟩)
    (p : Fin A) (u : Fin 1) : shapeCast ⟨2, ![A, 1]⟩ m h (ix2 p u) = m (ix1 p) :=
  shapeCast_apply m h _ _ (by
    have hu : u.val = 0 := by omega
    rw [Shape.rowMajor_val_two, Shape.rowMajor_val_one]
    show p.val = p.val * 1 + u.val
    rw [hu, Nat.mul_one, Nat.add_zero])

/-- The same column in the reference's spelling. -/
theorem colOf_apply (m : (⟨1, ![A]⟩ : Shape).Idx → EReal) (h : (⟨1, ![A]⟩ : Shape).BroadcastsInDim ⟨2, ![A, 1]⟩ ![0])
    (p : Fin A) (u : Fin 1) : broadcastInDim ⟨2, ![A, 1]⟩ ![0] h m (ix2 p u) = m (ix1 p) := by
  refine broadcastInDim_apply _ h m (ix2 p u) (ix1 p) fun ax => ?_
  match ax with
  | ⟨0, _⟩ =>
    show p.val = if A = 1 then 0 else p.val
    split
    · have := p.isLt; omega
    · rfl

/-- A column spread over the columns of an A × B table reads at (p, q) the column's entry p. -/
theorem colBcast_apply (v : (⟨2, ![A, 1]⟩ : Shape).Idx → EReal) (h : (⟨2, ![A, 1]⟩ : Shape).Broadcasts ⟨2, ![A, B]⟩)
    (p : Fin A) (q : Fin B) : broadcastTo ⟨2, ![A, B]⟩ v h (ix2 p q) = v (ix2 p (0 : Fin 1)) := by
  refine broadcastTo_apply v h (ix2 p q) (ix2 p (0 : Fin 1)) fun ax => ?_
  match ax with
  | ⟨0, _⟩ =>
    show p.val = if A = 1 then 0 else p.val
    split
    · have := p.isLt; omega
    · rfl
  | ⟨1, _⟩ => rfl

/-- The same spread in the reference's spelling. -/
theorem colSpread_apply (v : (⟨2, ![A, 1]⟩ : Shape).Idx → EReal)
    (h : (⟨2, ![A, 1]⟩ : Shape).BroadcastsInDim ⟨2, ![A, B]⟩ ![0, 1]) (p : Fin A) (q : Fin B) :
    broadcastInDim ⟨2, ![A, B]⟩ ![0, 1] h v (ix2 p q) = v (ix2 p (0 : Fin 1)) := by
  refine broadcastInDim_apply _ h v (ix2 p q) (ix2 p (0 : Fin 1)) fun ax => ?_
  match ax with
  | ⟨0, _⟩ =>
    show p.val = if A = 1 then 0 else p.val
    split
    · have := p.isLt; omega
    · rfl
  | ⟨1, _⟩ => rfl

end Columns

/-- A fold does not depend on how its operation is spelt. -/
theorem fold_congr_op {α β : Type} (op op' : β → β → β) [Std.Commutative op] [Std.Associative op] [Std.Commutative op']
    [Std.Associative op'] (h : op' = op) (b : β) (f : α → β) (s : Finset α) : s.fold op b f = s.fold op' b f := by
  subst h; rfl

section Rows
variable (hφ : FKind.Formats .f32)

/-- A row's maximum: the body's lane reduction and the reference's reduction are the same fold of max from -∞ over the row. -/
theorem rowMax_eq (l : FVec Ideal S64x8 .f32) (hmax : (0xFF800000#32 : BitVec 32) = FKind.maximumf.neutral .f32 hφ) :
    multiReduction .maximumf [1] S64 l 0xFF800000#32 reduces_S64x8_S64 hφ hmax
      = Host.reduce FloatOps.maximumf l (constant (F := Ideal) Cert.ReferenceIdeal.S_ .f32 0xFF800000#32)
          Cert.ReferenceIdeal.Facts₀.reducesTo_S64x8_S64_d1 Cert.ReferenceIdeal.Facts₀.h_S_ := by
  funext j
  refine (Ideal.multiReduction_maximumf_single l _ reduces_S64x8_S64 hφ hmax j).trans ?_
  rw [Host.reduce_eq_fold_single FloatOps.maximumf l _ Cert.ReferenceIdeal.Facts₀.reducesTo_S64x8_S64_d1 reduces_S64x8_S64
      Cert.ReferenceIdeal.Facts₀.h_S_ j]
  exact fold_congr_op max FloatOps.maximumf (funext fun x => funext fun y => Ideal.maximumf_def x y) _ _ _

/-- A row's sum: the body's lane reduction is the sum over the row, the reference's is zero plus that sum. -/
theorem rowSum_eq (e : FVec Ideal S64x8 .f32) (hadd : (0x00000000#32 : BitVec 32) = FKind.add.neutral .f32 hφ) :
    multiReduction .add [1] S64 e 0x00000000#32 reduces_S64x8_S64 hφ hadd
      = Host.reduceAdd (F := Ideal) e (constant (F := Ideal) Cert.ReferenceIdeal.S_ .f32 0x00000000#32)
          Cert.ReferenceIdeal.Facts₀.reducesTo_S64x8_S64_d1 Cert.ReferenceIdeal.Facts₀.h_S_ := by
  funext j
  refine (Ideal.multiReduction_add_single e _ reduces_S64x8_S64 hφ hadd j).trans ?_
  refine Eq.trans ?_ (Ideal.hostReduceAdd_single Cert.ReferenceIdeal.Facts₀.reducesTo_S64x8_S64_d1 reduces_S64x8_S64 e _ j).symm
  show _ = Ideal.ofBits .f32 0x00000000#32 + _
  rw [Ideal.ofBits_zero_f32, zero_add]

/-- The logits less their row's maximum, as the body computes it. -/
def shiftK (l : FVec Ideal S64x8 .f32) (hmax : (0xFF800000#32 : BitVec 32) = FKind.maximumf.neutral .f32 hφ) : FVec Ideal S64x8 .f32 :=
  subf l (broadcastTo S64x8 (shapeCast S64x1 (maximumf (broadcast S64 (FloatOps.ofBits (F := Ideal) .f32 0xFF800000#32))
    (multiReduction .maximumf [1] S64 l 0xFF800000#32 reduces_S64x8_S64 hφ hmax)) shapeCasts_S64_S64x1) broadcasts_S64x1_S64x8)

/-- The same as the reference computes it. -/
def shiftS (l : FVec Ideal S64x8 .f32) : FVec Ideal S64x8 .f32 :=
  subf l (broadcastInDim Cert.ReferenceIdeal.S64x8 ![0, 1] Cert.ReferenceIdeal.Facts₀.bcast_S64x1_S64x8_0_1
    (broadcastInDim Cert.ReferenceIdeal.S64x1 ![0] Cert.ReferenceIdeal.Facts₀.bcast_S64_S64x1_0
      (maximumf (broadcastInDim Cert.ReferenceIdeal.S64 ![] Cert.ReferenceIdeal.Facts₀.bcast_S_S64
          (constant (F := Ideal) Cert.ReferenceIdeal.S_ .f32 0xFF800000#32))
        (Host.reduce FloatOps.maximumf l (constant (F := Ideal) Cert.ReferenceIdeal.S_ .f32 0xFF800000#32)
          Cert.ReferenceIdeal.Facts₀.reducesTo_S64x8_S64_d1 Cert.ReferenceIdeal.Facts₀.h_S_))))

theorem shift_eq (l : FVec Ideal S64x8 .f32) (hmax : (0xFF800000#32 : BitVec 32) = FKind.maximumf.neutral .f32 hφ) :
    shiftK hφ l hmax = shiftS l := by
  unfold shiftK shiftS
  rw [rowMax_eq hφ l hmax]
  funext j
  obtain ⟨p, q, rfl⟩ : ∃ (p : Fin 64) (q : Fin 8), j = ix2 p q := ⟨j 0, j 1, eq_ix2 j⟩
  rw [subf_apply, subf_apply, colBcast_apply, colSpread_apply, colCast_apply, colOf_apply]
  rfl

theorem log_apply {s : Shape} (v : FVec Ideal s .f32) (i : s.Idx) : log v i = Ideal.log (v i) := rfl

theorem hostLog_apply {s : Shape} (v : FVec Ideal s .f32) (i : s.Idx) : Host.log v i = Ideal.log (v i) := rfl

/-- The logarithm of every row's sum of exponentials, spread over the row, as the body computes it. -/
def lseK (s : FVec Ideal S64x8 .f32) (hadd : (0x00000000#32 : BitVec 32) = FKind.add.neutral .f32 hφ) : FVec Ideal S64x8 .f32 :=
  broadcastTo S64x8 (log (shapeCast S64x1 (multiReduction .add [1] S64 (exp s) 0x00000000#32 reduces_S64x8_S64 hφ hadd)
    shapeCasts_S64_S64x1)) broadcasts_S64x1_S64x8

/-- The same as the reference computes it. -/
def lseS (s : FVec Ideal S64x8 .f32) : FVec Ideal S64x8 .f32 :=
  broadcastInDim Cert.ReferenceIdeal.S64x8 ![0, 1] Cert.ReferenceIdeal.Facts₀.bcast_S64x1_S64x8_0_1
    (Host.log (broadcastInDim Cert.ReferenceIdeal.S64x1 ![0] Cert.ReferenceIdeal.Facts₀.bcast_S64_S64x1_0
      (Host.reduceAdd (F := Ideal) (Host.exp s) (constant (F := Ideal) Cert.ReferenceIdeal.S_ .f32 0x00000000#32)
        Cert.ReferenceIdeal.Facts₀.reducesTo_S64x8_S64_d1 Cert.ReferenceIdeal.Facts₀.h_S_)))

theorem lse_eq (s : FVec Ideal S64x8 .f32) (hadd : (0x00000000#32 : BitVec 32) = FKind.add.neutral .f32 hφ) :
    lseK hφ s hadd = lseS s := by
  unfold lseK lseS
  rw [rowSum_eq hφ (exp s) hadd]
  funext j
  obtain ⟨p, q, rfl⟩ : ∃ (p : Fin 64) (q : Fin 8), j = ix2 p q := ⟨j 0, j 1, eq_ix2 j⟩
  rw [colBcast_apply, colSpread_apply]
  rw [log_apply, hostLog_apply, colCast_apply, colOf_apply]
  rfl

/-- Both spellings of: every row less its maximum, less the logarithm of the sum of the exponentials of that. -/
theorem lsm_eq (l : FVec Ideal S64x8 .f32) (hmax : (0xFF800000#32 : BitVec 32) = FKind.maximumf.neutral .f32 hφ)
    (hadd : (0x00000000#32 : BitVec 32) = FKind.add.neutral .f32 hφ) :
    subf (shiftK hφ l hmax) (lseK hφ (shiftK hφ l hmax) hadd) = Cert.Spec.lsmOps (F := Ideal) l := by
  rw [shift_eq, lse_eq]
  rfl

end Rows

/-- The second output's block is the log-softmax of the logits block. -/
theorem pay_probs (x0 : FVec Ideal S64x128 .f32) (x1 : FVec Ideal S128x256 .f32) (x2 : FVec Ideal S1x256 .f32)
    (x3 : FVec Ideal S256x128 .f32) (x4 : FVec Ideal S1x128 .f32) (x5 : FVec Ideal S128x8 .f32) (x6 : FVec Ideal S1x8 .f32) :
    k7_pay1 (F := Ideal) (k7_pay3 (F := Ideal) x0 x1 x2 x3 x4 x5 x6) (k7_pay4 (F := Ideal) x0 x1 x2 x3 x4 x5 x6)
      = Cert.Spec.lsmOps (F := Ideal) (Cert.Spec.logitsOps (F := Ideal) x0 x1 x2 x3 x4 x5 x6) := by
  unfold k7_pay1 k7_pay4 k7_pay3
  dsimp only
  rw [pay_logits]
  generalize Cert.Spec.logitsOps (F := Ideal) x0 x1 x2 x3 x4 x5 x6 = l
  exact lsm_eq _ l _ _

/-! ## One grid point: every block is its whole array -/

theorem hz : (![0, 0] : Fin 2 → Nat) = fun _ => 0 := funext fun a => by fin_cases a <;> rfl

/-- Every window's block index is (0, 0) at the one point of the grid. -/
theorem idx_zero : ∀ t : Fin cfg7.N, (∀ a : Fin 2, win7_0.index t a = 0) ∧ (∀ a : Fin 2, win7_1.index t a = 0)
    ∧ (∀ a : Fin 2, win7_2.index t a = 0) ∧ (∀ a : Fin 2, win7_3.index t a = 0) ∧ (∀ a : Fin 2, win7_4.index t a = 0)
    ∧ (∀ a : Fin 2, win7_5.index t a = 0) ∧ (∀ a : Fin 2, win7_6.index t a = 0) ∧ (∀ a : Fin 2, win7_7.index t a = 0)
    ∧ (∀ a : Fin 2, win7_8.index t a = 0) :=
  (by decide +kernel : ∀ t : Fin grid7.N, _)

variable (V : (c : Dev nD) → (b : Ref sig .tc) → Buf (Elt Ideal) ((c : Thread nD τ).loc b))

/-- The pooled rows' block is the whole array: block (0, 0) of an array of the block's own size. -/
theorem blk0 (c : Dev nD) (t : Fin cfg7.N) : iblk7 V c 0 t = V c main_v114 := by
  unfold iblk7
  have hz' : (fun a => win7_0.index t a * main_v114.ty.shape.size a) = fun _ => 0 :=
    funext fun a => by rw [(idx_zero t).1 a, Nat.zero_mul]
  exact Memref.read_access_unit_zero (Elt Ideal) main_v114 hz' (fun a => by rw [congrFun hz' a]; simp) (V c main_v114)

/-- The first weight matrix's block is the whole array: block (0, 0) of an array of the block's own size. -/
theorem blk1 (c : Dev nD) (t : Fin cfg7.N) : iblk7 V c 1 t = V c main_arg11 := by
  unfold iblk7
  have hz' : (fun a => win7_1.index t a * main_arg11.ty.shape.size a) = fun _ => 0 :=
    funext fun a => by rw [(idx_zero t).2.1 a, Nat.zero_mul]
  exact Memref.read_access_unit_zero (Elt Ideal) main_arg11 hz' (fun a => by rw [congrFun hz' a]; simp) (V c main_arg11)

/-- The first bias row's block is the whole array: block (0, 0) of an array of the block's own size. -/
theorem blk2 (c : Dev nD) (t : Fin cfg7.N) : iblk7 V c 2 t = V c main_v115 := by
  unfold iblk7
  have hz' : (fun a => win7_2.index t a * main_v115.ty.shape.size a) = fun _ => 0 :=
    funext fun a => by rw [(idx_zero t).2.2.1 a, Nat.zero_mul]
  exact Memref.read_access_unit_zero (Elt Ideal) main_v115 hz' (fun a => by rw [congrFun hz' a]; simp) (V c main_v115)

/-- The second weight matrix's block is the whole array: block (0, 0) of an array of the block's own size. -/
theorem blk3 (c : Dev nD) (t : Fin cfg7.N) : iblk7 V c 3 t = V c main_arg13 := by
  unfold iblk7
  have hz' : (fun a => win7_3.index t a * main_arg13.ty.shape.size a) = fun _ => 0 :=
    funext fun a => by rw [(idx_zero t).2.2.2.1 a, Nat.zero_mul]
  exact Memref.read_access_unit_zero (Elt Ideal) main_arg13 hz' (fun a => by rw [congrFun hz' a]; simp) (V c main_arg13)

/-- The second bias row's block is the whole array: block (0, 0) of an array of the block's own size. -/
theorem blk4 (c : Dev nD) (t : Fin cfg7.N) : iblk7 V c 4 t = V c main_v116 := by
  unfold iblk7
  have hz' : (fun a => win7_4.index t a * main_v116.ty.shape.size a) = fun _ => 0 :=
    funext fun a => by rw [(idx_zero t).2.2.2.2.1 a, Nat.zero_mul]
  exact Memref.read_access_unit_zero (Elt Ideal) main_v116 hz' (fun a => by rw [congrFun hz' a]; simp) (V c main_v116)

/-- The third weight matrix's block is the whole array: block (0, 0) of an array of the block's own size. -/
theorem blk5 (c : Dev nD) (t : Fin cfg7.N) : iblk7 V c 5 t = V c main_arg15 := by
  unfold iblk7
  have hz' : (fun a => win7_5.index t a * main_arg15.ty.shape.size a) = fun _ => 0 :=
    funext fun a => by rw [(idx_zero t).2.2.2.2.2.1 a, Nat.zero_mul]
  exact Memref.read_access_unit_zero (Elt Ideal) main_arg15 hz' (fun a => by rw [congrFun hz' a]; simp) (V c main_arg15)

/-- The third bias row's block is the whole array: block (0, 0) of an array of the block's own size. -/
theorem blk6 (c : Dev nD) (t : Fin cfg7.N) : iblk7 V c 6 t = V c main_v117 := by
  unfold iblk7
  have hz' : (fun a => win7_6.index t a * main_v117.ty.shape.size a) = fun _ => 0 :=
    funext fun a => by rw [(idx_zero t).2.2.2.2.2.2.1 a, Nat.zero_mul]
  exact Memref.read_access_unit_zero (Elt Ideal) main_v117 hz' (fun a => by rw [congrFun hz' a]; simp) (V c main_v117)

/-- An array of the logits' size read through the logits' one block is itself. -/
theorem read_blk7 (t : Fin cfg7.N) (G : FVec Ideal S64x8 .f32) : ((cfg7.win 7).blk t).view.read (Elt Ideal) G = G := by
  have hz' : (fun a => win7_7.index t a * main_v118_0.ty.shape.size a) = fun _ => 0 :=
    funext fun a => by rw [(idx_zero t).2.2.2.2.2.2.2.1 a, Nat.zero_mul]
  exact Memref.read_access_unit_zero (Elt Ideal) main_v118_0 hz' (fun a => by rw [congrFun hz' a]; simp) G

/-- The same through the one block of the second output. -/
theorem read_blk8 (t : Fin cfg7.N) (G : FVec Ideal S64x8 .f32) : ((cfg7.win 8).blk t).view.read (Elt Ideal) G = G := by
  have hz' : (fun a => win7_8.index t a * main_v118_1.ty.shape.size a) = fun _ => 0 :=
    funext fun a => by rw [(idx_zero t).2.2.2.2.2.2.2.2 a, Nat.zero_mul]
  exact Memref.read_access_unit_zero (Elt Ideal) main_v118_1 hz' (fun a => by rw [congrFun hz' a]; simp) G

/-- What the one point writes back to the first output is the logits of the input arrays. -/
theorem flushed7 (c : Dev nD) (t : Fin cfg7.N) :
    (dat7 (F := Ideal) V c).flushed 7 t = ((cfg7.win 7).blk t).view.read (Elt Ideal)
      (Cert.Spec.logitsOps (F := Ideal) (V c main_v114) (V c main_arg11) (V c main_v115)
        (V c main_arg13) (V c main_v116) (V c main_arg15) (V c main_v117)) := by
  show (cfg7.win 7).cut (grid7.coords t) ((dat7 (F := Ideal) V c).after 7 t) = _
  rw [after7_7]
  unfold out7_7
  rw [View.canon_unit_zero hz]
  simp only [View.ld_unit_zero (S := S64x128) hz, View.ld_unit_zero (S := S128x256) hz, View.ld_unit_zero (S := S1x256) hz,
    View.ld_unit_zero (S := S256x128) hz, View.ld_unit_zero (S := S1x128) hz, View.ld_unit_zero (S := S128x8) hz,
    View.ld_unit_zero (S := S1x8) hz]
  rw [read_blk7]
  rw [blk0 V c t, blk1 V c t, blk2 V c t, blk3 V c t, blk4 V c t, blk5 V c t, blk6 V c t]
  exact pay_logits (V c main_v114) (V c main_arg11) (V c main_v115) (V c main_arg13) (V c main_v116) (V c main_arg15)
    (V c main_v117)

/-- The one point's block of the first output holds every index of the array. -/
theorem cover7 (i : S64x8.Idx) : ∃ t : Fin cfg7.N, (cfg7.win 7).flush t = true ∧ i ∈ ((cfg7.win 7).blk t).view.set := by
  refine ⟨t7_0, flush7_7 t7_0, ?_⟩
  show i ∈ ((View.whole main_v118_0).slice (win7_7.rect t7_0)).set
  rw [View.set_slice_whole, Rect.mem_set_unit]
  intro a
  have h0 : (i 0 : Nat) < 64 := (i 0).isLt
  have h1 : (i 1 : Nat) < 8 := (i 1).isLt
  match a with
  | ⟨0, _⟩ =>
    show win7_7.index t7_0 0 * win7_7.size 0 ≤ (i 0 : Nat) ∧ (i 0 : Nat) < win7_7.index t7_0 0 * win7_7.size 0 + win7_7.xsize (grid7.coords t7_0) 0
    rw [show win7_7.index t7_0 0 * win7_7.size 0 = 0 from by decide +kernel, show win7_7.xsize (grid7.coords t7_0) 0 = 64 from by decide +kernel]
    omega
  | ⟨1, _⟩ =>
    show win7_7.index t7_0 1 * win7_7.size 1 ≤ (i 1 : Nat) ∧ (i 1 : Nat) < win7_7.index t7_0 1 * win7_7.size 1 + win7_7.xsize (grid7.coords t7_0) 1
    rw [show win7_7.index t7_0 1 * win7_7.size 1 = 0 from by decide +kernel, show win7_7.xsize (grid7.coords t7_0) 1 = 8 from by decide +kernel]
    omega

/-- What the one point writes back to the second output is the log-softmax of the logits of the input arrays. -/
theorem flushed8 (c : Dev nD) (t : Fin cfg7.N) :
    (dat7 (F := Ideal) V c).flushed 8 t = ((cfg7.win 8).blk t).view.read (Elt Ideal)
      (Cert.Spec.lsmOps (F := Ideal) (Cert.Spec.logitsOps (F := Ideal) (V c main_v114) (V c main_arg11) (V c main_v115)
        (V c main_arg13) (V c main_v116) (V c main_arg15) (V c main_v117))) := by
  show (cfg7.win 8).cut (grid7.coords t) ((dat7 (F := Ideal) V c).after 8 t) = _
  rw [after7_8]
  unfold out7_8
  rw [View.canon_unit_zero hz]
  simp only [View.ld_unit_zero (S := S64x128) hz, View.ld_unit_zero (S := S128x256) hz, View.ld_unit_zero (S := S1x256) hz,
    View.ld_unit_zero (S := S256x128) hz, View.ld_unit_zero (S := S1x128) hz, View.ld_unit_zero (S := S128x8) hz,
    View.ld_unit_zero (S := S1x8) hz]
  rw [read_blk8]
  rw [blk0 V c t, blk1 V c t, blk2 V c t, blk3 V c t, blk4 V c t, blk5 V c t, blk6 V c t]
  exact pay_probs (V c main_v114) (V c main_arg11) (V c main_v115) (V c main_arg13) (V c main_v116) (V c main_arg15)
    (V c main_v117)

/-- The one point's block of the second output holds every index of the array. -/
theorem cover8 (i : S64x8.Idx) : ∃ t : Fin cfg7.N, (cfg7.win 8).flush t = true ∧ i ∈ ((cfg7.win 8).blk t).view.set := by
  refine ⟨t7_0, flush7_8 t7_0, ?_⟩
  show i ∈ ((View.whole main_v118_1).slice (win7_8.rect t7_0)).set
  rw [View.set_slice_whole, Rect.mem_set_unit]
  intro a
  have h0 : (i 0 : Nat) < 64 := (i 0).isLt
  have h1 : (i 1 : Nat) < 8 := (i 1).isLt
  match a with
  | ⟨0, _⟩ =>
    show win7_8.index t7_0 0 * win7_8.size 0 ≤ (i 0 : Nat) ∧ (i 0 : Nat) < win7_8.index t7_0 0 * win7_8.size 0 + win7_8.xsize (grid7.coords t7_0) 0
    rw [show win7_8.index t7_0 0 * win7_8.size 0 = 0 from by decide +kernel, show win7_8.xsize (grid7.coords t7_0) 0 = 64 from by decide +kernel]
    omega
  | ⟨1, _⟩ =>
    show win7_8.index t7_0 1 * win7_8.size 1 ≤ (i 1 : Nat) ∧ (i 1 : Nat) < win7_8.index t7_0 1 * win7_8.size 1 + win7_8.xsize (grid7.coords t7_0) 1
    rw [show win7_8.index t7_0 1 * win7_8.size 1 = 0 from by decide +kernel, show win7_8.xsize (grid7.coords t7_0) 1 = 8 from by decide +kernel]
    omega

end Mlp

-- the TensorCore's buffer contents when the region is entered
variable (V : (c : Dev nD) → (b : Ref sig .tc) → Buf (Elt Ideal) ((c : Thread nD τ).loc b))

theorem mlp7_logits (c : Dev nD) :
    (dat7 (F := Ideal) V c).arrAt 7 cfg7.N = Cert.Spec.logitsOps (F := Ideal) (V c main_v114) (V c main_arg11) (V c main_v115)
      (V c main_arg13) (V c main_v116) (V c main_arg15) (V c main_v117) :=
  (dat7 (F := Ideal) V c).arrAt_eq_of_cover 7 _ (fun t _ => Mlp.flushed7 V c t) Mlp.cover7

theorem mlp7_probs (c : Dev nD) :
    (dat7 (F := Ideal) V c).arrAt 8 cfg7.N = Cert.Spec.lsmOps (F := Ideal) (Cert.Spec.logitsOps (F := Ideal) (V c main_v114) (V c main_arg11) (V c main_v115)
      (V c main_arg13) (V c main_v116) (V c main_arg15) (V c main_v117)) :=
  (dat7 (F := Ideal) V c).arrAt_eq_of_cover 8 _ (fun t _ => Mlp.flushed8 V c t) Mlp.cover8

end Cert.KernelIdeal.RegVal

end
-- ==== Proof.KChain.lean ====
/-
  The kernel program's buffers at the boundaries of @main, each as a term of the network of Spec.lean at the arguments' launch
  contents: a region's output array is the Spec function of its input arrays (the region lemmas), a host stretch's result the Spec
  function of what it found (the stretch lemmas), and what lies between is kept. The last three are @main's results.
-/
import proofs.«415105_j87316685128359_1_alg».proof.Proof.Keep
import proofs.«415105_j87316685128359_1_alg».proof.Proof.KHostA
import proofs.«415105_j87316685128359_1_alg».proof.Proof.KHostB
import proofs.«415105_j87316685128359_1_alg».proof.Proof.RegMm
import proofs.«415105_j87316685128359_1_alg».proof.Proof.RegLn
import proofs.«415105_j87316685128359_1_alg».proof.Proof.RegPool
import proofs.«415105_j87316685128359_1_alg».proof.Proof.RegMlp

set_option maxRecDepth 16384

noncomputable section

namespace Cert.KernelIdeal.KChain

open Idealize.ShloMosaic Idealize.ShloMosaic.TcCoe Idealize.SL.Sem Idealize.ShloMosaic.StableHlo Cert.KernelIdeal Cert.KernelIdeal.Gen
open Idealize.ShloMosaic.Pipeline (Dat)
open Cert.KernelIdeal.KHost Cert.KernelIdeal.RegVal

variable (m : (ℓ : Loc nD τ sig) → Buf (Elt Ideal) ℓ) (ρ : Dev nD → PrngReg) (c : Dev nD)

/-! ## Layer 1 -/

theorem v31_at4 : W4 m ρ c (Proc.devRef .tc main_v31) = Cert.Spec.mmOps (F := Ideal) (m ((c : Thread nD τ).loc main_arg0)) (m ((c : Thread nD τ).loc main_arg3)) := by
  refine (W4_arr m ρ c 2).trans ((mm0 (V3 m ρ) c).trans ?_)
  rw [show V3 m ρ c main_arg0 = _ from Keep.arg0_at3 m ρ c, show V3 m ρ c main_arg3 = _ from Keep.arg3_at3 m ρ c]

theorem v46_at5 : W5 m ρ c (Proc.devRef .tc main_v46) = Cert.Spec.conv1 (F := Ideal) (m ((c : Thread nD τ).loc main_arg0)) (m ((c : Thread nD τ).loc main_arg1)) (m ((c : Thread nD τ).loc main_arg3)) (m ((c : Thread nD τ).loc main_arg4)) := by
  refine (W5_v46 m ρ c).trans ?_
  rw [v31_at4 m ρ c, Keep.v5_3_4 m ρ c, Keep.v6_3_4 m ρ c, Keep.v30_3_4 m ρ c, W3_s m ρ c, W3_d m ρ c, W3_ncol m ρ c, Keep.arg4_at4 m ρ c]
  rfl

theorem v47_at5 : W5 m ρ c (Proc.devRef .tc main_v47) = Cert.Spec.rowOf (F := Ideal) (m ((c : Thread nD τ).loc main_arg5)) := by
  refine (W5_v47 m ρ c).trans ?_
  rw [Keep.arg5_at4 m ρ c]

theorem v48_at5 : W5 m ρ c (Proc.devRef .tc main_v48) = Cert.Spec.rowOf (F := Ideal) (m ((c : Thread nD τ).loc main_arg6)) := by
  refine (W5_v48 m ρ c).trans ?_
  rw [Keep.arg6_at4 m ρ c]

theorem v49_at6 : W6 m ρ c (Proc.devRef .tc main_v49) = Cert.Spec.h1 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W6_arr m ρ c 3).trans ((ln1 (V5 m ρ) c).trans ?_)
  rw [show V5 m ρ c main_v46 = _ from v46_at5 m ρ c, show V5 m ρ c main_v47 = _ from v47_at5 m ρ c, show V5 m ρ c main_v48 = _ from v48_at5 m ρ c]
  rfl

/-! ## Layer 2 -/

theorem v51_at7 : W7 m ρ c (Proc.devRef .tc main_v51) = Cert.Spec.wc0 (F := Ideal) (m ((c : Thread nD τ).loc main_arg7)) := by
  refine (W7_v51 m ρ c).trans ?_
  rw [Keep.arg7_at6 m ρ c]

theorem v53_at7 : W7 m ρ c (Proc.devRef .tc main_v53) = Cert.Spec.vec0 (F := Ideal) (m ((c : Thread nD τ).loc main_arg8)) := by
  refine (W7_v53 m ρ c).trans ?_
  rw [Keep.arg8_at6 m ρ c]

theorem v49_at7 : W7 m ρ c (Proc.devRef .tc main_v49) = Cert.Spec.h1 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := (Keep.v49_6_7 m ρ c).trans (v49_at6 m ρ c)

theorem v54_at8 : W8 m ρ c (Proc.devRef .tc main_v54) = Cert.Spec.mmOps (F := Ideal) (Cert.Spec.h1 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (Cert.Spec.wc0 (F := Ideal) (m ((c : Thread nD τ).loc main_arg7))) := by
  refine (W8_arr m ρ c 2).trans ((mm2 (V7 m ρ) c).trans ?_)
  rw [show V7 m ρ c main_v49 = _ from v49_at7 m ρ c, show V7 m ρ c main_v51 = _ from v51_at7 m ρ c]

theorem v69_at9 : W9 m ρ c (Proc.devRef .tc main_v69) = Cert.Spec.conv2 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W9_v69 m ρ c).trans ?_
  rw [v54_at8 m ρ c, Keep.v5_3_8 m ρ c, Keep.v6_3_8 m ρ c, Keep.v30_3_8 m ρ c, W3_s m ρ c, W3_d m ρ c, W3_ncol m ρ c, Keep.v53_7_8 m ρ c, v53_at7 m ρ c]
  rfl

theorem v74_at9 : W9 m ρ c (Proc.devRef .tc main_v74) = Cert.Spec.rowOf (F := Ideal) (Cert.Spec.vec0 (F := Ideal) (m ((c : Thread nD τ).loc main_arg9))) := by
  refine (W9_v74 m ρ c).trans ?_
  rw [Keep.arg9_at8 m ρ c]

theorem v75_at9 : W9 m ρ c (Proc.devRef .tc main_v75) = Cert.Spec.rowOf (F := Ideal) (Cert.Spec.vec0 (F := Ideal) (m ((c : Thread nD τ).loc main_arg10))) := by
  refine (W9_v75 m ρ c).trans ?_
  rw [Keep.arg10_at8 m ρ c]

theorem v76_at10 : W10 m ρ c (Proc.devRef .tc main_v76) = Cert.Spec.h2 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W10_arr m ρ c 3).trans ((ln3 (V9 m ρ) c).trans ?_)
  rw [show V9 m ρ c main_v69 = _ from v69_at9 m ρ c, show V9 m ρ c main_v74 = _ from v74_at9 m ρ c, show V9 m ρ c main_v75 = _ from v75_at9 m ρ c]
  rfl

/-! ## Layer 3: the first result -/

theorem v78_at11 : W11 m ρ c (Proc.devRef .tc main_v78) = Cert.Spec.wc1 (F := Ideal) (m ((c : Thread nD τ).loc main_arg7)) := by
  refine (W11_v78 m ρ c).trans ?_
  rw [Keep.arg7_at10 m ρ c]

theorem v80_at11 : W11 m ρ c (Proc.devRef .tc main_v80) = Cert.Spec.vec1 (F := Ideal) (m ((c : Thread nD τ).loc main_arg8)) := by
  refine (W11_v80 m ρ c).trans ?_
  rw [Keep.arg8_at10 m ρ c]

theorem v76_at11 : W11 m ρ c (Proc.devRef .tc main_v76) = Cert.Spec.h2 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := (Keep.v76_10_11 m ρ c).trans (v76_at10 m ρ c)

theorem v81_at12 : W12 m ρ c (Proc.devRef .tc main_v81) = Cert.Spec.mmOps (F := Ideal) (Cert.Spec.h2 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (Cert.Spec.wc1 (F := Ideal) (m ((c : Thread nD τ).loc main_arg7))) := by
  refine (W12_arr m ρ c 2).trans ((mm4 (V11 m ρ) c).trans ?_)
  rw [show V11 m ρ c main_v76 = _ from v76_at11 m ρ c, show V11 m ρ c main_v78 = _ from v78_at11 m ρ c]

theorem v96_at13 : W13 m ρ c (Proc.devRef .tc main_v96) = Cert.Spec.emb (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W13_v96 m ρ c).trans ?_
  rw [v81_at12 m ρ c, Keep.v5_3_12 m ρ c, Keep.v6_3_12 m ρ c, Keep.v30_3_12 m ρ c, W3_s m ρ c, W3_d m ρ c, W3_ncol m ρ c, Keep.v80_11_12 m ρ c, v80_at11 m ρ c]
  rfl

theorem v101_at13 : W13 m ρ c (Proc.devRef .tc main_v101) = Cert.Spec.rowOf (F := Ideal) (Cert.Spec.vec1 (F := Ideal) (m ((c : Thread nD τ).loc main_arg9))) := by
  refine (W13_v101 m ρ c).trans ?_
  rw [Keep.arg9_at12 m ρ c]

theorem v102_at13 : W13 m ρ c (Proc.devRef .tc main_v102) = Cert.Spec.rowOf (F := Ideal) (Cert.Spec.vec1 (F := Ideal) (m ((c : Thread nD τ).loc main_arg10))) := by
  refine (W13_v102 m ρ c).trans ?_
  rw [Keep.arg10_at12 m ρ c]

theorem v103_at14 : W14 m ρ c (Proc.devRef .tc main_v103) = Cert.Spec.h3 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W14_arr m ρ c 3).trans ((ln5 (V13 m ρ) c).trans ?_)
  rw [show V13 m ρ c main_v96 = _ from v96_at13 m ρ c, show V13 m ρ c main_v101 = _ from v101_at13 m ρ c, show V13 m ρ c main_v102 = _ from v102_at13 m ρ c]
  rfl

/-! ## Pooling and the head: the other two results -/

theorem v104_at15 : W15 m ρ c (Proc.devRef .tc main_v104) = Cert.Spec.colOf (m ((c : Thread nD τ).loc main_arg2)) := by
  refine (W15_v104 m ρ c).trans ?_
  rw [Keep.arg2_at14 m ρ c]

theorem v103_at15 : W15 m ρ c (Proc.devRef .tc main_v103) = Cert.Spec.h3 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := (Keep.v103_14_15 m ρ c).trans (v103_at14 m ρ c)

theorem v105_at16 : W16 m ρ c (Proc.devRef .tc main_v105) = Cert.Spec.poolOps (F := Ideal) (Cert.Spec.h3 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (Cert.Spec.colOf (m ((c : Thread nD τ).loc main_arg2))) := by
  refine (W16_arr m ρ c 2).trans ((pool6 (V15 m ρ) c).trans ?_)
  rw [show V15 m ρ c main_v103 = _ from v103_at15 m ρ c, show V15 m ρ c main_v104 = _ from v104_at15 m ρ c]

theorem v114_at17 : W17 m ρ c (Proc.devRef .tc main_v114) = Cert.Spec.pooled (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W17_v114 m ρ c).trans ?_
  rw [v105_at16 m ρ c, Keep.arg2_at16 m ρ c]
  rfl

theorem v115_at17 : W17 m ρ c (Proc.devRef .tc main_v115) = Cert.Spec.row256 (F := Ideal) (m ((c : Thread nD τ).loc main_arg12)) := by
  refine (W17_v115 m ρ c).trans ?_
  rw [Keep.arg12_at16 m ρ c]

theorem v116_at17 : W17 m ρ c (Proc.devRef .tc main_v116) = Cert.Spec.rowOf (F := Ideal) (m ((c : Thread nD τ).loc main_arg14)) := by
  refine (W17_v116 m ρ c).trans ?_
  rw [Keep.arg14_at16 m ρ c]

theorem v117_at17 : W17 m ρ c (Proc.devRef .tc main_v117) = Cert.Spec.row8 (F := Ideal) (m ((c : Thread nD τ).loc main_arg16)) := by
  refine (W17_v117 m ρ c).trans ?_
  rw [Keep.arg16_at16 m ρ c]

theorem head_inputs :
    V17 m ρ c main_v114 = Cert.Spec.pooled (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ∧ V17 m ρ c main_arg11 = (m ((c : Thread nD τ).loc main_arg11)) ∧ V17 m ρ c main_v115 = Cert.Spec.row256 (F := Ideal) (m ((c : Thread nD τ).loc main_arg12))
    ∧ V17 m ρ c main_arg13 = (m ((c : Thread nD τ).loc main_arg13)) ∧ V17 m ρ c main_v116 = Cert.Spec.rowOf (F := Ideal) (m ((c : Thread nD τ).loc main_arg14)) ∧ V17 m ρ c main_arg15 = (m ((c : Thread nD τ).loc main_arg15))
    ∧ V17 m ρ c main_v117 = Cert.Spec.row8 (F := Ideal) (m ((c : Thread nD τ).loc main_arg16)) :=
  ⟨v114_at17 m ρ c, Keep.arg11_at17 m ρ c, v115_at17 m ρ c, Keep.arg13_at17 m ρ c, v116_at17 m ρ c, Keep.arg15_at17 m ρ c, v117_at17 m ρ c⟩

/-- The second result. -/
theorem logits_at18 : W18 m ρ c (Proc.devRef .tc main_v118_0) = Cert.Spec.logits (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  obtain ⟨h0, h1, h2, h3, h4, h5, h6⟩ := head_inputs m ρ c
  refine (W18_arr m ρ c 7).trans ((mlp7_logits (V17 m ρ) c).trans ?_)
  rw [h0, h1, h2, h3, h4, h5, h6]
  rfl

/-- The third result. -/
theorem probs_at18 : W18 m ρ c (Proc.devRef .tc main_v118_1) = Cert.Spec.probs (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  obtain ⟨h0, h1, h2, h3, h4, h5, h6⟩ := head_inputs m ρ c
  refine (W18_arr m ρ c 8).trans ((mlp7_probs (V17 m ρ) c).trans ?_)
  rw [h0, h1, h2, h3, h4, h5, h6]
  rfl

/-- The first result: written by the last layer's host stretch, read by the region after it and by nothing else. -/
theorem emb_at18 : W18 m ρ c (Proc.devRef .tc main_v96) = Cert.Spec.emb (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := (Keep.v96_13_18 m ρ c).trans (v96_at13 m ρ c)

end Cert.KernelIdeal.KChain

end
-- ==== Proof.RefOps.lean ====
/- The reference program's operations in program order, cut into 14 consecutive stretches; every operation's text is
   the generated run module's. -/
import proofs.«415105_j87316685128359_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- Operations 0 to 5 of the program. -/
abbrev opsA0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg3 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v5 (iotaInDim S100000 32 0) ]
theorem opsA0_sub : (opsA0 : List (HloOp τ sig (Elt F))).Forall fun op => op.bufs ⊆ tcRefs τ sig :=
  ⟨unary_bufs_sub .., reshape_bufs_sub .., unary_bufs_sub .., reshape_bufs_sub .., binary_bufs_sub .., nullary_bufs_sub ..⟩
theorem opsA0_fresh : ∀ op ∈ (opsA0 : List (HloOp τ sig (Elt F))), op.fresh = ∅ := by
  intro _ h; (repeat (cases h with | head => rfl | tail _ h => ?_)); exact nomatch h

/-- Operations 6 to 40 of the program. -/
abbrev opsA1 : List (HloOp τ sig (Elt F)) :=
  [ binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf (F := F) .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v6 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v6 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v6 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v7 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v7 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)) ]
theorem opsA1_sub : (opsA1 : List (HloOp τ sig (Elt F))).Forall fun op => op.bufs ⊆ tcRefs τ sig :=
  ⟨binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsA1_fresh : ∀ op ∈ (opsA1 : List (HloOp τ sig (Elt F))), op.fresh = ∅ := by
  intro _ h; (repeat (cases h with | head => rfl | tail _ h => ?_)); exact nomatch h

/-- Operations 41 to 59 of the program. -/
abbrev opsA2 : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v6 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v6 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v6 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v4 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v7 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)) ]
theorem opsA2_sub : (opsA2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsA2_fresh : ∀ op ∈ (opsA2 : List (HloOp τ sig (Elt F))), op.fresh = ∅ := by
  intro _ h; (repeat (cases h with | head => rfl | tail _ h => ?_)); exact nomatch h

/-- Operations 60 to 95 of the program. -/
abbrev opsA3 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    nullary main_cst_9 (constant S_ .f32 0x00000000#32),
    binary main_v47 main_cst_9 main_v48 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v48 main_v49 (broadcastInDim S100000x1 ![0] bcast_S100000_S100000x1_0 : (⟨S100000, .f32⟩ : BufTy).Contents (Elt F) → (⟨S100000x1, .f32⟩ : BufTy).Contents (Elt F)),
    nullary main_cst_10 (constant S_ .f32 0x43000000#32),
    unary main_cst_10 main_v50 (broadcastInDim S100000x1 ![] bcast_S_S100000x1 : (⟨S_, .f32⟩ : BufTy).Contents (Elt F) → (⟨S100000x1, .f32⟩ : BufTy).Contents (Elt F)),
    binary main_v49 main_v50 main_v51 (Host.divf : (⟨S100000x1, .f32⟩ : BufTy).Contents (Elt F) → (⟨S100000x1, .f32⟩ : BufTy).Contents (Elt F) → (⟨S100000x1, .f32⟩ : BufTy).Contents (Elt F)),
    unary main_v51 main_v52 (broadcastInDim S100000x128 ![0, 1] bcast_S100000x1_S100000x128_0_1 : (⟨S100000x1, .f32⟩ : BufTy).Contents (Elt F) → (⟨S100000x128, .f32⟩ : BufTy).Contents (Elt F)),
    binary main_v47 main_v52 main_v53 (subf : (⟨S100000x128, .f32⟩ : BufTy).Contents (Elt F) → (⟨S100000x128, .f32⟩ : BufTy).Contents (Elt F) → (⟨S100000x128, .f32⟩ : BufTy).Contents (Elt F)),
    binary main_v53 main_v53 main_v54 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    binary main_v54 main_cst_11 main_v55 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v55 main_v56 (broadcastInDim S100000x1 ![0] bcast_S100000_S100000x1_0 : (⟨S100000, .f32⟩ : BufTy).Contents (Elt F) → (⟨S100000x1, .f32⟩ : BufTy).Contents (Elt F)),
    nullary main_cst_12 (constant S_ .f32 0x43000000#32),
    unary main_cst_12 main_v57 (broadcastInDim S100000x1 ![] bcast_S_S100000x1 : (⟨S_, .f32⟩ : BufTy).Contents (Elt F) → (⟨S100000x1, .f32⟩ : BufTy).Contents (Elt F)),
    binary main_v56 main_v57 main_v58 (Host.divf : (⟨S100000x1, .f32⟩ : BufTy).Contents (Elt F) → (⟨S100000x1, .f32⟩ : BufTy).Contents (Elt F) → (⟨S100000x1, .f32⟩ : BufTy).Contents (Elt F)),
    unary main_v51 main_v59 (broadcastInDim S100000x128 ![0, 1] bcast_S100000x1_S100000x128_0_1 : (⟨S100000x1, .f32⟩ : BufTy).Contents (Elt F) → (⟨S100000x128, .f32⟩ : BufTy).Contents (Elt F)),
    binary main_v47 main_v59 main_v60 (subf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v61 (broadcastInDim S100000x1 ![] bcast_S_S100000x1 : (⟨S_, .f32⟩ : BufTy).Contents (Elt F) → (⟨S100000x1, .f32⟩ : BufTy).Contents (Elt F)),
    binary main_v58 main_v61 main_v62 (addf : (⟨S100000x1, .f32⟩ : BufTy).Contents (Elt F) → (⟨S100000x1, .f32⟩ : BufTy).Contents (Elt F) → (⟨S100000x1, .f32⟩ : BufTy).Contents (Elt F)),
    unary main_v62 main_v63 (Host.rsqrt : (⟨S100000x1, .f32⟩ : BufTy).Contents (Elt F) → (⟨S100000x1, .f32⟩ : BufTy).Contents (Elt F)),
    unary main_v63 main_v64 (broadcastInDim S100000x128 ![0, 1] bcast_S100000x1_S100000x128_0_1 : (⟨S100000x1, .f32⟩ : BufTy).Contents (Elt F) → (⟨S100000x128, .f32⟩ : BufTy).Contents (Elt F)),
    binary main_v60 main_v64 main_v65 (mulf : (⟨S100000x128, .f32⟩ : BufTy).Contents (Elt F) → (⟨S100000x128, .f32⟩ : BufTy).Contents (Elt F) → (⟨S100000x128, .f32⟩ : BufTy).Contents (Elt F)),
    unary main_arg5 main_v66 (broadcastInDim S1x128 ![1] bcast_S128_S1x128_1 : (⟨S128, .f32⟩ : BufTy).Contents (Elt F) → (⟨S1x128, .f32⟩ : BufTy).Contents (Elt F)),
    unary main_v66 main_v67 (broadcastInDim S100000x128 ![0, 1] bcast_S1x128_S100000x128_0_1 : (⟨S1x128, .f32⟩ : BufTy).Contents (Elt F) → (⟨S100000x128, .f32⟩ : BufTy).Contents (Elt F)),
    binary main_v65 main_v67 main_v68 (mulf : (⟨S100000x128, .f32⟩ : BufTy).Contents (Elt F) → (⟨S100000x128, .f32⟩ : BufTy).Contents (Elt F) → (⟨S100000x128, .f32⟩ : BufTy).Contents (Elt F)),
    unary main_arg6 main_v69 (broadcastInDim S1x128 ![1] bcast_S128_S1x128_1 : (⟨S128, .f32⟩ : BufTy).Contents (Elt F) → (⟨S1x128, .f32⟩ : BufTy).Contents (Elt F)),
    unary main_v69 main_v70 (broadcastInDim S100000x128 ![0, 1] bcast_S1x128_S100000x128_0_1 : (⟨S1x128, .f32⟩ : BufTy).Contents (Elt F) → (⟨S100000x128, .f32⟩ : BufTy).Contents (Elt F)),
    binary main_v68 main_v70 main_v71 (addf : (⟨S100000x128, .f32⟩ : BufTy).Contents (Elt F) → (⟨S100000x128, .f32⟩ : BufTy).Contents (Elt F) → (⟨S100000x128, .f32⟩ : BufTy).Contents (Elt F)),
    unary main_arg7 main_v72 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v72 main_v73 rfl shapeCasts_S1x128x128_S128x128,
    unary main_arg8 main_v74 ((extractStridedSlice S1x128 ![0, 0] · slices_S2x128_S1x128_0_0) : (⟨S2x128, .f32⟩ : BufTy).Contents (Elt F) → (⟨S1x128, .f32⟩ : BufTy).Contents (Elt F)),
    reshape main_v74 main_v75 rfl shapeCasts_S1x128_S128 ]
theorem opsA3_sub : (opsA3 : List (HloOp τ sig (Elt F))).Forall fun op => op.bufs ⊆ tcRefs τ sig :=
  ⟨nullary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub ..⟩
theorem opsA3_fresh : ∀ op ∈ (opsA3 : List (HloOp τ sig (Elt F))), op.fresh = ∅ := by
  intro _ h; (repeat (cases h with | head => rfl | tail _ h => ?_)); exact nomatch h

/-- Operations 96 to 97 of the program. -/
abbrev opsA4 : List (HloOp τ sig (Elt F)) :=
  [ binary main_v71 main_v73 main_v76 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v77 (iotaInDim S100000 32 0) ]
theorem opsA4_sub : (opsA4 : List (HloOp τ sig (Elt F))).Forall fun op => op.bufs ⊆ tcRefs τ sig :=
  ⟨binary_bufs_sub .., nullary_bufs_sub ..⟩
theorem opsA4_fresh : ∀ op ∈ (opsA4 : List (HloOp τ sig (Elt F))), op.fresh = ∅ := by
  intro _ h; (repeat (cases h with | head => rfl | tail _ h => ?_)); exact nomatch h

/-- Operations 98 to 132 of the program. -/
abbrev opsA5 : List (HloOp τ sig (Elt F)) :=
  [ binary main_v1 main_v77 main_v78 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v77 main_v79 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_14 (constant S_ .f32 0x3F800000#32),
    unary main_cst_14 main_v80 (broadcastInDim S1700000 ![] bcast_S_S1700000 : (⟨S_, .f32⟩ : BufTy).Contents (Elt F) → (⟨S1700000, .f32⟩ : BufTy).Contents (Elt F)),
    nullary main_cst_15 (constant S_ .f32 0x00000000#32),
    unary main_cst_15 main_v81 (broadcastInDim S100000 ![] bcast_S_S100000 : (⟨S_, .f32⟩ : BufTy).Contents (Elt F) → (⟨S100000, .f32⟩ : BufTy).Contents (Elt F)),
    unary main_v79 main_v82 (broadcastInDim S1700000x1 ![0] bcast_S1700000_S1700000x1_0 : (⟨S1700000, .i32⟩ : BufTy).Contents (Elt F) → (⟨S1700000x1, .i32⟩ : BufTy).Contents (Elt F)),
    ternary main_v81 main_v82 main_v80 main_v83 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_16 (constant S_ .f32 0x00000000#32),
    unary main_cst_16 main_v84 (broadcastInDim S100000 ![] bcast_S_S100000 : (⟨S_, .f32⟩ : BufTy).Contents (Elt F) → (⟨S100000, .f32⟩ : BufTy).Contents (Elt F)),
    binary main_v83 main_v84 main_v85 (cmpf (F := F) .ogt : (⟨S100000, .f32⟩ : BufTy).Contents (Elt F) → (⟨S100000, .f32⟩ : BufTy).Contents (Elt F) → (⟨S100000, .i1⟩ : BufTy).Contents (Elt F)),
    unary main_v83 main_v86 (Host.rsqrt : (⟨S100000, .f32⟩ : BufTy).Contents (Elt F) → (⟨S100000, .f32⟩ : BufTy).Contents (Elt F)),
    nullary main_cst_17 (constant S_ .f32 0x00000000#32),
    TRef.unary (TRef.of (T := ⟨S_, .f32⟩) main_cst_17) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v85) (TRef.of (T := ⟨S100000, .f32⟩) main_v86) (TRef.of (T := ⟨S100000, .f32⟩) main_call2_v1) (TRef.of (T := ⟨S100000, .f32⟩) main_v87) select,
    nullary main_c_18 (constantI S_ 32 0#32),
    unary main_c_18 main_v88 (broadcastInDim S1700000 ![] bcast_S_S1700000 : (⟨S_, .i32⟩ : BufTy).Contents (Elt F) → (⟨S1700000, .i32⟩ : BufTy).Contents (Elt F)),
    binary main_v78 main_v88 main_v89 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v90 (broadcastInDim S1700000 ![] bcast_S_S1700000 : (⟨S_, .i32⟩ : BufTy).Contents (Elt F) → (⟨S1700000, .i32⟩ : BufTy).Contents (Elt F)),
    binary main_v78 main_v90 main_v91 (addi : (⟨S1700000, .i32⟩ : BufTy).Contents (Elt F) → (⟨S1700000, .i32⟩ : BufTy).Contents (Elt F) → (⟨S1700000, .i32⟩ : BufTy).Contents (Elt F)),
    ternary main_v89 main_v91 main_v78 main_v92 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v92 main_v93 (broadcastInDim S1700000x1 ![0] bcast_S1700000_S1700000x1_0 : (⟨S1700000, .i32⟩ : BufTy).Contents (Elt F) → (⟨S1700000x1, .i32⟩ : BufTy).Contents (Elt F)),
    binary main_v87 main_v93 main_v94 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_20 (constantI S_ 32 0#32),
    unary main_c_20 main_v95 (broadcastInDim S1700000 ![] bcast_S_S1700000 : (⟨S_, .i32⟩ : BufTy).Contents (Elt F) → (⟨S1700000, .i32⟩ : BufTy).Contents (Elt F)),
    binary main_v79 main_v95 main_v96 (cmpi .slt : (⟨S1700000, .i32⟩ : BufTy).Contents (Elt F) → (⟨S1700000, .i32⟩ : BufTy).Contents (Elt F) → (⟨S1700000, .i1⟩ : BufTy).Contents (Elt F)),
    nullary main_c_21 (constantI S_ 32 100000#32),
    unary main_c_21 main_v97 (broadcastInDim S1700000 ![] bcast_S_S1700000 : (⟨S_, .i32⟩ : BufTy).Contents (Elt F) → (⟨S1700000, .i32⟩ : BufTy).Contents (Elt F)),
    binary main_v79 main_v97 main_v98 (addi : (⟨S1700000, .i32⟩ : BufTy).Contents (Elt F) → (⟨S1700000, .i32⟩ : BufTy).Contents (Elt F) → (⟨S1700000, .i32⟩ : BufTy).Contents (Elt F)),
    ternary main_v96 main_v98 main_v79 main_v99 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v99 main_v100 (broadcastInDim S1700000x1 ![0] bcast_S1700000_S1700000x1_0 : (⟨S1700000, .i32⟩ : BufTy).Contents (Elt F) → (⟨S1700000x1, .i32⟩ : BufTy).Contents (Elt F)),
    binary main_v87 main_v100 main_v101 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v94 main_v101 main_v102 (mulf : (⟨S1700000, .f32⟩ : BufTy).Contents (Elt F) → (⟨S1700000, .f32⟩ : BufTy).Contents (Elt F) → (⟨S1700000, .f32⟩ : BufTy).Contents (Elt F)) ]
theorem opsA5_sub : (opsA5 : List (HloOp τ sig (Elt F))).Forall fun op => op.bufs ⊆ tcRefs τ sig :=
  ⟨binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsA5_fresh : ∀ op ∈ (opsA5 : List (HloOp τ sig (Elt F))), op.fresh = ∅ := by
  intro _ h; (repeat (cases h with | head => rfl | tail _ h => ?_)); exact nomatch h

/-- Operations 133 to 151 of the program. -/
abbrev opsA6 : List (HloOp τ sig (Elt F)) :=
  [ nullary main_c_22 (constantI S_ 32 0#32),
    unary main_c_22 main_v103 (broadcastInDim S1700000 ![] bcast_S_S1700000 : (⟨S_, .i32⟩ : BufTy).Contents (Elt F) → (⟨S1700000, .i32⟩ : BufTy).Contents (Elt F)),
    binary main_v78 main_v103 main_v104 (cmpi .slt : (⟨S1700000, .i32⟩ : BufTy).Contents (Elt F) → (⟨S1700000, .i32⟩ : BufTy).Contents (Elt F) → (⟨S1700000, .i1⟩ : BufTy).Contents (Elt F)),
    nullary main_c_23 (constantI S_ 32 100000#32),
    unary main_c_23 main_v105 (broadcastInDim S1700000 ![] bcast_S_S1700000 : (⟨S_, .i32⟩ : BufTy).Contents (Elt F) → (⟨S1700000, .i32⟩ : BufTy).Contents (Elt F)),
    binary main_v78 main_v105 main_v106 (addi : (⟨S1700000, .i32⟩ : BufTy).Contents (Elt F) → (⟨S1700000, .i32⟩ : BufTy).Contents (Elt F) → (⟨S1700000, .i32⟩ : BufTy).Contents (Elt F)),
    ternary main_v104 main_v106 main_v78 main_v107 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v107 main_v108 (broadcastInDim S1700000x1 ![0] bcast_S1700000_S1700000x1_0 : (⟨S1700000, .i32⟩ : BufTy).Contents (Elt F) → (⟨S1700000x1, .i32⟩ : BufTy).Contents (Elt F)),
    binary main_v76 main_v108 main_v109 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v102 main_v110 (broadcastInDim S1700000x1 ![0] bcast_S1700000_S1700000x1_0 : (⟨S1700000, .f32⟩ : BufTy).Contents (Elt F) → (⟨S1700000x1, .f32⟩ : BufTy).Contents (Elt F)),
    unary main_v110 main_v111 (broadcastInDim S1700000x128 ![0, 1] bcast_S1700000x1_S1700000x128_0_1 : (⟨S1700000x1, .f32⟩ : BufTy).Contents (Elt F) → (⟨S1700000x128, .f32⟩ : BufTy).Contents (Elt F)),
    binary main_v109 main_v111 main_v112 (mulf : (⟨S1700000x128, .f32⟩ : BufTy).Contents (Elt F) → (⟨S1700000x128, .f32⟩ : BufTy).Contents (Elt F) → (⟨S1700000x128, .f32⟩ : BufTy).Contents (Elt F)),
    nullary main_cst_24 (constant S_ .f32 0x00000000#32),
    unary main_cst_24 main_v113 (broadcastInDim S100000x128 ![] bcast_S_S100000x128 : (⟨S_, .f32⟩ : BufTy).Contents (Elt F) → (⟨S100000x128, .f32⟩ : BufTy).Contents (Elt F)),
    unary main_v79 main_v114 (broadcastInDim S1700000x1 ![0] bcast_S1700000_S1700000x1_0 : (⟨S1700000, .i32⟩ : BufTy).Contents (Elt F) → (⟨S1700000x1, .i32⟩ : BufTy).Contents (Elt F)),
    ternary main_v113 main_v114 main_v112 main_v115 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_v75 main_v116 (broadcastInDim S1x128 ![1] bcast_S128_S1x128_1 : (⟨S128, .f32⟩ : BufTy).Contents (Elt F) → (⟨S1x128, .f32⟩ : BufTy).Contents (Elt F)),
    unary main_v116 main_v117 (broadcastInDim S100000x128 ![0, 1] bcast_S1x128_S100000x128_0_1 : (⟨S1x128, .f32⟩ : BufTy).Contents (Elt F) → (⟨S100000x128, .f32⟩ : BufTy).Contents (Elt F)),
    binary main_v115 main_v117 main_v118 (addf : (⟨S100000x128, .f32⟩ : BufTy).Contents (Elt F) → (⟨S100000x128, .f32⟩ : BufTy).Contents (Elt F) → (⟨S100000x128, .f32⟩ : BufTy).Contents (Elt F)) ]
theorem opsA6_sub : (opsA6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsA6_fresh : ∀ op ∈ (opsA6 : List (HloOp τ sig (Elt F))), op.fresh = ∅ := by
  intro _ h; (repeat (cases h with | head => rfl | tail _ h => ?_)); exact nomatch h

/-- Operations 152 to 191 of the program. -/
abbrev opsA7 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v118) (TRef.of (T := ⟨S100000x128, .f32⟩) main_call3_v0) (TRef.of (T := ⟨S100000x128, .f32⟩) main_v119) maximumf,
    unary main_arg9 main_v120 ((extractStridedSlice S1x128 ![0, 0] · slices_S2x128_S1x128_0_0) : (⟨S2x128, .f32⟩ : BufTy).Contents (Elt F) → (⟨S1x128, .f32⟩ : BufTy).Contents (Elt F)),
    reshape main_v120 main_v121 rfl shapeCasts_S1x128_S128,
    unary main_arg10 main_v122 ((extractStridedSlice S1x128 ![0, 0] · slices_S2x128_S1x128_0_0) : (⟨S2x128, .f32⟩ : BufTy).Contents (Elt F) → (⟨S1x128, .f32⟩ : BufTy).Contents (Elt F)),
    reshape main_v122 main_v123 rfl shapeCasts_S1x128_S128,
    nullary main_cst_25 (constant S_ .f32 0x00000000#32),
    binary main_v119 main_cst_25 main_v124 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v124 main_v125 (broadcastInDim S100000x1 ![0] bcast_S100000_S100000x1_0 : (⟨S100000, .f32⟩ : BufTy).Contents (Elt F) → (⟨S100000x1, .f32⟩ : BufTy).Contents (Elt F)),
    nullary main_cst_26 (constant S_ .f32 0x43000000#32),
    unary main_cst_26 main_v126 (broadcastInDim S100000x1 ![] bcast_S_S100000x1 : (⟨S_, .f32⟩ : BufTy).Contents (Elt F) → (⟨S100000x1, .f32⟩ : BufTy).Contents (Elt F)),
    binary main_v125 main_v126 main_v127 (Host.divf : (⟨S100000x1, .f32⟩ : BufTy).Contents (Elt F) → (⟨S100000x1, .f32⟩ : BufTy).Contents (Elt F) → (⟨S100000x1, .f32⟩ : BufTy).Contents (Elt F)),
    unary main_v127 main_v128 (broadcastInDim S100000x128 ![0, 1] bcast_S100000x1_S100000x128_0_1 : (⟨S100000x1, .f32⟩ : BufTy).Contents (Elt F) → (⟨S100000x128, .f32⟩ : BufTy).Contents (Elt F)),
    binary main_v119 main_v128 main_v129 (subf : (⟨S100000x128, .f32⟩ : BufTy).Contents (Elt F) → (⟨S100000x128, .f32⟩ : BufTy).Contents (Elt F) → (⟨S100000x128, .f32⟩ : BufTy).Contents (Elt F)),
    binary main_v129 main_v129 main_v130 (mulf : (⟨S100000x128, .f32⟩ : BufTy).Contents (Elt F) → (⟨S100000x128, .f32⟩ : BufTy).Contents (Elt F) → (⟨S100000x128, .f32⟩ : BufTy).Contents (Elt F)),
    nullary main_cst_27 (constant S_ .f32 0x00000000#32),
    binary main_v130 main_cst_27 main_v131 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v131 main_v132 (broadcastInDim S100000x1 ![0] bcast_S100000_S100000x1_0 : (⟨S100000, .f32⟩ : BufTy).Contents (Elt F) → (⟨S100000x1, .f32⟩ : BufTy).Contents (Elt F)),
    nullary main_cst_28 (constant S_ .f32 0x43000000#32),
    unary main_cst_28 main_v133 (broadcastInDim S100000x1 ![] bcast_S_S100000x1 : (⟨S_, .f32⟩ : BufTy).Contents (Elt F) → (⟨S100000x1, .f32⟩ : BufTy).Contents (Elt F)),
    binary main_v132 main_v133 main_v134 (Host.divf : (⟨S100000x1, .f32⟩ : BufTy).Contents (Elt F) → (⟨S100000x1, .f32⟩ : BufTy).Contents (Elt F) → (⟨S100000x1, .f32⟩ : BufTy).Contents (Elt F)),
    unary main_v127 main_v135 (broadcastInDim S100000x128 ![0, 1] bcast_S100000x1_S100000x128_0_1 : (⟨S100000x1, .f32⟩ : BufTy).Contents (Elt F) → (⟨S100000x128, .f32⟩ : BufTy).Contents (Elt F)),
    binary main_v119 main_v135 main_v136 (subf : (⟨S100000x128, .f32⟩ : BufTy).Contents (Elt F) → (⟨S100000x128, .f32⟩ : BufTy).Contents (Elt F) → (⟨S100000x128, .f32⟩ : BufTy).Contents (Elt F)),
    nullary main_cst_29 (constant S_ .f32 0x3727C5AC#32),
    unary main_cst_29 main_v137 (broadcastInDim S100000x1 ![] bcast_S_S100000x1 : (⟨S_, .f32⟩ : BufTy).Contents (Elt F) → (⟨S100000x1, .f32⟩ : BufTy).Contents (Elt F)),
    binary main_v134 main_v137 main_v138 (addf : (⟨S100000x1, .f32⟩ : BufTy).Contents (Elt F) → (⟨S100000x1, .f32⟩ : BufTy).Contents (Elt F) → (⟨S100000x1, .f32⟩ : BufTy).Contents (Elt F)),
    unary main_v138 main_v139 (Host.rsqrt : (⟨S100000x1, .f32⟩ : BufTy).Contents (Elt F) → (⟨S100000x1, .f32⟩ : BufTy).Contents (Elt F)),
    unary main_v139 main_v140 (broadcastInDim S100000x128 ![0, 1] bcast_S100000x1_S100000x128_0_1 : (⟨S100000x1, .f32⟩ : BufTy).Contents (Elt F) → (⟨S100000x128, .f32⟩ : BufTy).Contents (Elt F)),
    binary main_v136 main_v140 main_v141 (mulf : (⟨S100000x128, .f32⟩ : BufTy).Contents (Elt F) → (⟨S100000x128, .f32⟩ : BufTy).Contents (Elt F) → (⟨S100000x128, .f32⟩ : BufTy).Contents (Elt F)),
    unary main_v121 main_v142 (broadcastInDim S1x128 ![1] bcast_S128_S1x128_1 : (⟨S128, .f32⟩ : BufTy).Contents (Elt F) → (⟨S1x128, .f32⟩ : BufTy).Contents (Elt F)),
    unary main_v142 main_v143 (broadcastInDim S100000x128 ![0, 1] bcast_S1x128_S100000x128_0_1 : (⟨S1x128, .f32⟩ : BufTy).Contents (Elt F) → (⟨S100000x128, .f32⟩ : BufTy).Contents (Elt F)),
    binary main_v141 main_v143 main_v144 (mulf : (⟨S100000x128, .f32⟩ : BufTy).Contents (Elt F) → (⟨S100000x128, .f32⟩ : BufTy).Contents (Elt F) → (⟨S100000x128, .f32⟩ : BufTy).Contents (Elt F)),
    unary main_v123 main_v145 (broadcastInDim S1x128 ![1] bcast_S128_S1x128_1 : (⟨S128, .f32⟩ : BufTy).Contents (Elt F) → (⟨S1x128, .f32⟩ : BufTy).Contents (Elt F)),
    unary main_v145 main_v146 (broadcastInDim S100000x128 ![0, 1] bcast_S1x128_S100000x128_0_1 : (⟨S1x128, .f32⟩ : BufTy).Contents (Elt F) → (⟨S100000x128, .f32⟩ : BufTy).Contents (Elt F)),
    binary main_v144 main_v146 main_v147 (addf : (⟨S100000x128, .f32⟩ : BufTy).Contents (Elt F) → (⟨S100000x128, .f32⟩ : BufTy).Contents (Elt F) → (⟨S100000x128, .f32⟩ : BufTy).Contents (Elt F)),
    unary main_arg7 main_v148 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v148 main_v149 rfl shapeCasts_S1x128x128_S128x128,
    unary main_arg8 main_v150 ((extractStridedSlice S1x128 ![1, 0] · slices_S2x128_S1x128_1_0) : (⟨S2x128, .f32⟩ : BufTy).Contents (Elt F) → (⟨S1x128, .f32⟩ : BufTy).Contents (Elt F)),
    reshape main_v150 main_v151 rfl shapeCasts_S1x128_S128 ]
theorem opsA7_sub : (opsA7 : List (HloOp τ sig (Elt F))).Forall fun op => op.bufs ⊆ tcRefs τ sig :=
  ⟨nullary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub ..⟩
theorem opsA7_fresh : ∀ op ∈ (opsA7 : List (HloOp τ sig (Elt F))), op.fresh = ∅ := by
  intro _ h; (repeat (cases h with | head => rfl | tail _ h => ?_)); exact nomatch h

/-- Operations 192 to 193 of the program. -/
abbrev opsA8 : List (HloOp τ sig (Elt F)) :=
  [ binary main_v147 main_v149 main_v152 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v153 (iotaInDim S100000 32 0) ]
theorem opsA8_sub : (opsA8 : List (HloOp τ sig (Elt F))).Forall fun op => op.bufs ⊆ tcRefs τ sig :=
  ⟨binary_bufs_sub .., nullary_bufs_sub ..⟩
theorem opsA8_fresh : ∀ op ∈ (opsA8 : List (HloOp τ sig (Elt F))), op.fresh = ∅ := by
  intro _ h; (repeat (cases h with | head => rfl | tail _ h => ?_)); exact nomatch h

/-- Operations 194 to 228 of the program. -/
abbrev opsA9 : List (HloOp τ sig (Elt F)) :=
  [ binary main_v1 main_v153 main_v154 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v153 main_v155 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_30 (constant S_ .f32 0x3F800000#32),
    unary main_cst_30 main_v156 (broadcastInDim S1700000 ![] bcast_S_S1700000 : (⟨S_, .f32⟩ : BufTy).Contents (Elt F) → (⟨S1700000, .f32⟩ : BufTy).Contents (Elt F)),
    nullary main_cst_31 (constant S_ .f32 0x00000000#32),
    unary main_cst_31 main_v157 (broadcastInDim S100000 ![] bcast_S_S100000 : (⟨S_, .f32⟩ : BufTy).Contents (Elt F) → (⟨S100000, .f32⟩ : BufTy).Contents (Elt F)),
    unary main_v155 main_v158 (broadcastInDim S1700000x1 ![0] bcast_S1700000_S1700000x1_0 : (⟨S1700000, .i32⟩ : BufTy).Contents (Elt F) → (⟨S1700000x1, .i32⟩ : BufTy).Contents (Elt F)),
    ternary main_v157 main_v158 main_v156 main_v159 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_32 (constant S_ .f32 0x00000000#32),
    unary main_cst_32 main_v160 (broadcastInDim S100000 ![] bcast_S_S100000 : (⟨S_, .f32⟩ : BufTy).Contents (Elt F) → (⟨S100000, .f32⟩ : BufTy).Contents (Elt F)),
    binary main_v159 main_v160 main_v161 (cmpf (F := F) .ogt : (⟨S100000, .f32⟩ : BufTy).Contents (Elt F) → (⟨S100000, .f32⟩ : BufTy).Contents (Elt F) → (⟨S100000, .i1⟩ : BufTy).Contents (Elt F)),
    unary main_v159 main_v162 (Host.rsqrt : (⟨S100000, .f32⟩ : BufTy).Contents (Elt F) → (⟨S100000, .f32⟩ : BufTy).Contents (Elt F)),
    nullary main_cst_33 (constant S_ .f32 0x00000000#32),
    TRef.unary (TRef.of (T := ⟨S_, .f32⟩) main_cst_33) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v161) (TRef.of (T := ⟨S100000, .f32⟩) main_v162) (TRef.of (T := ⟨S100000, .f32⟩) main_call4_v1) (TRef.of (T := ⟨S100000, .f32⟩) main_v163) select,
    nullary main_c_34 (constantI S_ 32 0#32),
    unary main_c_34 main_v164 (broadcastInDim S1700000 ![] bcast_S_S1700000 : (⟨S_, .i32⟩ : BufTy).Contents (Elt F) → (⟨S1700000, .i32⟩ : BufTy).Contents (Elt F)),
    binary main_v154 main_v164 main_v165 (cmpi .slt : (⟨S1700000, .i32⟩ : BufTy).Contents (Elt F) → (⟨S1700000, .i32⟩ : BufTy).Contents (Elt F) → (⟨S1700000, .i1⟩ : BufTy).Contents (Elt F)),
    nullary main_c_35 (constantI S_ 32 100000#32),
    unary main_c_35 main_v166 (broadcastInDim S1700000 ![] bcast_S_S1700000 : (⟨S_, .i32⟩ : BufTy).Contents (Elt F) → (⟨S1700000, .i32⟩ : BufTy).Contents (Elt F)),
    binary main_v154 main_v166 main_v167 (addi : (⟨S1700000, .i32⟩ : BufTy).Contents (Elt F) → (⟨S1700000, .i32⟩ : BufTy).Contents (Elt F) → (⟨S1700000, .i32⟩ : BufTy).Contents (Elt F)),
    ternary main_v165 main_v167 main_v154 main_v168 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v168 main_v169 (broadcastInDim S1700000x1 ![0] bcast_S1700000_S1700000x1_0 : (⟨S1700000, .i32⟩ : BufTy).Contents (Elt F) → (⟨S1700000x1, .i32⟩ : BufTy).Contents (Elt F)),
    binary main_v163 main_v169 main_v170 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_36 (constantI S_ 32 0#32),
    unary main_c_36 main_v171 (broadcastInDim S1700000 ![] bcast_S_S1700000 : (⟨S_, .i32⟩ : BufTy).Contents (Elt F) → (⟨S1700000, .i32⟩ : BufTy).Contents (Elt F)),
    binary main_v155 main_v171 main_v172 (cmpi .slt : (⟨S1700000, .i32⟩ : BufTy).Contents (Elt F) → (⟨S1700000, .i32⟩ : BufTy).Contents (Elt F) → (⟨S1700000, .i1⟩ : BufTy).Contents (Elt F)),
    nullary main_c_37 (constantI S_ 32 100000#32),
    unary main_c_37 main_v173 (broadcastInDim S1700000 ![] bcast_S_S1700000 : (⟨S_, .i32⟩ : BufTy).Contents (Elt F) → (⟨S1700000, .i32⟩ : BufTy).Contents (Elt F)),
    binary main_v155 main_v173 main_v174 (addi : (⟨S1700000, .i32⟩ : BufTy).Contents (Elt F) → (⟨S1700000, .i32⟩ : BufTy).Contents (Elt F) → (⟨S1700000, .i32⟩ : BufTy).Contents (Elt F)),
    ternary main_v172 main_v174 main_v155 main_v175 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v175 main_v176 (broadcastInDim S1700000x1 ![0] bcast_S1700000_S1700000x1_0 : (⟨S1700000, .i32⟩ : BufTy).Contents (Elt F) → (⟨S1700000x1, .i32⟩ : BufTy).Contents (Elt F)),
    binary main_v163 main_v176 main_v177 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v170 main_v177 main_v178 (mulf : (⟨S1700000, .f32⟩ : BufTy).Contents (Elt F) → (⟨S1700000, .f32⟩ : BufTy).Contents (Elt F) → (⟨S1700000, .f32⟩ : BufTy).Contents (Elt F)) ]
theorem opsA9_sub : (opsA9 : List (HloOp τ sig (Elt F))).Forall fun op => op.bufs ⊆ tcRefs τ sig :=
  ⟨binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsA9_fresh : ∀ op ∈ (opsA9 : List (HloOp τ sig (Elt F))), op.fresh = ∅ := by
  intro _ h; (repeat (cases h with | head => rfl | tail _ h => ?_)); exact nomatch h

/-- Operations 229 to 247 of the program. -/
abbrev opsA10 : List (HloOp τ sig (Elt F)) :=
  [ nullary main_c_38 (constantI S_ 32 0#32),
    unary main_c_38 main_v179 (broadcastInDim S1700000 ![] bcast_S_S1700000 : (⟨S_, .i32⟩ : BufTy).Contents (Elt F) → (⟨S1700000, .i32⟩ : BufTy).Contents (Elt F)),
    binary main_v154 main_v179 main_v180 (cmpi .slt : (⟨S1700000, .i32⟩ : BufTy).Contents (Elt F) → (⟨S1700000, .i32⟩ : BufTy).Contents (Elt F) → (⟨S1700000, .i1⟩ : BufTy).Contents (Elt F)),
    nullary main_c_39 (constantI S_ 32 100000#32),
    unary main_c_39 main_v181 (broadcastInDim S1700000 ![] bcast_S_S1700000 : (⟨S_, .i32⟩ : BufTy).Contents (Elt F) → (⟨S1700000, .i32⟩ : BufTy).Contents (Elt F)),
    binary main_v154 main_v181 main_v182 (addi : (⟨S1700000, .i32⟩ : BufTy).Contents (Elt F) → (⟨S1700000, .i32⟩ : BufTy).Contents (Elt F) → (⟨S1700000, .i32⟩ : BufTy).Contents (Elt F)),
    ternary main_v180 main_v182 main_v154 main_v183 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v183 main_v184 (broadcastInDim S1700000x1 ![0] bcast_S1700000_S1700000x1_0 : (⟨S1700000, .i32⟩ : BufTy).Contents (Elt F) → (⟨S1700000x1, .i32⟩ : BufTy).Contents (Elt F)),
    binary main_v152 main_v184 main_v185 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v178 main_v186 (broadcastInDim S1700000x1 ![0] bcast_S1700000_S1700000x1_0 : (⟨S1700000, .f32⟩ : BufTy).Contents (Elt F) → (⟨S1700000x1, .f32⟩ : BufTy).Contents (Elt F)),
    unary main_v186 main_v187 (broadcastInDim S1700000x128 ![0, 1] bcast_S1700000x1_S1700000x128_0_1 : (⟨S1700000x1, .f32⟩ : BufTy).Contents (Elt F) → (⟨S1700000x128, .f32⟩ : BufTy).Contents (Elt F)),
    binary main_v185 main_v187 main_v188 (mulf : (⟨S1700000x128, .f32⟩ : BufTy).Contents (Elt F) → (⟨S1700000x128, .f32⟩ : BufTy).Contents (Elt F) → (⟨S1700000x128, .f32⟩ : BufTy).Contents (Elt F)),
    nullary main_cst_40 (constant S_ .f32 0x00000000#32),
    unary main_cst_40 main_v189 (broadcastInDim S100000x128 ![] bcast_S_S100000x128 : (⟨S_, .f32⟩ : BufTy).Contents (Elt F) → (⟨S100000x128, .f32⟩ : BufTy).Contents (Elt F)),
    unary main_v155 main_v190 (broadcastInDim S1700000x1 ![0] bcast_S1700000_S1700000x1_0 : (⟨S1700000, .i32⟩ : BufTy).Contents (Elt F) → (⟨S1700000x1, .i32⟩ : BufTy).Contents (Elt F)),
    ternary main_v189 main_v190 main_v188 main_v191 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_v151 main_v192 (broadcastInDim S1x128 ![1] bcast_S128_S1x128_1 : (⟨S128, .f32⟩ : BufTy).Contents (Elt F) → (⟨S1x128, .f32⟩ : BufTy).Contents (Elt F)),
    unary main_v192 main_v193 (broadcastInDim S100000x128 ![0, 1] bcast_S1x128_S100000x128_0_1 : (⟨S1x128, .f32⟩ : BufTy).Contents (Elt F) → (⟨S100000x128, .f32⟩ : BufTy).Contents (Elt F)),
    binary main_v191 main_v193 main_v194 (addf : (⟨S100000x128, .f32⟩ : BufTy).Contents (Elt F) → (⟨S100000x128, .f32⟩ : BufTy).Contents (Elt F) → (⟨S100000x128, .f32⟩ : BufTy).Contents (Elt F)) ]
theorem opsA10_sub : (opsA10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsA10_fresh : ∀ op ∈ (opsA10 : List (HloOp τ sig (Elt F))), op.fresh = ∅ := by
  intro _ h; (repeat (cases h with | head => rfl | tail _ h => ?_)); exact nomatch h

/-- Operations 248 to 283 of the program. -/
abbrev opsA11 : List (HloOp τ sig (Elt F)) :=
  [ TRef.nullary (TRef.of (T := ⟨S_, .f32⟩) main_call5_cst) (constant S_ .f32 0x00000000#32),
    TRef.unary (TRef.of (T := ⟨S_, .f32⟩) main_call5_cst) (TRef.of (T := ⟨S100000x128, .f32⟩) main_call5_v0) (broadcastInDim S100000x128 ![] bcast_S_S100000x128),
    TRef.binary (TRef.of (T := ⟨S100000x128, .f32⟩) main_v194) (TRef.of (T := ⟨S100000x128, .f32⟩) main_call5_v0) (TRef.of (T := ⟨S100000x128, .f32⟩) main_v195) maximumf,
    unary main_arg9 main_v196 ((extractStridedSlice S1x128 ![1, 0] · slices_S2x128_S1x128_1_0) : (⟨S2x128, .f32⟩ : BufTy).Contents (Elt F) → (⟨S1x128, .f32⟩ : BufTy).Contents (Elt F)),
    reshape main_v196 main_v197 rfl shapeCasts_S1x128_S128,
    unary main_arg10 main_v198 ((extractStridedSlice S1x128 ![1, 0] · slices_S2x128_S1x128_1_0) : (⟨S2x128, .f32⟩ : BufTy).Contents (Elt F) → (⟨S1x128, .f32⟩ : BufTy).Contents (Elt F)),
    reshape main_v198 main_v199 rfl shapeCasts_S1x128_S128,
    nullary main_cst_41 (constant S_ .f32 0x00000000#32),
    binary main_v195 main_cst_41 main_v200 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v200 main_v201 (broadcastInDim S100000x1 ![0] bcast_S100000_S100000x1_0 : (⟨S100000, .f32⟩ : BufTy).Contents (Elt F) → (⟨S100000x1, .f32⟩ : BufTy).Contents (Elt F)),
    nullary main_cst_42 (constant S_ .f32 0x43000000#32),
    unary main_cst_42 main_v202 (broadcastInDim S100000x1 ![] bcast_S_S100000x1 : (⟨S_, .f32⟩ : BufTy).Contents (Elt F) → (⟨S100000x1, .f32⟩ : BufTy).Contents (Elt F)),
    binary main_v201 main_v202 main_v203 (Host.divf : (⟨S100000x1, .f32⟩ : BufTy).Contents (Elt F) → (⟨S100000x1, .f32⟩ : BufTy).Contents (Elt F) → (⟨S100000x1, .f32⟩ : BufTy).Contents (Elt F)),
    unary main_v203 main_v204 (broadcastInDim S100000x128 ![0, 1] bcast_S100000x1_S100000x128_0_1 : (⟨S100000x1, .f32⟩ : BufTy).Contents (Elt F) → (⟨S100000x128, .f32⟩ : BufTy).Contents (Elt F)),
    binary main_v195 main_v204 main_v205 (subf : (⟨S100000x128, .f32⟩ : BufTy).Contents (Elt F) → (⟨S100000x128, .f32⟩ : BufTy).Contents (Elt F) → (⟨S100000x128, .f32⟩ : BufTy).Contents (Elt F)),
    binary main_v205 main_v205 main_v206 (mulf : (⟨S100000x128, .f32⟩ : BufTy).Contents (Elt F) → (⟨S100000x128, .f32⟩ : BufTy).Contents (Elt F) → (⟨S100000x128, .f32⟩ : BufTy).Contents (Elt F)),
    nullary main_cst_43 (constant S_ .f32 0x00000000#32),
    binary main_v206 main_cst_43 main_v207 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v207 main_v208 (broadcastInDim S100000x1 ![0] bcast_S100000_S100000x1_0 : (⟨S100000, .f32⟩ : BufTy).Contents (Elt F) → (⟨S100000x1, .f32⟩ : BufTy).Contents (Elt F)),
    nullary main_cst_44 (constant S_ .f32 0x43000000#32),
    unary main_cst_44 main_v209 (broadcastInDim S100000x1 ![] bcast_S_S100000x1 : (⟨S_, .f32⟩ : BufTy).Contents (Elt F) → (⟨S100000x1, .f32⟩ : BufTy).Contents (Elt F)),
    binary main_v208 main_v209 main_v210 (Host.divf : (⟨S100000x1, .f32⟩ : BufTy).Contents (Elt F) → (⟨S100000x1, .f32⟩ : BufTy).Contents (Elt F) → (⟨S100000x1, .f32⟩ : BufTy).Contents (Elt F)),
    unary main_v203 main_v211 (broadcastInDim S100000x128 ![0, 1] bcast_S100000x1_S100000x128_0_1 : (⟨S100000x1, .f32⟩ : BufTy).Contents (Elt F) → (⟨S100000x128, .f32⟩ : BufTy).Contents (Elt F)),
    binary main_v195 main_v211 main_v212 (subf : (⟨S100000x128, .f32⟩ : BufTy).Contents (Elt F) → (⟨S100000x128, .f32⟩ : BufTy).Contents (Elt F) → (⟨S100000x128, .f32⟩ : BufTy).Contents (Elt F)),
    nullary main_cst_45 (constant S_ .f32 0x3727C5AC#32),
    unary main_cst_45 main_v213 (broadcastInDim S100000x1 ![] bcast_S_S100000x1 : (⟨S_, .f32⟩ : BufTy).Contents (Elt F) → (⟨S100000x1, .f32⟩ : BufTy).Contents (Elt F)),
    binary main_v210 main_v213 main_v214 (addf : (⟨S100000x1, .f32⟩ : BufTy).Contents (Elt F) → (⟨S100000x1, .f32⟩ : BufTy).Contents (Elt F) → (⟨S100000x1, .f32⟩ : BufTy).Contents (Elt F)),
    unary main_v214 main_v215 (Host.rsqrt : (⟨S100000x1, .f32⟩ : BufTy).Contents (Elt F) → (⟨S100000x1, .f32⟩ : BufTy).Contents (Elt F)),
    unary main_v215 main_v216 (broadcastInDim S100000x128 ![0, 1] bcast_S100000x1_S100000x128_0_1 : (⟨S100000x1, .f32⟩ : BufTy).Contents (Elt F) → (⟨S100000x128, .f32⟩ : BufTy).Contents (Elt F)),
    binary main_v212 main_v216 main_v217 (mulf : (⟨S100000x128, .f32⟩ : BufTy).Contents (Elt F) → (⟨S100000x128, .f32⟩ : BufTy).Contents (Elt F) → (⟨S100000x128, .f32⟩ : BufTy).Contents (Elt F)),
    unary main_v197 main_v218 (broadcastInDim S1x128 ![1] bcast_S128_S1x128_1 : (⟨S128, .f32⟩ : BufTy).Contents (Elt F) → (⟨S1x128, .f32⟩ : BufTy).Contents (Elt F)),
    unary main_v218 main_v219 (broadcastInDim S100000x128 ![0, 1] bcast_S1x128_S100000x128_0_1 : (⟨S1x128, .f32⟩ : BufTy).Contents (Elt F) → (⟨S100000x128, .f32⟩ : BufTy).Contents (Elt F)),
    binary main_v217 main_v219 main_v220 (mulf : (⟨S100000x128, .f32⟩ : BufTy).Contents (Elt F) → (⟨S100000x128, .f32⟩ : BufTy).Contents (Elt F) → (⟨S100000x128, .f32⟩ : BufTy).Contents (Elt F)),
    unary main_v199 main_v221 (broadcastInDim S1x128 ![1] bcast_S128_S1x128_1 : (⟨S128, .f32⟩ : BufTy).Contents (Elt F) → (⟨S1x128, .f32⟩ : BufTy).Contents (Elt F)),
    unary main_v221 main_v222 (broadcastInDim S100000x128 ![0, 1] bcast_S1x128_S100000x128_0_1 : (⟨S1x128, .f32⟩ : BufTy).Contents (Elt F) → (⟨S100000x128, .f32⟩ : BufTy).Contents (Elt F)),
    binary main_v220 main_v222 main_v223 (addf : (⟨S100000x128, .f32⟩ : BufTy).Contents (Elt F) → (⟨S100000x128, .f32⟩ : BufTy).Contents (Elt F) → (⟨S100000x128, .f32⟩ : BufTy).Contents (Elt F)) ]
theorem opsA11_sub : (opsA11 : List (HloOp τ sig (Elt F))).Forall fun op => op.bufs ⊆ tcRefs τ sig :=
  ⟨nullary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem opsA11_fresh : ∀ op ∈ (opsA11 : List (HloOp τ sig (Elt F))), op.fresh = ∅ := by
  intro _ h; (repeat (cases h with | head => rfl | tail _ h => ?_)); exact nomatch h

/-- Operations 284 to 311 of the program. -/
abbrev opsA12 : List (HloOp τ sig (Elt F)) :=
  [ nullary main_cst_46 (constant S_ .f32 0x00000000#32),
    unary main_cst_46 main_v224 (broadcastInDim S64x128 ![] bcast_S_S64x128 : (⟨S_, .f32⟩ : BufTy).Contents (Elt F) → (⟨S64x128, .f32⟩ : BufTy).Contents (Elt F)),
    unary main_arg2 main_v225 (broadcastInDim S100000x1 ![0] bcast_S100000_S100000x1_0 : (⟨S100000, .i32⟩ : BufTy).Contents (Elt F) → (⟨S100000x1, .i32⟩ : BufTy).Contents (Elt F)),
    ternary main_v224 main_v225 main_v223 main_v226 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    nullary main_cst_47 (constant S_ .f32 0x3F800000#32),
    unary main_cst_47 main_v227 (broadcastInDim S100000 ![] bcast_S_S100000 : (⟨S_, .f32⟩ : BufTy).Contents (Elt F) → (⟨S100000, .f32⟩ : BufTy).Contents (Elt F)),
    nullary main_cst_48 (constant S_ .f32 0x00000000#32),
    unary main_cst_48 main_v228 (broadcastInDim S64 ![] bcast_S_S64 : (⟨S_, .f32⟩ : BufTy).Contents (Elt F) → (⟨S64, .f32⟩ : BufTy).Contents (Elt F)),
    unary main_arg2 main_v229 (broadcastInDim S100000x1 ![0] bcast_S100000_S100000x1_0 : (⟨S100000, .i32⟩ : BufTy).Contents (Elt F) → (⟨S100000x1, .i32⟩ : BufTy).Contents (Elt F)),
    ternary main_v228 main_v229 main_v227 main_v230 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_49 (constant S_ .f32 0x3F800000#32),
    unary main_cst_49 main_v231 (broadcastInDim S64 ![] bcast_S_S64 : (⟨S_, .f32⟩ : BufTy).Contents (Elt F) → (⟨S64, .f32⟩ : BufTy).Contents (Elt F)),
    binary main_v230 main_v231 main_v232 (maximumf : (⟨S64, .f32⟩ : BufTy).Contents (Elt F) → (⟨S64, .f32⟩ : BufTy).Contents (Elt F) → (⟨S64, .f32⟩ : BufTy).Contents (Elt F)),
    unary main_v232 main_v233 (broadcastInDim S64x1 ![0] bcast_S64_S64x1_0 : (⟨S64, .f32⟩ : BufTy).Contents (Elt F) → (⟨S64x1, .f32⟩ : BufTy).Contents (Elt F)),
    unary main_v233 main_v234 (broadcastInDim S64x128 ![0, 1] bcast_S64x1_S64x128_0_1 : (⟨S64x1, .f32⟩ : BufTy).Contents (Elt F) → (⟨S64x128, .f32⟩ : BufTy).Contents (Elt F)),
    binary main_v226 main_v234 main_v235 (Host.divf : (⟨S64x128, .f32⟩ : BufTy).Contents (Elt F) → (⟨S64x128, .f32⟩ : BufTy).Contents (Elt F) → (⟨S64x128, .f32⟩ : BufTy).Contents (Elt F)),
    binary main_v235 main_arg11 main_v236 ((fun l r => Host.dotGeneral dot_S64x128_S128x256_S64x256_1_0_0_1_n_n none l r) : (⟨S64x128, .f32⟩ : BufTy).Contents (Elt F) → (⟨S128x256, .f32⟩ : BufTy).Contents (Elt F) → (⟨S64x256, .f32⟩ : BufTy).Contents (Elt F)),
    unary main_arg12 main_v237 (broadcastInDim S1x256 ![1] bcast_S256_S1x256_1 : (⟨S256, .f32⟩ : BufTy).Contents (Elt F) → (⟨S1x256, .f32⟩ : BufTy).Contents (Elt F)),
    unary main_v237 main_v238 (broadcastInDim S64x256 ![0, 1] bcast_S1x256_S64x256_0_1 : (⟨S1x256, .f32⟩ : BufTy).Contents (Elt F) → (⟨S64x256, .f32⟩ : BufTy).Contents (Elt F)),
    binary main_v236 main_v238 main_v239 (addf : (⟨S64x256, .f32⟩ : BufTy).Contents (Elt F) → (⟨S64x256, .f32⟩ : BufTy).Contents (Elt F) → (⟨S64x256, .f32⟩ : BufTy).Contents (Elt F)),
    binary main_v239 main_arg13 main_v240 ((fun l r => Host.dotGeneral dot_S64x256_S256x128_S64x128_1_0_0_1_n_n none l r) : (⟨S64x256, .f32⟩ : BufTy).Contents (Elt F) → (⟨S256x128, .f32⟩ : BufTy).Contents (Elt F) → (⟨S64x128, .f32⟩ : BufTy).Contents (Elt F)),
    unary main_arg14 main_v241 (broadcastInDim S1x128 ![1] bcast_S128_S1x128_1 : (⟨S128, .f32⟩ : BufTy).Contents (Elt F) → (⟨S1x128, .f32⟩ : BufTy).Contents (Elt F)),
    unary main_v241 main_v242 (broadcastInDim S64x128 ![0, 1] bcast_S1x128_S64x128_0_1 : (⟨S1x128, .f32⟩ : BufTy).Contents (Elt F) → (⟨S64x128, .f32⟩ : BufTy).Contents (Elt F)),
    binary main_v240 main_v242 main_v243 (addf : (⟨S64x128, .f32⟩ : BufTy).Contents (Elt F) → (⟨S64x128, .f32⟩ : BufTy).Contents (Elt F) → (⟨S64x128, .f32⟩ : BufTy).Contents (Elt F)),
    binary main_v243 main_arg15 main_v244 ((fun l r => Host.dotGeneral dot_S64x128_S128x8_S64x8_1_0_0_1_n_n none l r) : (⟨S64x128, .f32⟩ : BufTy).Contents (Elt F) → (⟨S128x8, .f32⟩ : BufTy).Contents (Elt F) → (⟨S64x8, .f32⟩ : BufTy).Contents (Elt F)),
    unary main_arg16 main_v245 (broadcastInDim S1x8 ![1] bcast_S8_S1x8_1 : (⟨S8, .f32⟩ : BufTy).Contents (Elt F) → (⟨S1x8, .f32⟩ : BufTy).Contents (Elt F)),
    unary main_v245 main_v246 (broadcastInDim S64x8 ![0, 1] bcast_S1x8_S64x8_0_1 : (⟨S1x8, .f32⟩ : BufTy).Contents (Elt F) → (⟨S64x8, .f32⟩ : BufTy).Contents (Elt F)),
    binary main_v244 main_v246 main_v247 (addf : (⟨S64x8, .f32⟩ : BufTy).Contents (Elt F) → (⟨S64x8, .f32⟩ : BufTy).Contents (Elt F) → (⟨S64x8, .f32⟩ : BufTy).Contents (Elt F)) ]
theorem opsA12_sub : (opsA12 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub ..⟩
theorem opsA12_fresh : ∀ op ∈ (opsA12 : List (HloOp τ sig (Elt F))), op.fresh = ∅ := by
  intro _ h; (repeat (cases h with | head => rfl | tail _ h => ?_)); exact nomatch h

/-- Operations 312 to 326 of the program. -/
abbrev opsA13 : List (HloOp τ sig (Elt F)) :=
  [ TRef.nullary (TRef.of (T := ⟨S_, .f32⟩) main_call6_cst) (constant S_ .f32 0xFF800000#32),
    TRef.binary (TRef.of (T := ⟨S64x8, .f32⟩) main_v247) (TRef.of (T := ⟨S_, .f32⟩) main_call6_cst) (TRef.of (T := ⟨S64, .f32⟩) main_call6_v0) (fun x v => Host.reduce FloatOps.maximumf x v reducesTo_S64x8_S64_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S64, .f32⟩) main_call6_v1) (broadcastInDim S64 ![] bcast_S_S64),
    TRef.binary (TRef.of (T := ⟨S64, .f32⟩) main_call6_v1) (TRef.of (T := ⟨S64, .f32⟩) main_call6_v0) (TRef.of (T := ⟨S64, .f32⟩) main_call6_v2) maximumf,
    TRef.unary (TRef.of (T := ⟨S64, .f32⟩) main_call6_v2) (TRef.of (T := ⟨S64x1, .f32⟩) main_call6_v3) (broadcastInDim S64x1 ![0] bcast_S64_S64x1_0),
    TRef.unary (TRef.of (T := ⟨S64x1, .f32⟩) main_call6_v3) (TRef.of (T := ⟨S64x8, .f32⟩) main_call6_v4) (broadcastInDim S64x8 ![0, 1] bcast_S64x1_S64x8_0_1),
    TRef.binary (TRef.of (T := ⟨S64x8, .f32⟩) main_v247) (TRef.of (T := ⟨S64x8, .f32⟩) main_call6_v4) (TRef.of (T := ⟨S64x8, .f32⟩) main_call6_v5) subf,
    TRef.unary (TRef.of (T := ⟨S64x8, .f32⟩) main_call6_v5) (TRef.of (T := ⟨S64x8, .f32⟩) main_call6_v6) Host.exp,
    TRef.nullary (TRef.of (T := ⟨S_, .f32⟩) main_call6_cst_1) (constant S_ .f32 0x00000000#32),
    TRef.binary (TRef.of (T := ⟨S64x8, .f32⟩) main_call6_v6) (TRef.of (T := ⟨S_, .f32⟩) main_call6_cst_1) (TRef.of (T := ⟨S64, .f32⟩) main_call6_v7) (fun x v => Host.reduceAdd x v reducesTo_S64x8_S64_d1 h_S_),
    TRef.unary (TRef.of (T := ⟨S64, .f32⟩) main_call6_v7) (TRef.of (T := ⟨S64x1, .f32⟩) main_call6_v8) (broadcastInDim S64x1 ![0] bcast_S64_S64x1_0),
    TRef.unary (TRef.of (T := ⟨S64x1, .f32⟩) main_call6_v8) (TRef.of (T := ⟨S64x1, .f32⟩) main_call6_v9) Host.log,
    TRef.unary (TRef.of (T := ⟨S64x1, .f32⟩) main_call6_v9) (TRef.of (T := ⟨S64x8, .f32⟩) main_call6_v10) (broadcastInDim S64x8 ![0, 1] bcast_S64x1_S64x8_0_1),
    TRef.binary (TRef.of (T := ⟨S64x8, .f32⟩) main_call6_v5) (TRef.of (T := ⟨S64x8, .f32⟩) main_call6_v10) (TRef.of (T := ⟨S64x8, .f32⟩) main_v248) subf ]
theorem opsA13_sub : (opsA13 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem opsA13_fresh : ∀ op ∈ (opsA13 : List (HloOp τ sig (Elt F))), op.fresh = ∅ := by
  intro _ h; (repeat (cases h with | head => rfl | tail _ h => ?_)); exact nomatch h

end Cert.ReferenceIdeal.RefOps

end
-- ==== Proof.RefFold.lean ====
/-
  The reference program's buffer contents after each stretch of its operations, from the launch memory.
-/
import proofs.«415105_j87316685128359_1_alg».proof.Proof.RefOps

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]
variable (m : (ℓ : Loc nD τ sig) → Buf (Elt F) ℓ)

/-- Core `c`'s buffers at the launch. -/
abbrev M0 (c : Dev nD) : Valuation τ sig (Elt F) := launchContents m c
/-- After stretch 0. -/
abbrev M1 (c : Dev nD) : Valuation τ sig (Elt F) := StableHlo.after opsA0 (M0 m c)
/-- After stretch 1. -/
abbrev M2 (c : Dev nD) : Valuation τ sig (Elt F) := StableHlo.after opsA1 (M1 m c)
/-- After stretch 2. -/
abbrev M3 (c : Dev nD) : Valuation τ sig (Elt F) := StableHlo.after opsA2 (M2 m c)
/-- After stretch 3. -/
abbrev M4 (c : Dev nD) : Valuation τ sig (Elt F) := StableHlo.after opsA3 (M3 m c)
/-- After stretch 4. -/
abbrev M5 (c : Dev nD) : Valuation τ sig (Elt F) := StableHlo.after opsA4 (M4 m c)
/-- After stretch 5. -/
abbrev M6 (c : Dev nD) : Valuation τ sig (Elt F) := StableHlo.after opsA5 (M5 m c)
/-- After stretch 6. -/
abbrev M7 (c : Dev nD) : Valuation τ sig (Elt F) := StableHlo.after opsA6 (M6 m c)
/-- After stretch 7. -/
abbrev M8 (c : Dev nD) : Valuation τ sig (Elt F) := StableHlo.after opsA7 (M7 m c)
/-- After stretch 8. -/
abbrev M9 (c : Dev nD) : Valuation τ sig (Elt F) := StableHlo.after opsA8 (M8 m c)
/-- After stretch 9. -/
abbrev M10 (c : Dev nD) : Valuation τ sig (Elt F) := StableHlo.after opsA9 (M9 m c)
/-- After stretch 10. -/
abbrev M11 (c : Dev nD) : Valuation τ sig (Elt F) := StableHlo.after opsA10 (M10 m c)
/-- After stretch 11. -/
abbrev M12 (c : Dev nD) : Valuation τ sig (Elt F) := StableHlo.after opsA11 (M11 m c)
/-- After stretch 12. -/
abbrev M13 (c : Dev nD) : Valuation τ sig (Elt F) := StableHlo.after opsA12 (M12 m c)
/-- After stretch 13. -/
abbrev M14 (c : Dev nD) : Valuation τ sig (Elt F) := StableHlo.after opsA13 (M13 m c)

end Cert.ReferenceIdeal.RefRun

end
-- ==== Proof.RefRunSeq.lean ====
/-
  The reference program is its fourteen stretches run one after the other, so every weakly fair execution of it terminates with each
  buffer at the fold of the stretches over the launch memory.
-/
import proofs.«415105_j87316685128359_1_alg».proof.Proof.RefFold
import Idealize.ShloMosaic.Lib.Pipeline.Frame

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

/-- The fourteen stretches in program order: all the program's operations. -/
abbrev opsAll : List (HloOp τ sig (Elt F)) :=
  opsA0 ++ opsA1 ++ opsA2 ++ opsA3 ++ opsA4 ++ opsA5 ++ opsA6 ++ opsA7 ++ opsA8 ++ opsA9 ++ opsA10 ++ opsA11 ++ opsA12 ++ opsA13

/-- The program is the run of its operations, one after the other: both sides unfold to the same sequence of steps. -/
theorem main_eq (c : Dev nD) : main (F := F) c = seq (opsAll (F := F)) := by
  open Idealize.ShloMosaic.Pipeline in chain_rfl

/-- The signature scopes no buffer of the core … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

/-- Every operation touches buffers of the core only: stretch by stretch. -/
theorem opsAll_sub : (opsAll : List (HloOp τ sig (Elt F))).Forall fun op => op.bufs ⊆ tcRefs τ sig := by
  simp only [opsAll, List.forall_append]
  exact ⟨⟨⟨⟨⟨⟨⟨⟨⟨⟨⟨⟨⟨opsA0_sub, opsA1_sub⟩, opsA2_sub⟩, opsA3_sub⟩, opsA4_sub⟩, opsA5_sub⟩, opsA6_sub⟩, opsA7_sub⟩, opsA8_sub⟩, opsA9_sub⟩,
    opsA10_sub⟩, opsA11_sub⟩, opsA12_sub⟩, opsA13_sub⟩

/-- No operation allocates: stretch by stretch. -/
theorem opsAll_fresh : ∀ op ∈ (opsAll : List (HloOp τ sig (Elt F))), op.fresh = ∅ := by
  intro op h
  simp only [opsAll, List.mem_append] at h
  rcases h with (((((((((((((h | h) | h) | h) | h) | h) | h) | h) | h) | h) | h) | h) | h) | h)
  · exact opsA0_fresh op h
  · exact opsA1_fresh op h
  · exact opsA2_fresh op h
  · exact opsA3_fresh op h
  · exact opsA4_fresh op h
  · exact opsA5_fresh op h
  · exact opsA6_fresh op h
  · exact opsA7_fresh op h
  · exact opsA8_fresh op h
  · exact opsA9_fresh op h
  · exact opsA10_fresh op h
  · exact opsA11_fresh op h
  · exact opsA12_fresh op h
  · exact opsA13_fresh op h

/-- The fold of all the operations is the fold of the stretches, one after the other. -/
theorem after_opsAll (V : Valuation τ sig (Elt F)) :
    StableHlo.after (opsAll (F := F)) V
      = StableHlo.after opsA13 (StableHlo.after opsA12 (StableHlo.after opsA11 (StableHlo.after opsA10 (StableHlo.after opsA9
          (StableHlo.after opsA8 (StableHlo.after opsA7 (StableHlo.after opsA6 (StableHlo.after opsA5 (StableHlo.after opsA4
            (StableHlo.after opsA3 (StableHlo.after opsA2 (StableHlo.after opsA1 (StableHlo.after opsA0 V))))))))))))) := by
  simp only [opsAll, StableHlo.after_append]

/-- Every weakly fair execution of the program terminates, each buffer of the core at the fold of the fourteen stretches over the
    launch memory. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = M14 m c (Proc.devRef .tc b) := by
  refine (θ_run defs _ _).mono ?_
    (run_seq scopedRefs_eq scopedSems_eq defs main (fun _ => opsAll) main_eq (fun _ => opsAll_sub) m ρ (fun _ => opsAll_fresh))
  intro r h c b
  rw [h c b, after_opsAll]

end Cert.ReferenceIdeal.RefRun

end
-- ==== Proof.RefStretchB.lean ====
/-
  The reference program's later stretches, each read back on its own: what a stretch leaves in the buffers that later stretches or
  @main's results read, as the functions of Spec.lean of what it found — for ANY buffer contents at its entry.

  A stretch is a straight line of whole-array operations, each writing one buffer of its own, so what a buffer holds after the line is
  the composition of the operations on the path that leads to it, applied to what the line found in the buffers it only reads. The
  functions of Spec.lean are spelt with these operations in this order: each lemma below is the remark that the composition and the
  specification's text are one term. An operation of an inlined function acts through references that carry their value's type; at
  the literal references of this program carrying is the identity, so such an operation is the plain one.

  The one stretch that is not closed in itself is the ninth: the two concatenates append to the edges' end points the node numbers
  0, 1, …, which the eighth stretch wrote. Its lemmas therefore assume that the buffer still holds them.
-/
import proofs.«415105_j87316685128359_1_alg».proof.Proof.RefFold
import proofs.«415105_j87316685128359_1_alg».proof.Proof.Spec

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

/-- The second layer's activation and norm: relu, every row's mean and variance over its 128 features, the row centred and scaled,
    times the scales and plus the shifts of row 0 of the stacked parameters. -/
theorem A7_v147 (W : Valuation τ sig (Elt F)) :
    StableHlo.after opsA7 W (Proc.devRef .tc main_v147) = Cert.Spec.lnOps (W (Proc.devRef .tc main_v118)) (Cert.Spec.rowOf (Cert.Spec.vec0 (W (Proc.devRef .tc main_arg9)))) (Cert.Spec.rowOf (Cert.Spec.vec0 (W (Proc.devRef .tc main_arg10)))) := by
  after_results_simp
  unfold Cert.Spec.lnOps Cert.Spec.rowOf Cert.Spec.vec0
  rfl

/-- Slice 1 of the stacked weight matrices, the leading unit axis dropped. -/
theorem A7_v149 (W : Valuation τ sig (Elt F)) :
    StableHlo.after opsA7 W (Proc.devRef .tc main_v149) = Cert.Spec.wc1 (W (Proc.devRef .tc main_arg7)) := by
  after_results_simp
  unfold Cert.Spec.wc1
  rfl

/-- Row 1 of the stacked biases, as a vector. -/
theorem A7_v151 (W : Valuation τ sig (Elt F)) :
    StableHlo.after opsA7 W (Proc.devRef .tc main_v151) = Cert.Spec.vec1 (W (Proc.devRef .tc main_arg8)) := by
  after_results_simp
  unfold Cert.Spec.vec1
  rfl

/-- The third layer's product of the rows with its weight matrix. -/
theorem A8_v152 (W : Valuation τ sig (Elt F)) :
    StableHlo.after opsA8 W (Proc.devRef .tc main_v152) = Cert.Spec.mmOps (W (Proc.devRef .tc main_v147)) (W (Proc.devRef .tc main_v149)) := by
  after_results_simp
  unfold Cert.Spec.mmOps
  rfl

/-- The node numbers 0, 1, …, one per node. -/
theorem A8_v153 (W : Valuation τ sig (Elt F)) :
    StableHlo.after opsA8 W (Proc.devRef .tc main_v153) = iotaInDim S100000 32 0 := by
  after_results_simp

/-- The sources of the extended edge list: the given ones, then every node once for its self-loop. -/
theorem A9_v154 (W : Valuation τ sig (Elt F)) (h : W (Proc.devRef .tc main_v153) = iotaInDim S100000 32 0) :
    StableHlo.after opsA9 W (Proc.devRef .tc main_v154) = Cert.Spec.catIota (W (Proc.devRef .tc main_v1)) := by
  after_results_simp
  rw [h]
  unfold Cert.Spec.catIota
  rfl

/-- The targets of the extended edge list, likewise. -/
theorem A9_v155 (W : Valuation τ sig (Elt F)) (h : W (Proc.devRef .tc main_v153) = iotaInDim S100000 32 0) :
    StableHlo.after opsA9 W (Proc.devRef .tc main_v155) = Cert.Spec.catIota (W (Proc.devRef .tc main_v3)) := by
  after_results_simp
  -- the first concatenate wrote neither the targets nor the node numbers
  repeat (rw [binary_result_ne]; rotate_left; decide)
  rw [h]
  unfold Cert.Spec.catIota
  rfl

/-- Every extended edge's factor: the degrees counted at the targets, their inverse square roots (zero at degree zero), gathered at
    the two end points (a negative index wrapped first) and multiplied. -/
theorem A9_v178 (W : Valuation τ sig (Elt F)) (h : W (Proc.devRef .tc main_v153) = iotaInDim S100000 32 0) :
    StableHlo.after opsA9 W (Proc.devRef .tc main_v178) = Cert.Spec.normVec (F := F) (Cert.Spec.catIota (W (Proc.devRef .tc main_v1))) (Cert.Spec.catIota (W (Proc.devRef .tc main_v3))) := by
  after_results_simp
  -- the first concatenate wrote neither the targets nor the node numbers
  repeat (rw [binary_result_ne]; rotate_left; decide)
  rw [h]
  unfold Cert.Spec.normVec Cert.Spec.invSqrtDeg Cert.Spec.wrapIdx Cert.Spec.catIota
  rfl

/-- The rest of the graph convolution: the product's rows gathered at the sources, scaled by the factors as a column, added up at the
    targets, plus the bias on every row. -/
theorem A10_v194 (W : Valuation τ sig (Elt F)) :
    StableHlo.after opsA10 W (Proc.devRef .tc main_v194) = Cert.Spec.convTail (W (Proc.devRef .tc main_v152)) (W (Proc.devRef .tc main_v154)) (W (Proc.devRef .tc main_v155)) (broadcastInDim S1700000x1 ![0] Cert.ReferenceIdeal.Facts₀.bcast_S1700000_S1700000x1_0 (W (Proc.devRef .tc main_v178))) (W (Proc.devRef .tc main_v151)) := by
  after_results_simp
  unfold Cert.Spec.convTail Cert.Spec.wrapIdx
  rfl

/-- The third layer's activation and norm, with row 1 of the stacked scales and shifts. -/
theorem A11_v223 (W : Valuation τ sig (Elt F)) :
    StableHlo.after opsA11 W (Proc.devRef .tc main_v223) = Cert.Spec.lnOps (W (Proc.devRef .tc main_v194)) (Cert.Spec.rowOf (Cert.Spec.vec1 (W (Proc.devRef .tc main_arg9)))) (Cert.Spec.rowOf (Cert.Spec.vec1 (W (Proc.devRef .tc main_arg10)))) := by
  after_results_simp
  unfold Cert.Spec.lnOps Cert.Spec.rowOf Cert.Spec.vec1
  rfl

/-- The rows of each graph added up and divided by the graph's size (at least one), then the three affine maps. -/
theorem A12_v247 (W : Valuation τ sig (Elt F)) :
    StableHlo.after opsA12 W (Proc.devRef .tc main_v247) = Cert.Spec.logitsOps (Cert.Spec.meanDiv (Cert.Spec.poolOps (W (Proc.devRef .tc main_v223)) (Cert.Spec.colOf (W (Proc.devRef .tc main_arg2)))) (W (Proc.devRef .tc main_arg2))) (W (Proc.devRef .tc main_arg11)) (Cert.Spec.row256 (W (Proc.devRef .tc main_arg12))) (W (Proc.devRef .tc main_arg13)) (Cert.Spec.rowOf (W (Proc.devRef .tc main_arg14))) (W (Proc.devRef .tc main_arg15)) (Cert.Spec.row8 (W (Proc.devRef .tc main_arg16))) := by
  after_results_simp
  unfold Cert.Spec.logitsOps Cert.Spec.meanDiv Cert.Spec.poolOps Cert.Spec.colOf Cert.Spec.row256 Cert.Spec.rowOf Cert.Spec.row8
  rfl

/-- The logarithm of the softmax over the 8 classes: every row less its maximum, less the logarithm of the sum of the exponentials. -/
theorem A13_v248 (W : Valuation τ sig (Elt F)) :
    StableHlo.after opsA13 W (Proc.devRef .tc main_v248) = Cert.Spec.lsmOps (W (Proc.devRef .tc main_v247)) := by
  after_results_simp
  unfold Cert.Spec.lsmOps
  rfl

end Cert.ReferenceIdeal.RefRun

end
-- ==== Proof.RefWalk.lean ====
/-
  What the reference program's three result buffers hold after its last stretch: the network of Spec.lean at the arguments'
  launch contents. Read back stretch by stretch; a stretch's inputs are the arrays earlier stretches left, which no later operation
  writes again.
-/
import proofs.«415105_j87316685128359_1_alg».proof.Proof.RefFold
import proofs.«415105_j87316685128359_1_alg».proof.Proof.Spec
import proofs.«415105_j87316685128359_1_alg».proof.Proof.RefStretchB

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

/-! ## What each stretch writes

Every operation writes one buffer. A stretch's written buffers, listed; a buffer not on the list keeps its contents through the
stretch. -/

/-- The buffers stretch 0 writes. -/
abbrev opsA0_W : List (Ref sig .tc) :=
  [main_v0, main_v1, main_v2, main_v3, main_v4, main_v5]
theorem opsA0_writes : (opsA0 : List (HloOp τ sig (Elt F))).Forall fun op =>
    op.writes ⊆ (opsA0_W.map (Proc.devRef (τ := τ) .tc)).toFinset := by
  simp only [List.Forall]
  refine ⟨?_, ?_, ?_, ?_, ?_, ?_⟩ <;>
    (simp only [nullary_writes, unary_writes, binary_writes, ternary_writes, reshape_writes, Finset.singleton_subset_iff,
      List.mem_toFinset]; exact List.mem_map_of_mem (by decide))
theorem keep0 (W : Valuation τ sig (Elt F)) (r : Ref sig .tc) (h : r ∉ opsA0_W) :
    after opsA0 W (Proc.devRef .tc r) = W (Proc.devRef .tc r) := after_of_writes_sub opsA0 W opsA0_writes h

/-- The buffers stretch 1 writes. -/
abbrev opsA1_W : List (Ref sig .tc) :=
  [main_v6, main_v7, main_cst, main_v8, main_cst_0, main_v9, main_v10, main_v11, main_cst_1, main_v12, main_v13,
   main_v14, main_cst_2, main_call0_v0, main_call0_v1, main_v15, main_c, main_v16, main_v17, main_c_3, main_v18,
   main_v19, main_v20, main_v21, main_v22, main_c_4, main_v23, main_v24, main_c_5, main_v25, main_v26, main_v27,
   main_v28, main_v29, main_v30]
theorem opsA1_writes : (opsA1 : List (HloOp τ sig (Elt F))).Forall fun op =>
    op.writes ⊆ (opsA1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))
theorem keep1 (W : Valuation τ sig (Elt F)) (r : Ref sig .tc) (h : r ∉ opsA1_W) :
    after opsA1 W (Proc.devRef .tc r) = W (Proc.devRef .tc r) := after_of_writes_sub opsA1 W opsA1_writes h

/-- The buffers stretch 2 writes. -/
abbrev opsA2_W : List (Ref sig .tc) :=
  [main_c_6, main_v31, main_v32, main_c_7, main_v33, main_v34, main_v35, main_v36, main_v37, main_v38, main_v39,
   main_v40, main_cst_8, main_v41, main_v42, main_v43, main_v44, main_v45, main_v46]
theorem opsA2_writes : (opsA2 : List (HloOp τ sig (Elt F))).Forall fun op =>
    op.writes ⊆ (opsA2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))
theorem keep2 (W : Valuation τ sig (Elt F)) (r : Ref sig .tc) (h : r ∉ opsA2_W) :
    after opsA2 W (Proc.devRef .tc r) = W (Proc.devRef .tc r) := after_of_writes_sub opsA2 W opsA2_writes h

/-- The buffers stretch 3 writes. -/
abbrev opsA3_W : List (Ref sig .tc) :=
  [main_call1_cst, main_call1_v0, main_v47, main_cst_9, main_v48, main_v49, main_cst_10, main_v50, main_v51, main_v52,
   main_v53, main_v54, main_cst_11, main_v55, main_v56, main_cst_12, main_v57, main_v58, main_v59, main_v60,
   main_cst_13, main_v61, main_v62, main_v63, main_v64, main_v65, main_v66, main_v67, main_v68, main_v69, main_v70,
   main_v71, main_v72, main_v73, main_v74, main_v75]
theorem opsA3_writes : (opsA3 : List (HloOp τ sig (Elt F))).Forall fun op =>
    op.writes ⊆ (opsA3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))
theorem keep3 (W : Valuation τ sig (Elt F)) (r : Ref sig .tc) (h : r ∉ opsA3_W) :
    after opsA3 W (Proc.devRef .tc r) = W (Proc.devRef .tc r) := after_of_writes_sub opsA3 W opsA3_writes h

/-- The buffers stretch 4 writes. -/
abbrev opsA4_W : List (Ref sig .tc) :=
  [main_v76, main_v77]
theorem opsA4_writes : (opsA4 : List (HloOp τ sig (Elt F))).Forall fun op =>
    op.writes ⊆ (opsA4_W.map (Proc.devRef (τ := τ) .tc)).toFinset := by
  simp only [List.Forall]
  refine ⟨?_, ?_⟩ <;>
    (simp only [nullary_writes, unary_writes, binary_writes, ternary_writes, reshape_writes, Finset.singleton_subset_iff,
      List.mem_toFinset]; exact List.mem_map_of_mem (by decide))
theorem keep4 (W : Valuation τ sig (Elt F)) (r : Ref sig .tc) (h : r ∉ opsA4_W) :
    after opsA4 W (Proc.devRef .tc r) = W (Proc.devRef .tc r) := after_of_writes_sub opsA4 W opsA4_writes h

/-- The buffers stretch 5 writes. -/
abbrev opsA5_W : List (Ref sig .tc) :=
  [main_v78, main_v79, main_cst_14, main_v80, main_cst_15, main_v81, main_v82, main_v83, main_cst_16, main_v84,
   main_v85, main_v86, main_cst_17, main_call2_v0, main_call2_v1, main_v87, main_c_18, main_v88, main_v89, main_c_19,
   main_v90, main_v91, main_v92, main_v93, main_v94, main_c_20, main_v95, main_v96, main_c_21, main_v97, main_v98,
   main_v99, main_v100, main_v101, main_v102]
theorem opsA5_writes : (opsA5 : List (HloOp τ sig (Elt F))).Forall fun op =>
    op.writes ⊆ (opsA5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))
theorem keep5 (W : Valuation τ sig (Elt F)) (r : Ref sig .tc) (h : r ∉ opsA5_W) :
    after opsA5 W (Proc.devRef .tc r) = W (Proc.devRef .tc r) := after_of_writes_sub opsA5 W opsA5_writes h

/-- The buffers stretch 6 writes. -/
abbrev opsA6_W : List (Ref sig .tc) :=
  [main_c_22, main_v103, main_v104, main_c_23, main_v105, main_v106, main_v107, main_v108, main_v109, main_v110,
   main_v111, main_v112, main_cst_24, main_v113, main_v114, main_v115, main_v116, main_v117, main_v118]
theorem opsA6_writes : (opsA6 : List (HloOp τ sig (Elt F))).Forall fun op =>
    op.writes ⊆ (opsA6_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))
theorem keep6 (W : Valuation τ sig (Elt F)) (r : Ref sig .tc) (h : r ∉ opsA6_W) :
    after opsA6 W (Proc.devRef .tc r) = W (Proc.devRef .tc r) := after_of_writes_sub opsA6 W opsA6_writes h

/-- The buffers stretch 7 writes. -/
abbrev opsA7_W : List (Ref sig .tc) :=
  [main_call3_cst, main_call3_v0, main_v119, main_v120, main_v121, main_v122, main_v123, main_cst_25, main_v124,
   main_v125, main_cst_26, main_v126, main_v127, main_v128, main_v129, main_v130, main_cst_27, main_v131, main_v132,
   main_cst_28, main_v133, main_v134, main_v135, main_v136, main_cst_29, main_v137, main_v138, main_v139, main_v140,
   main_v141, main_v142, main_v143, main_v144, main_v145, main_v146, main_v147, main_v148, main_v149, main_v150,
   main_v151]
theorem opsA7_writes : (opsA7 : List (HloOp τ sig (Elt F))).Forall fun op =>
    op.writes ⊆ (opsA7_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))
theorem keep7 (W : Valuation τ sig (Elt F)) (r : Ref sig .tc) (h : r ∉ opsA7_W) :
    after opsA7 W (Proc.devRef .tc r) = W (Proc.devRef .tc r) := after_of_writes_sub opsA7 W opsA7_writes h

/-- The buffers stretch 8 writes. -/
abbrev opsA8_W : List (Ref sig .tc) :=
  [main_v152, main_v153]
theorem opsA8_writes : (opsA8 : List (HloOp τ sig (Elt F))).Forall fun op =>
    op.writes ⊆ (opsA8_W.map (Proc.devRef (τ := τ) .tc)).toFinset := by
  simp only [List.Forall]
  refine ⟨?_, ?_⟩ <;>
    (simp only [nullary_writes, unary_writes, binary_writes, ternary_writes, reshape_writes, Finset.singleton_subset_iff,
      List.mem_toFinset]; exact List.mem_map_of_mem (by decide))
theorem keep8 (W : Valuation τ sig (Elt F)) (r : Ref sig .tc) (h : r ∉ opsA8_W) :
    after opsA8 W (Proc.devRef .tc r) = W (Proc.devRef .tc r) := after_of_writes_sub opsA8 W opsA8_writes h

/-- The buffers stretch 9 writes. -/
abbrev opsA9_W : List (Ref sig .tc) :=
  [main_v154, main_v155, main_cst_30, main_v156, main_cst_31, main_v157, main_v158, main_v159, main_cst_32, main_v160,
   main_v161, main_v162, main_cst_33, main_call4_v0, main_call4_v1, main_v163, main_c_34, main_v164, main_v165,
   main_c_35, main_v166, main_v167, main_v168, main_v169, main_v170, main_c_36, main_v171, main_v172, main_c_37,
   main_v173, main_v174, main_v175, main_v176, main_v177, main_v178]
theorem opsA9_writes : (opsA9 : List (HloOp τ sig (Elt F))).Forall fun op =>
    op.writes ⊆ (opsA9_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))
theorem keep9 (W : Valuation τ sig (Elt F)) (r : Ref sig .tc) (h : r ∉ opsA9_W) :
    after opsA9 W (Proc.devRef .tc r) = W (Proc.devRef .tc r) := after_of_writes_sub opsA9 W opsA9_writes h

/-- The buffers stretch 10 writes. -/
abbrev opsA10_W : List (Ref sig .tc) :=
  [main_c_38, main_v179, main_v180, main_c_39, main_v181, main_v182, main_v183, main_v184, main_v185, main_v186,
   main_v187, main_v188, main_cst_40, main_v189, main_v190, main_v191, main_v192, main_v193, main_v194]
theorem opsA10_writes : (opsA10 : List (HloOp τ sig (Elt F))).Forall fun op =>
    op.writes ⊆ (opsA10_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))
theorem keep10 (W : Valuation τ sig (Elt F)) (r : Ref sig .tc) (h : r ∉ opsA10_W) :
    after opsA10 W (Proc.devRef .tc r) = W (Proc.devRef .tc r) := after_of_writes_sub opsA10 W opsA10_writes h

/-- The buffers stretch 11 writes. -/
abbrev opsA11_W : List (Ref sig .tc) :=
  [main_call5_cst, main_call5_v0, main_v195, main_v196, main_v197, main_v198, main_v199, main_cst_41, main_v200,
   main_v201, main_cst_42, main_v202, main_v203, main_v204, main_v205, main_v206, main_cst_43, main_v207, main_v208,
   main_cst_44, main_v209, main_v210, main_v211, main_v212, main_cst_45, main_v213, main_v214, main_v215, main_v216,
   main_v217, main_v218, main_v219, main_v220, main_v221, main_v222, main_v223]
theorem opsA11_writes : (opsA11 : List (HloOp τ sig (Elt F))).Forall fun op =>
    op.writes ⊆ (opsA11_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))
theorem keep11 (W : Valuation τ sig (Elt F)) (r : Ref sig .tc) (h : r ∉ opsA11_W) :
    after opsA11 W (Proc.devRef .tc r) = W (Proc.devRef .tc r) := after_of_writes_sub opsA11 W opsA11_writes h

/-- The buffers stretch 12 writes. -/
abbrev opsA12_W : List (Ref sig .tc) :=
  [main_cst_46, main_v224, main_v225, main_v226, main_cst_47, main_v227, main_cst_48, main_v228, main_v229, main_v230,
   main_cst_49, main_v231, main_v232, main_v233, main_v234, main_v235, main_v236, main_v237, main_v238, main_v239,
   main_v240, main_v241, main_v242, main_v243, main_v244, main_v245, main_v246, main_v247]
theorem opsA12_writes : (opsA12 : List (HloOp τ sig (Elt F))).Forall fun op =>
    op.writes ⊆ (opsA12_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))
theorem keep12 (W : Valuation τ sig (Elt F)) (r : Ref sig .tc) (h : r ∉ opsA12_W) :
    after opsA12 W (Proc.devRef .tc r) = W (Proc.devRef .tc r) := after_of_writes_sub opsA12 W opsA12_writes h

/-- The buffers stretch 13 writes. -/
abbrev opsA13_W : List (Ref sig .tc) :=
  [main_call6_cst, main_call6_v0, main_call6_cst_0, main_call6_v1, main_call6_v2, main_call6_v3, main_call6_v4,
   main_call6_v5, main_call6_v6, main_call6_cst_1, main_call6_v7, main_call6_v8, main_call6_v9, main_call6_v10,
   main_v248]
theorem opsA13_writes : (opsA13 : List (HloOp τ sig (Elt F))).Forall fun op =>
    op.writes ⊆ (opsA13_W.map (Proc.devRef (τ := τ) .tc)).toFinset := by
  simp only [List.Forall]
  refine ⟨?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))
theorem keep13 (W : Valuation τ sig (Elt F)) (r : Ref sig .tc) (h : r ∉ opsA13_W) :
    after opsA13 W (Proc.devRef .tc r) = W (Proc.devRef .tc r) := after_of_writes_sub opsA13 W opsA13_writes h

/-! ## The stretches, each at an arbitrary valuation

What a stretch leaves in the buffers later stretches read, as the specification's function of what the stretch itself reads. -/

section Stretches
variable (W : Valuation τ sig (Elt F))

/-- Stretch 0: the two rows of the edge list, the first layer's product, and the node indices. -/
theorem A0_v1 : after opsA0 W (Proc.devRef .tc main_v1) = Cert.Spec.srcOf (W (Proc.devRef .tc main_arg1)) := by
  after_results
  unfold Cert.Spec.srcOf
  rfl
theorem A0_v3 : after opsA0 W (Proc.devRef .tc main_v3) = Cert.Spec.dstOf (W (Proc.devRef .tc main_arg1)) := by
  after_results
  unfold Cert.Spec.dstOf
  rfl
theorem A0_v4 : after opsA0 W (Proc.devRef .tc main_v4) = Cert.Spec.mmOps (W (Proc.devRef .tc main_arg0)) (W (Proc.devRef .tc main_arg3)) := by
  after_results
  unfold Cert.Spec.mmOps
  rfl
theorem A0_v5 : after opsA0 W (Proc.devRef .tc main_v5) = iotaInDim S100000 32 0 := by
  after_results

/-- Stretch 1: the extended edge lists and every extended edge's factor; the self-loops' end points are the node indices. -/
theorem A1_s (h : W (Proc.devRef .tc main_v5) = iotaInDim S100000 32 0) :
    after opsA1 W (Proc.devRef .tc main_v6) = Cert.Spec.catIota (W (Proc.devRef .tc main_v1)) := by
  after_results
  rw [h]
  unfold Cert.Spec.catIota
  rfl
theorem A1_d (h : W (Proc.devRef .tc main_v5) = iotaInDim S100000 32 0) :
    after opsA1 W (Proc.devRef .tc main_v7) = Cert.Spec.catIota (W (Proc.devRef .tc main_v3)) := by
  after_results
  rw [h]
  unfold Cert.Spec.catIota
  rfl
theorem A1_norm (h : W (Proc.devRef .tc main_v5) = iotaInDim S100000 32 0) :
    after opsA1 W (Proc.devRef .tc main_v30)
      = Cert.Spec.normVec (Cert.Spec.catIota (W (Proc.devRef .tc main_v1))) (Cert.Spec.catIota (W (Proc.devRef .tc main_v3))) := by
  after_results_simp
  repeat (rw [binary_result_ne]; rotate_left; decide)
  rw [h]
  unfold Cert.Spec.normVec Cert.Spec.invSqrtDeg Cert.Spec.wrapIdx Cert.Spec.catIota
  simp only [TRef.ofBuf, TRef.toBuf, cast_eq]
  rfl

/-- Stretch 2: the first layer's gather at the sources, scaling, sum at the targets, and bias. -/
theorem A2_conv :
    after opsA2 W (Proc.devRef .tc main_v46)
      = Cert.Spec.convTail (W (Proc.devRef .tc main_v4)) (W (Proc.devRef .tc main_v6)) (W (Proc.devRef .tc main_v7))
          (broadcastInDim S1700000x1 ![0] bcast_S1700000_S1700000x1_0 (W (Proc.devRef .tc main_v30))) (W (Proc.devRef .tc main_arg4)) := by
  after_results_simp
  unfold Cert.Spec.convTail Cert.Spec.wrapIdx
  rfl

/-- Stretch 3: relu and the layer norm of the first layer's output; the second layer's weight matrix and bias, cut out of the stack. -/
theorem A3_ln :
    after opsA3 W (Proc.devRef .tc main_v71)
      = Cert.Spec.lnOps (W (Proc.devRef .tc main_v46)) (Cert.Spec.rowOf (W (Proc.devRef .tc main_arg5))) (Cert.Spec.rowOf (W (Proc.devRef .tc main_arg6))) := by
  after_results_simp
  unfold Cert.Spec.lnOps Cert.Spec.rowOf
  simp only [TRef.ofBuf, TRef.toBuf, cast_eq]
theorem A3_w : after opsA3 W (Proc.devRef .tc main_v73) = Cert.Spec.wc0 (W (Proc.devRef .tc main_arg7)) := by
  after_results_simp
  unfold Cert.Spec.wc0
  rfl
theorem A3_b : after opsA3 W (Proc.devRef .tc main_v75) = Cert.Spec.vec0 (W (Proc.devRef .tc main_arg8)) := by
  after_results_simp
  unfold Cert.Spec.vec0
  rfl

/-- Stretch 4: the second layer's product, and the node indices again. -/
theorem A4_mm : after opsA4 W (Proc.devRef .tc main_v76) = Cert.Spec.mmOps (W (Proc.devRef .tc main_v71)) (W (Proc.devRef .tc main_v73)) := by
  after_results
  unfold Cert.Spec.mmOps
  rfl
theorem A4_iota : after opsA4 W (Proc.devRef .tc main_v77) = iotaInDim S100000 32 0 := by
  after_results

/-- Stretch 5: the extended edge lists and every extended edge's factor again; the self-loops' end points are the node indices. -/
theorem A5_s (h : W (Proc.devRef .tc main_v77) = iotaInDim S100000 32 0) :
    after opsA5 W (Proc.devRef .tc main_v78) = Cert.Spec.catIota (W (Proc.devRef .tc main_v1)) := by
  after_results
  rw [h]
  unfold Cert.Spec.catIota
  rfl
theorem A5_d (h : W (Proc.devRef .tc main_v77) = iotaInDim S100000 32 0) :
    after opsA5 W (Proc.devRef .tc main_v79) = Cert.Spec.catIota (W (Proc.devRef .tc main_v3)) := by
  after_results
  rw [h]
  unfold Cert.Spec.catIota
  rfl
theorem A5_norm (h : W (Proc.devRef .tc main_v77) = iotaInDim S100000 32 0) :
    after opsA5 W (Proc.devRef .tc main_v102)
      = Cert.Spec.normVec (Cert.Spec.catIota (W (Proc.devRef .tc main_v1))) (Cert.Spec.catIota (W (Proc.devRef .tc main_v3))) := by
  after_results_simp
  repeat (rw [binary_result_ne]; rotate_left; decide)
  rw [h]
  unfold Cert.Spec.normVec Cert.Spec.invSqrtDeg Cert.Spec.wrapIdx Cert.Spec.catIota
  simp only [TRef.ofBuf, TRef.toBuf, cast_eq]
  rfl

/-- Stretch 6: the second layer's gather at the sources, scaling, sum at the targets, and bias. -/
theorem A6_conv :
    after opsA6 W (Proc.devRef .tc main_v118)
      = Cert.Spec.convTail (W (Proc.devRef .tc main_v76)) (W (Proc.devRef .tc main_v78)) (W (Proc.devRef .tc main_v79))
          (broadcastInDim S1700000x1 ![0] bcast_S1700000_S1700000x1_0 (W (Proc.devRef .tc main_v102))) (W (Proc.devRef .tc main_v75)) := by
  after_results_simp
  unfold Cert.Spec.convTail Cert.Spec.wrapIdx
  rfl

end Stretches

/-! ## The walk from the launch

Core `c`'s buffers after each stretch, at the buffers later stretches read. A stretch's own results come from its lemma (above for the stretches up to 6, in the
module of the later stretches from 7 on) at the contents the stretches before it left; everything else is carried: no stretch writes a buffer written before it, nor an argument. -/

section Walk
variable (m : (ℓ : Loc nD τ sig) → Buf (Elt F) ℓ) (c : Dev nD)

/-- The program's arguments. -/
abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16]

theorem arg_nw0 : ∀ b ∈ (argRefs : List (Ref sig .tc)), b ∉ opsA0_W := by decide
theorem arg_nw1 : ∀ b ∈ (argRefs : List (Ref sig .tc)), b ∉ opsA1_W := by decide
theorem arg_nw2 : ∀ b ∈ (argRefs : List (Ref sig .tc)), b ∉ opsA2_W := by decide
theorem arg_nw3 : ∀ b ∈ (argRefs : List (Ref sig .tc)), b ∉ opsA3_W := by decide
theorem arg_nw4 : ∀ b ∈ (argRefs : List (Ref sig .tc)), b ∉ opsA4_W := by decide
theorem arg_nw5 : ∀ b ∈ (argRefs : List (Ref sig .tc)), b ∉ opsA5_W := by decide
theorem arg_nw6 : ∀ b ∈ (argRefs : List (Ref sig .tc)), b ∉ opsA6_W := by decide
theorem arg_nw7 : ∀ b ∈ (argRefs : List (Ref sig .tc)), b ∉ opsA7_W := by decide
theorem arg_nw8 : ∀ b ∈ (argRefs : List (Ref sig .tc)), b ∉ opsA8_W := by decide
theorem arg_nw9 : ∀ b ∈ (argRefs : List (Ref sig .tc)), b ∉ opsA9_W := by decide
theorem arg_nw10 : ∀ b ∈ (argRefs : List (Ref sig .tc)), b ∉ opsA10_W := by decide
theorem arg_nw11 : ∀ b ∈ (argRefs : List (Ref sig .tc)), b ∉ opsA11_W := by decide
theorem arg_nw12 : ∀ b ∈ (argRefs : List (Ref sig .tc)), b ∉ opsA12_W := by decide
theorem arg_nw13 : ∀ b ∈ (argRefs : List (Ref sig .tc)), b ∉ opsA13_W := by decide

/-- An argument's buffer holds its launch contents after every stretch. -/
theorem M0_arg (b : Ref sig .tc) : M0 m c (Proc.devRef .tc b) = m ((c.tc : Thread nD τ).loc b) := rfl
theorem M1_arg (b : Ref sig .tc) (hb : b ∈ (argRefs : List (Ref sig .tc))) :
    M1 m c (Proc.devRef .tc b) = m ((c.tc : Thread nD τ).loc b) :=
  (keep0 (M0 m c) b (arg_nw0 b hb)).trans (M0_arg m c b)
theorem M2_arg (b : Ref sig .tc) (hb : b ∈ (argRefs : List (Ref sig .tc))) :
    M2 m c (Proc.devRef .tc b) = m ((c.tc : Thread nD τ).loc b) :=
  (keep1 (M1 m c) b (arg_nw1 b hb)).trans (M1_arg m c b hb)
theorem M3_arg (b : Ref sig .tc) (hb : b ∈ (argRefs : List (Ref sig .tc))) :
    M3 m c (Proc.devRef .tc b) = m ((c.tc : Thread nD τ).loc b) :=
  (keep2 (M2 m c) b (arg_nw2 b hb)).trans (M2_arg m c b hb)
theorem M4_arg (b : Ref sig .tc) (hb : b ∈ (argRefs : List (Ref sig .tc))) :
    M4 m c (Proc.devRef .tc b) = m ((c.tc : Thread nD τ).loc b) :=
  (keep3 (M3 m c) b (arg_nw3 b hb)).trans (M3_arg m c b hb)
theorem M5_arg (b : Ref sig .tc) (hb : b ∈ (argRefs : List (Ref sig .tc))) :
    M5 m c (Proc.devRef .tc b) = m ((c.tc : Thread nD τ).loc b) :=
  (keep4 (M4 m c) b (arg_nw4 b hb)).trans (M4_arg m c b hb)
theorem M6_arg (b : Ref sig .tc) (hb : b ∈ (argRefs : List (Ref sig .tc))) :
    M6 m c (Proc.devRef .tc b) = m ((c.tc : Thread nD τ).loc b) :=
  (keep5 (M5 m c) b (arg_nw5 b hb)).trans (M5_arg m c b hb)
theorem M7_arg (b : Ref sig .tc) (hb : b ∈ (argRefs : List (Ref sig .tc))) :
    M7 m c (Proc.devRef .tc b) = m ((c.tc : Thread nD τ).loc b) :=
  (keep6 (M6 m c) b (arg_nw6 b hb)).trans (M6_arg m c b hb)
theorem M8_arg (b : Ref sig .tc) (hb : b ∈ (argRefs : List (Ref sig .tc))) :
    M8 m c (Proc.devRef .tc b) = m ((c.tc : Thread nD τ).loc b) :=
  (keep7 (M7 m c) b (arg_nw7 b hb)).trans (M7_arg m c b hb)
theorem M9_arg (b : Ref sig .tc) (hb : b ∈ (argRefs : List (Ref sig .tc))) :
    M9 m c (Proc.devRef .tc b) = m ((c.tc : Thread nD τ).loc b) :=
  (keep8 (M8 m c) b (arg_nw8 b hb)).trans (M8_arg m c b hb)
theorem M10_arg (b : Ref sig .tc) (hb : b ∈ (argRefs : List (Ref sig .tc))) :
    M10 m c (Proc.devRef .tc b) = m ((c.tc : Thread nD τ).loc b) :=
  (keep9 (M9 m c) b (arg_nw9 b hb)).trans (M9_arg m c b hb)
theorem M11_arg (b : Ref sig .tc) (hb : b ∈ (argRefs : List (Ref sig .tc))) :
    M11 m c (Proc.devRef .tc b) = m ((c.tc : Thread nD τ).loc b) :=
  (keep10 (M10 m c) b (arg_nw10 b hb)).trans (M10_arg m c b hb)
theorem M12_arg (b : Ref sig .tc) (hb : b ∈ (argRefs : List (Ref sig .tc))) :
    M12 m c (Proc.devRef .tc b) = m ((c.tc : Thread nD τ).loc b) :=
  (keep11 (M11 m c) b (arg_nw11 b hb)).trans (M11_arg m c b hb)
theorem M13_arg (b : Ref sig .tc) (hb : b ∈ (argRefs : List (Ref sig .tc))) :
    M13 m c (Proc.devRef .tc b) = m ((c.tc : Thread nD τ).loc b) :=
  (keep12 (M12 m c) b (arg_nw12 b hb)).trans (M12_arg m c b hb)
theorem M14_arg' (b : Ref sig .tc) (hb : b ∈ (argRefs : List (Ref sig .tc))) :
    M14 m c (Proc.devRef .tc b) = m ((c.tc : Thread nD τ).loc b) :=
  (keep13 (M13 m c) b (arg_nw13 b hb)).trans (M13_arg m c b hb)

set_option quotPrecheck false in
local notation "a₀" => m ((c.tc : Thread nD τ).loc main_arg0)
set_option quotPrecheck false in
local notation "a₁" => m ((c.tc : Thread nD τ).loc main_arg1)
set_option quotPrecheck false in
local notation "a₂" => m ((c.tc : Thread nD τ).loc main_arg2)
set_option quotPrecheck false in
local notation "a₃" => m ((c.tc : Thread nD τ).loc main_arg3)
set_option quotPrecheck false in
local notation "a₄" => m ((c.tc : Thread nD τ).loc main_arg4)
set_option quotPrecheck false in
local notation "a₅" => m ((c.tc : Thread nD τ).loc main_arg5)
set_option quotPrecheck false in
local notation "a₆" => m ((c.tc : Thread nD τ).loc main_arg6)
set_option quotPrecheck false in
local notation "a₇" => m ((c.tc : Thread nD τ).loc main_arg7)
set_option quotPrecheck false in
local notation "a₈" => m ((c.tc : Thread nD τ).loc main_arg8)
set_option quotPrecheck false in
local notation "a₉" => m ((c.tc : Thread nD τ).loc main_arg9)
set_option quotPrecheck false in
local notation "a₁₀" => m ((c.tc : Thread nD τ).loc main_arg10)
set_option quotPrecheck false in
local notation "a₁₁" => m ((c.tc : Thread nD τ).loc main_arg11)
set_option quotPrecheck false in
local notation "a₁₂" => m ((c.tc : Thread nD τ).loc main_arg12)
set_option quotPrecheck false in
local notation "a₁₃" => m ((c.tc : Thread nD τ).loc main_arg13)
set_option quotPrecheck false in
local notation "a₁₄" => m ((c.tc : Thread nD τ).loc main_arg14)
set_option quotPrecheck false in
local notation "a₁₅" => m ((c.tc : Thread nD τ).loc main_arg15)
set_option quotPrecheck false in
local notation "a₁₆" => m ((c.tc : Thread nD τ).loc main_arg16)

/-! ### After stretch 0 -/
theorem M1_v1 : M1 m c (Proc.devRef .tc main_v1) = Cert.Spec.srcOf a₁ := by
  show after opsA0 (M0 m c) _ = _
  rw [A0_v1, M0_arg]
theorem M1_v3 : M1 m c (Proc.devRef .tc main_v3) = Cert.Spec.dstOf a₁ := by
  show after opsA0 (M0 m c) _ = _
  rw [A0_v3, M0_arg]
theorem M1_v4 : M1 m c (Proc.devRef .tc main_v4) = Cert.Spec.mmOps a₀ a₃ := by
  show after opsA0 (M0 m c) _ = _
  rw [A0_v4, M0_arg, M0_arg]
theorem M1_v5 : M1 m c (Proc.devRef .tc main_v5) = iotaInDim S100000 32 0 := A0_v5 (M0 m c)

/-! ### The first layer -/
theorem M2_s : M2 m c (Proc.devRef .tc main_v6) = Cert.Spec.sIdx a₁ := by
  show after opsA1 (M1 m c) _ = _
  rw [A1_s (M1 m c) (M1_v5 m c), M1_v1]
  rfl
theorem M2_d : M2 m c (Proc.devRef .tc main_v7) = Cert.Spec.dIdx a₁ := by
  show after opsA1 (M1 m c) _ = _
  rw [A1_d (M1 m c) (M1_v5 m c), M1_v3]
  rfl
theorem M2_norm : M2 m c (Proc.devRef .tc main_v30) = Cert.Spec.normVec (F := F) (Cert.Spec.sIdx a₁) (Cert.Spec.dIdx a₁) := by
  show after opsA1 (M1 m c) _ = _
  rw [A1_norm (M1 m c) (M1_v5 m c), M1_v1, M1_v3]
  rfl
theorem M2_v4 : M2 m c (Proc.devRef .tc main_v4) = Cert.Spec.mmOps a₀ a₃ :=
  (keep1 (M1 m c) main_v4 (by decide)).trans (M1_v4 m c)
theorem M3_conv : M3 m c (Proc.devRef .tc main_v46) = Cert.Spec.conv1 a₀ a₁ a₃ a₄ := by
  show after opsA2 (M2 m c) _ = _
  rw [A2_conv, M2_v4, M2_s, M2_d, M2_norm, M2_arg m c main_arg4 (by decide)]
  unfold Cert.Spec.conv1 Cert.Spec.ncol Cert.Spec.normCol
  rfl
theorem M4_h : M4 m c (Proc.devRef .tc main_v71) = Cert.Spec.h1 a₀ a₁ a₃ a₄ a₅ a₆ := by
  show after opsA3 (M3 m c) _ = _
  rw [A3_ln, M3_conv, M3_arg m c main_arg5 (by decide), M3_arg m c main_arg6 (by decide)]
  unfold Cert.Spec.h1
  rfl
theorem M4_w : M4 m c (Proc.devRef .tc main_v73) = Cert.Spec.wc0 a₇ := by
  show after opsA3 (M3 m c) _ = _
  rw [A3_w, M3_arg m c main_arg7 (by decide)]
theorem M4_b : M4 m c (Proc.devRef .tc main_v75) = Cert.Spec.vec0 a₈ := by
  show after opsA3 (M3 m c) _ = _
  rw [A3_b, M3_arg m c main_arg8 (by decide)]

/-! ### The second layer -/
theorem M5_v1 : M5 m c (Proc.devRef .tc main_v1) = Cert.Spec.srcOf a₁ :=
  (keep4 (M4 m c) main_v1 (by decide)).trans ((keep3 (M3 m c) main_v1 (by decide)).trans ((keep2 (M2 m c) main_v1 (by decide)).trans ((keep1 (M1 m c) main_v1 (by decide)).trans (M1_v1 m c))))
theorem M5_v3 : M5 m c (Proc.devRef .tc main_v3) = Cert.Spec.dstOf a₁ :=
  (keep4 (M4 m c) main_v3 (by decide)).trans ((keep3 (M3 m c) main_v3 (by decide)).trans ((keep2 (M2 m c) main_v3 (by decide)).trans ((keep1 (M1 m c) main_v3 (by decide)).trans (M1_v3 m c))))
theorem M5_mm : M5 m c (Proc.devRef .tc main_v76) = Cert.Spec.mmOps (Cert.Spec.h1 a₀ a₁ a₃ a₄ a₅ a₆) (Cert.Spec.wc0 a₇) := by
  show after opsA4 (M4 m c) _ = _
  rw [A4_mm, M4_h, M4_w]
theorem M5_iota : M5 m c (Proc.devRef .tc main_v77) = iotaInDim S100000 32 0 := A4_iota (M4 m c)
theorem M6_s : M6 m c (Proc.devRef .tc main_v78) = Cert.Spec.sIdx a₁ := by
  show after opsA5 (M5 m c) _ = _
  rw [A5_s (M5 m c) (M5_iota m c), M5_v1]
  rfl
theorem M6_d : M6 m c (Proc.devRef .tc main_v79) = Cert.Spec.dIdx a₁ := by
  show after opsA5 (M5 m c) _ = _
  rw [A5_d (M5 m c) (M5_iota m c), M5_v3]
  rfl
theorem M6_norm : M6 m c (Proc.devRef .tc main_v102) = Cert.Spec.normVec (F := F) (Cert.Spec.sIdx a₁) (Cert.Spec.dIdx a₁) := by
  show after opsA5 (M5 m c) _ = _
  rw [A5_norm (M5 m c) (M5_iota m c), M5_v1, M5_v3]
  rfl
theorem M6_mm : M6 m c (Proc.devRef .tc main_v76) = Cert.Spec.mmOps (Cert.Spec.h1 a₀ a₁ a₃ a₄ a₅ a₆) (Cert.Spec.wc0 a₇) :=
  (keep5 (M5 m c) main_v76 (by decide)).trans (M5_mm m c)
theorem M6_b : M6 m c (Proc.devRef .tc main_v75) = Cert.Spec.vec0 a₈ :=
  (keep5 (M5 m c) main_v75 (by decide)).trans ((keep4 (M4 m c) main_v75 (by decide)).trans (M4_b m c))
theorem M7_conv : M7 m c (Proc.devRef .tc main_v118) = Cert.Spec.conv2 a₀ a₁ a₃ a₄ a₅ a₆ a₇ a₈ := by
  show after opsA6 (M6 m c) _ = _
  rw [A6_conv, M6_mm, M6_s, M6_d, M6_norm, M6_b]
  unfold Cert.Spec.conv2 Cert.Spec.ncol Cert.Spec.normCol
  rfl
theorem M8_h : M8 m c (Proc.devRef .tc main_v147) = Cert.Spec.h2 a₀ a₁ a₃ a₄ a₅ a₆ a₇ a₈ a₉ a₁₀ := by
  show after opsA7 (M7 m c) _ = _
  rw [A7_v147, M7_conv, M7_arg m c main_arg9 (by decide), M7_arg m c main_arg10 (by decide)]
  unfold Cert.Spec.h2
  rfl
theorem M8_w : M8 m c (Proc.devRef .tc main_v149) = Cert.Spec.wc1 a₇ := by
  show after opsA7 (M7 m c) _ = _
  rw [A7_v149, M7_arg m c main_arg7 (by decide)]
theorem M8_b : M8 m c (Proc.devRef .tc main_v151) = Cert.Spec.vec1 a₈ := by
  show after opsA7 (M7 m c) _ = _
  rw [A7_v151, M7_arg m c main_arg8 (by decide)]

/-! ### The third layer: the first result -/
theorem M9_v1 : M9 m c (Proc.devRef .tc main_v1) = Cert.Spec.srcOf a₁ :=
  (keep8 (M8 m c) main_v1 (by decide)).trans ((keep7 (M7 m c) main_v1 (by decide)).trans ((keep6 (M6 m c) main_v1 (by decide)).trans ((keep5 (M5 m c) main_v1 (by decide)).trans (M5_v1 m c))))
theorem M9_v3 : M9 m c (Proc.devRef .tc main_v3) = Cert.Spec.dstOf a₁ :=
  (keep8 (M8 m c) main_v3 (by decide)).trans ((keep7 (M7 m c) main_v3 (by decide)).trans ((keep6 (M6 m c) main_v3 (by decide)).trans ((keep5 (M5 m c) main_v3 (by decide)).trans (M5_v3 m c))))
theorem M9_mm : M9 m c (Proc.devRef .tc main_v152) = Cert.Spec.mmOps (Cert.Spec.h2 a₀ a₁ a₃ a₄ a₅ a₆ a₇ a₈ a₉ a₁₀) (Cert.Spec.wc1 a₇) := by
  show after opsA8 (M8 m c) _ = _
  rw [A8_v152, M8_h, M8_w]
theorem M9_iota : M9 m c (Proc.devRef .tc main_v153) = iotaInDim S100000 32 0 := A8_v153 (M8 m c)
theorem M10_s : M10 m c (Proc.devRef .tc main_v154) = Cert.Spec.sIdx a₁ := by
  show after opsA9 (M9 m c) _ = _
  rw [A9_v154 (M9 m c) (M9_iota m c), M9_v1]
  rfl
theorem M10_d : M10 m c (Proc.devRef .tc main_v155) = Cert.Spec.dIdx a₁ := by
  show after opsA9 (M9 m c) _ = _
  rw [A9_v155 (M9 m c) (M9_iota m c), M9_v3]
  rfl
theorem M10_norm : M10 m c (Proc.devRef .tc main_v178) = Cert.Spec.normVec (F := F) (Cert.Spec.sIdx a₁) (Cert.Spec.dIdx a₁) := by
  show after opsA9 (M9 m c) _ = _
  rw [A9_v178 (M9 m c) (M9_iota m c), M9_v1, M9_v3]
  rfl
theorem M10_mm : M10 m c (Proc.devRef .tc main_v152) = Cert.Spec.mmOps (Cert.Spec.h2 a₀ a₁ a₃ a₄ a₅ a₆ a₇ a₈ a₉ a₁₀) (Cert.Spec.wc1 a₇) :=
  (keep9 (M9 m c) main_v152 (by decide)).trans (M9_mm m c)
theorem M10_b : M10 m c (Proc.devRef .tc main_v151) = Cert.Spec.vec1 a₈ :=
  (keep9 (M9 m c) main_v151 (by decide)).trans ((keep8 (M8 m c) main_v151 (by decide)).trans (M8_b m c))
theorem M11_emb : M11 m c (Proc.devRef .tc main_v194) = Cert.Spec.emb a₀ a₁ a₃ a₄ a₅ a₆ a₇ a₈ a₉ a₁₀ := by
  show after opsA10 (M10 m c) _ = _
  rw [A10_v194, M10_mm, M10_s, M10_d, M10_norm, M10_b]
  unfold Cert.Spec.emb Cert.Spec.ncol Cert.Spec.normCol
  rfl

/-! ### Pooling and the three affine maps: the second result; its log-softmax: the third -/
theorem M12_h : M12 m c (Proc.devRef .tc main_v223) = Cert.Spec.h3 a₀ a₁ a₃ a₄ a₅ a₆ a₇ a₈ a₉ a₁₀ := by
  show after opsA11 (M11 m c) _ = _
  rw [A11_v223, M11_emb, M11_arg m c main_arg9 (by decide), M11_arg m c main_arg10 (by decide)]
  unfold Cert.Spec.h3
  rfl
theorem M13_logits : M13 m c (Proc.devRef .tc main_v247) = Cert.Spec.logits a₀ a₁ a₂ a₃ a₄ a₅ a₆ a₇ a₈ a₉ a₁₀ a₁₁ a₁₂ a₁₃ a₁₄ a₁₅ a₁₆ := by
  show after opsA12 (M12 m c) _ = _
  rw [A12_v247, M12_h, M12_arg m c main_arg2 (by decide),
    M12_arg m c main_arg11 (by decide),
    M12_arg m c main_arg12 (by decide),
    M12_arg m c main_arg13 (by decide),
    M12_arg m c main_arg14 (by decide),
    M12_arg m c main_arg15 (by decide),
    M12_arg m c main_arg16 (by decide)]
  unfold Cert.Spec.logits Cert.Spec.pooled
  rfl
theorem M14_probs' : M14 m c (Proc.devRef .tc main_v248) = Cert.Spec.probs a₀ a₁ a₂ a₃ a₄ a₅ a₆ a₇ a₈ a₉ a₁₀ a₁₁ a₁₂ a₁₃ a₁₄ a₁₅ a₁₆ := by
  show after opsA13 (M13 m c) _ = _
  rw [A13_v248, M13_logits]
  unfold Cert.Spec.probs
  rfl
theorem M14_logits' : M14 m c (Proc.devRef .tc main_v247) = Cert.Spec.logits a₀ a₁ a₂ a₃ a₄ a₅ a₆ a₇ a₈ a₉ a₁₀ a₁₁ a₁₂ a₁₃ a₁₄ a₁₅ a₁₆ :=
  (keep13 (M13 m c) main_v247 (by decide)).trans (M13_logits m c)
theorem M14_emb' : M14 m c (Proc.devRef .tc main_v194) = Cert.Spec.emb a₀ a₁ a₃ a₄ a₅ a₆ a₇ a₈ a₉ a₁₀ :=
  (keep13 (M13 m c) main_v194 (by decide)).trans ((keep12 (M12 m c) main_v194 (by decide)).trans ((keep11 (M11 m c) main_v194 (by decide)).trans (M11_emb m c)))

end Walk

variable (m : (ℓ : Loc nD τ sig) → Buf (Elt F) ℓ)

theorem M14_emb (c : Dev nD) :
    M14 m c (Proc.devRef .tc main_v194) = Cert.Spec.emb (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  M14_emb' m c

theorem M14_logits (c : Dev nD) :
    M14 m c (Proc.devRef .tc main_v247) = Cert.Spec.logits (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  M14_logits' m c

theorem M14_probs (c : Dev nD) :
    M14 m c (Proc.devRef .tc main_v248) = Cert.Spec.probs (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  M14_probs' m c

/-- No operation writes an argument. -/
theorem M14_arg (c : Dev nD) (b : Ref sig .tc)
    (hb : b ∈ [main_arg0, main_arg1, main_arg2, main_arg3, main_arg4, main_arg5, main_arg6, main_arg7, main_arg8, main_arg9, main_arg10,
      main_arg11, main_arg12, main_arg13, main_arg14, main_arg15, main_arg16]) :
    M14 m c (Proc.devRef .tc b) = m ((c.tc : Thread nD τ).loc b) :=
  M14_arg' m c b hb

end Cert.ReferenceIdeal.RefRun

end
-- ==== Proof.lean ====
/-
  Two programs for a three-layer graph convolution network with a mean-pool and a three-map head: one with its dense products,
  its relu + layer norms, its pooling and its head in eight TensorCore kernels among host operations, one in plain array operations.
  Over the extended reals they compute the same three arrays (the last layer's output, the logits, their log-softmax), because stage
  by stage they are the same functions: a kernel's product of 5000-row tiles with a weight matrix is the rows of the whole product; a
  row's layer norm depends on that row alone; adding up, tile after tile, an indicator matrix times the rows is the sum of the rows
  of each graph, rows with a graph index outside 0 … 63 counted by neither program; and the head is the same operations on whole
  blocks. No law is used that fails at an infinity, so the inputs' finiteness is never opened.

  Spec.lean states the network once; KernelRun / KChain give the kernel program's run and results as that network, RefRunSeq /
  RefWalk the reference's. The kernel programs' frames are the generated ones; the reference's is its run with the results dropped.
-/
import proofs.«415105_j87316685128359_1_alg».proof.Defs
import proofs.«415105_j87316685128359_1_alg».proof.Proof.Gen.Kernel
import proofs.«415105_j87316685128359_1_alg».proof.Proof.Gen.Kernel.Skeleton
import proofs.«415105_j87316685128359_1_alg».proof.Proof.Gen.Kernel.Launch
import proofs.«415105_j87316685128359_1_alg».proof.Proof.Gen.Kernel.Points
import proofs.«415105_j87316685128359_1_alg».proof.Proof.Gen.Kernel.Frame
import proofs.«415105_j87316685128359_1_alg».proof.Proof.Gen.KernelIdeal
import proofs.«415105_j87316685128359_1_alg».proof.Proof.Gen.KernelIdeal.Skeleton
import proofs.«415105_j87316685128359_1_alg».proof.Proof.Gen.KernelIdeal.Launch
import proofs.«415105_j87316685128359_1_alg».proof.Proof.Gen.KernelIdeal.Points
import proofs.«415105_j87316685128359_1_alg».proof.Proof.Gen.KernelIdeal.Frame
import proofs.«415105_j87316685128359_1_alg».proof.Proof.Gen.ReferenceIdeal
import proofs.«415105_j87316685128359_1_alg».proof.Proof.Gen.Pre_finite_inputs
import proofs.«415105_j87316685128359_1_alg».proof.Proof.KernelRun
import proofs.«415105_j87316685128359_1_alg».proof.Proof.KChain
import proofs.«415105_j87316685128359_1_alg».proof.Proof.RefRunSeq
import proofs.«415105_j87316685128359_1_alg».proof.Proof.RefWalk
import Idealize.ShloMosaic.Adequacy
import Idealize.ShloMosaic.Init

set_option maxRecDepth 16384

noncomputable section

namespace Cert.Proof

open Idealize.ShloMosaic Idealize.SL.Sem

/-- The reference program's run: its three results are the network at the arguments, and the arguments are kept. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        (r.2.mem ((c.tc : Thread Cert.ReferenceIdeal.nD Cert.ReferenceIdeal.τ).loc Cert.ReferenceIdeal.main_v194)
            = Cert.ReferenceIdeal.RefRun.M14 m c (Proc.devRef .tc Cert.ReferenceIdeal.main_v194)
          ∧ r.2.mem ((c.tc : Thread Cert.ReferenceIdeal.nD Cert.ReferenceIdeal.τ).loc Cert.ReferenceIdeal.main_v247)
            = Cert.ReferenceIdeal.RefRun.M14 m c (Proc.devRef .tc Cert.ReferenceIdeal.main_v247)
          ∧ r.2.mem ((c.tc : Thread Cert.ReferenceIdeal.nD Cert.ReferenceIdeal.τ).loc Cert.ReferenceIdeal.main_v248)
            = Cert.ReferenceIdeal.RefRun.M14 m c (Proc.devRef .tc Cert.ReferenceIdeal.main_v248))
        ∧ ∀ b ∈ [Cert.ReferenceIdeal.main_arg0, Cert.ReferenceIdeal.main_arg1, Cert.ReferenceIdeal.main_arg2, Cert.ReferenceIdeal.main_arg3,
            Cert.ReferenceIdeal.main_arg4, Cert.ReferenceIdeal.main_arg5, Cert.ReferenceIdeal.main_arg6, Cert.ReferenceIdeal.main_arg7,
            Cert.ReferenceIdeal.main_arg8, Cert.ReferenceIdeal.main_arg9, Cert.ReferenceIdeal.main_arg10, Cert.ReferenceIdeal.main_arg11,
            Cert.ReferenceIdeal.main_arg12, Cert.ReferenceIdeal.main_arg13, Cert.ReferenceIdeal.main_arg14, Cert.ReferenceIdeal.main_arg15,
            Cert.ReferenceIdeal.main_arg16],
          r.2.mem ((c.tc : Thread Cert.ReferenceIdeal.nD Cert.ReferenceIdeal.τ).loc b) = m ((c.tc : Thread Cert.ReferenceIdeal.nD Cert.ReferenceIdeal.τ).loc b)) :=
  (θ_run (Cert.ReferenceIdeal.defs (F := Ideal)) _ _).mono
    (fun _ h c => ⟨⟨h c _, h c _, h c _⟩, fun b hb => (h c b).trans (Cert.ReferenceIdeal.RefRun.M14_arg m c b hb)⟩)
    (Cert.ReferenceIdeal.RefRun.run_after (F := Ideal) m ρ)

theorem frame_k : Cert.frame_Kernel := fun m ρ _ => Cert.Kernel.Gen.frame m ρ
theorem frame_ki : Cert.frame_KernelIdeal := fun m ρ _ => Cert.KernelIdeal.Gen.frame m ρ

theorem frame_ri : Cert.frame_ReferenceIdeal := fun m ρ _ =>
  (θ_run (Cert.ReferenceIdeal.defs (F := Ideal)) _ _).mono
    (fun _ h c => ⟨(h c).2 _ (by simp), (h c).2 _ (by simp), (h c).2 _ (by simp), (h c).2 _ (by simp), (h c).2 _ (by simp), (h c).2 _ (by simp),
      (h c).2 _ (by simp), (h c).2 _ (by simp), (h c).2 _ (by simp), (h c).2 _ (by simp), (h c).2 _ (by simp), (h c).2 _ (by simp),
      (h c).2 _ (by simp), (h c).2 _ (by simp), (h c).2 _ (by simp), (h c).2 _ (by simp), (h c).2 _ (by simp)⟩)
    (ref_run m ρ)

/-- Both programs end with the network of Spec.lean at the arguments: the kernel program by its boundaries, the reference by its
    stretches, from memories that agree on the arguments. -/
theorem algebraic : Cert.algebraic_KernelIdeal_ReferenceIdeal := by
  intro m ρ m' ρ' _ hagree
  refine ⟨fun c => Cert.Spec.emb (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Spec.logits (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => Cert.Spec.probs (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · refine (θ_run (Cert.KernelIdeal.defs (F := Ideal)) _ _).mono (fun _ h c => ?_) (Cert.KernelIdeal.KRun.run_results (F := Ideal) m ρ)
    exact ⟨(h c).1.trans (Cert.KernelIdeal.KChain.emb_at18 m ρ c), (h c).2.1.trans (Cert.KernelIdeal.KChain.logits_at18 m ρ c),
      (h c).2.2.1.trans (Cert.KernelIdeal.KChain.probs_at18 m ρ c), (h c).2.2.2⟩
  · refine (θ_run (Cert.ReferenceIdeal.defs (F := Ideal)) _ _).mono (fun _ h c => ?_) (ref_run m' ρ')
    obtain ⟨h0, h1, h2, h3, h4, h5, h6, h7, h8, h9, h10, h11, h12, h13, h14, h15, h16⟩ := hagree c
    refine ⟨?_, ?_, ?_, (h c).2 _ (by simp), (h c).2 _ (by simp), (h c).2 _ (by simp), (h c).2 _ (by simp), (h c).2 _ (by simp), (h c).2 _ (by simp),
      (h c).2 _ (by simp), (h c).2 _ (by simp), (h c).2 _ (by simp), (h c).2 _ (by simp), (h c).2 _ (by simp), (h c).2 _ (by simp),
      (h c).2 _ (by simp), (h c).2 _ (by simp), (h c).2 _ (by simp), (h c).2 _ (by simp), (h c).2 _ (by simp)⟩
    · rw [(h c).1.1, Cert.ReferenceIdeal.RefRun.M14_emb m' c, h0, h1, h3, h4, h5, h6, h7, h8, h9, h10]
    · rw [(h c).1.2.1, Cert.ReferenceIdeal.RefRun.M14_logits m' c, h0, h1, h2, h3, h4, h5, h6, h7, h8, h9, h10, h11, h12, h13, h14, h15, h16]
    · rw [(h c).1.2.2, Cert.ReferenceIdeal.RefRun.M14_probs m' c, h0, h1, h2, h3, h4, h5, h6, h7, h8, h9, h10, h11, h12, h13, h14, h15, h16]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
